-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58_1)) (v1 : (c : Dev Cert.KernelIdeal.nD) → Buf (Elt Ideal) ((c.tc : Thread Cert.KernelIdeal.nD Cert.KernelIdeal.τ).loc Cert.KernelIdeal.main_v74_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_1) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S2x800000 : Shape := ⟨2, ![2, 800000]⟩
abbrev S64x128 : Shape := ⟨2, ![64, 128]⟩
abbrev S128 : Shape := ⟨1, ![128]⟩
abbrev S2x192x128 : Shape := ⟨3, ![2, 192, 128]⟩
abbrev S2x128 : Shape := ⟨2, ![2, 128]⟩
abbrev S2x256x128 : Shape := ⟨3, ![2, 256, 128]⟩
abbrev S2x320x64 : Shape := ⟨3, ![2, 320, 64]⟩
abbrev S2x64 : Shape := ⟨2, ![2, 64]⟩
abbrev S128x32 : Shape := ⟨2, ![128, 32]⟩
abbrev S32 : Shape := ⟨1, ![32]⟩
abbrev S320x1 : Shape := ⟨2, ![320, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x192x128 : S_.BroadcastsInDim S2x192x128 (![] : Fin 0 → Fin S2x192x128.rank)
  reducesTo_S2x192x128_S_d0_1_2 : S2x192x128.ReducesTo [0, 1, 2] S_
  bcast_S_S2x128 : S_.BroadcastsInDim S2x128 (![] : Fin 0 → Fin S2x128.rank)
  reducesTo_S2x128_S_d0_1 : S2x128.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x320x64 : S_.BroadcastsInDim S2x320x64 (![] : Fin 0 → Fin S2x320x64.rank)
  reducesTo_S2x320x64_S_d0_1_2 : S2x320x64.ReducesTo [0, 1, 2] S_
  bcast_S_S2x64 : S_.BroadcastsInDim S2x64 (![] : Fin 0 → Fin S2x64.rank)
  reducesTo_S2x64_S_d0_1 : S2x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S320x1 : S_.BroadcastsInDim S320x1 (![] : Fin 0 → Fin S320x1.rank)
  reducesTo_S320x1_S_d0_1 : S320x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg2 main_v69
  let main_c_27 : IVec S_ 1 := constantI S_ 1 1#1
  let main_v71 : IVec S_ 1 := (fun x v => Host.reduce IntOp.andi x v reducesTo_S2x800000_S_d0_1 h_S_) main_v70 main_c_27
  let main_v72 : IVec S_ 1 := andi main_v68 main_v71
  let main_c_28 : IVec S_ 32 := constantI S_ 32 50000#32
  let main_v73 : IVec S2x800000 32 := broadcastInDim S2x800000 ![] bcast_S_S2x800000 main_c_28
  let main_v74 : IVec S2x800000 1 := cmpi .slt main_arg2 main_v73
  let main_c_29 : IVec S_ 1 := constantI S_ 1 1#1
  let main_v75 : IVec S_ 1 := (fun x v => Host.reduce IntOp.andi x v reducesTo_S2x800000_S_d0_1 h_S_) main_v74 main_c_29
  let main_v76 : IVec S_ 1 := andi main_v72 main_v75
  main_v76

def fn_part3 {F : FTy → Type} [FloatOps F] (main_arg2 : IVec S2x800000 32) (main_arg12 : FVec F S32 .f32) (main_arg13 : FVec F S320x1 .f32) (main_arg14 : FVec F S1 .f32) (main_v48 : IVec S_ 1) (main_v49 : FVec F S128x32 .f32) (main_v50 : FVec F S128x32 .f32) : IVec S_ 1 :=
  let main_v51 : IVec S128x32 1 := cmpf .olt main_v49 main_v50
  let main_c_19 : IVec S_ 1 := constantI S_ 1 1#1
  let main_v52 : IVec S_ 1 := (fun x v => Host.reduce IntOp.andi x v reducesTo_S128x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S320x1 .f32 := Host.absf main_arg13
  let main_cst_22 : FVec F S_ .f32 := constant S_ .f32 0x7F800000#32
  let main_v60 : FVec F S320x1 .f32 := broadcastInDim S320x1 ![] bcast_S_S320x1 main_cst_22
  let main_v61 : IVec S320x1 1 := cmpf .olt main_v59 main_v60
  let main_c_23 : IVec S_ 1 := constantI S_ 1 1#1
  let main_v62 : IVec S_ 1 := (fun x v => Host.reduce IntOp.andi x v reducesTo_S320x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_v63 main_v67

def fn_part2 {F : FTy → Type} [FloatOps F] (main_arg2 : IVec S2x800000 32) (main_arg8 : FVec F S2x128 .f32) (main_arg9 : FVec F S2x320x64 .f32) (main_arg10 : FVec F S2x64 .f32) (main_arg11 : FVec F S128x32 .f32) (main_arg12 : FVec F S32 .f32) (main_arg13 : FVec F S320x1 .f32) (main_arg14 : FVec F S1 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x320x64 .f32 := Host.absf main_arg9
  let main_cst_14 : FVec F S_ .f32 := constant S_ .f32 0x7F800000#32
  let main_v40 : FVec F S2x320x64 .f32 := broadcastInDim S2x320x64 ![] bcast_S_S2x320x64 main_cst_14
  let main_v41 : IVec S2x320x64 1 := cmpf .olt main_v39 main_v40
  let main_c_15 : IVec S_ 1 := constantI S_ 1 1#1
  let main_v42 : IVec S_ 1 := (fun x v => Host.reduce IntOp.andi x v reducesTo_S2x320x64_S_d0_1_2 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S128x32 .f32 := Host.absf main_arg11
  let main_cst_18 : FVec F S_ .f32 := constant S_ .f32 0x7F800000#32
  let main_v50 : FVec F S128x32 .f32 := broadcastInDim S128x32 ![] bcast_S_S128x32 main_cst_18
  fn_part3 (F := F) main_arg2 main_arg12 main_arg13 main_arg14 main_v48 main_v49 main_v50

def fn_part1 {F : FTy → Type} [FloatOps F] (main_arg2 : IVec S2x800000 32) (main_arg5 : FVec F S2x192x128 .f32) (main_arg6 : FVec F S2x128 .f32) (main_arg7 : FVec F S2x256x128 .f32) (main_arg8 : FVec F S2x128 .f32) (main_arg9 : FVec F S2x320x64 .f32) (main_arg10 : FVec F S2x64 .f32) (main_arg11 : FVec F S128x32 .f32) (main_arg12 : FVec F S32 .f32) (main_arg13 : FVec F S320x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x192x128 .f32 := Host.absf main_arg5
  let main_cst_6 : FVec F S_ .f32 := constant S_ .f32 0x7F800000#32
  let main_v20 : FVec F S2x192x128 .f32 := broadcastInDim S2x192x128 ![] bcast_S_S2x192x128 main_cst_6
  let main_v21 : IVec S2x192x128 1 := cmpf .olt main_v19 main_v20
  let main_c_7 : IVec S_ 1 := constantI S_ 1 1#1
  let main_v22 : IVec S_ 1 := (fun x v => Host.reduce IntOp.andi x v reducesTo_S2x192x128_S_d0_1_2 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x256x128 .f32 := Host.absf main_arg7
  let main_cst_10 : FVec F S_ .f32 := constant S_ .f32 0x7F800000#32
  let main_v30 : FVec F S2x256x128 .f32 := broadcastInDim S2x256x128 ![] bcast_S_S2x256x128 main_cst_10
  let main_v31 : IVec S2x256x128 1 := cmpf .olt main_v29 main_v30
  let main_c_11 : IVec S_ 1 := constantI S_ 1 1#1
  let main_v32 : IVec S_ 1 := (fun x v => Host.reduce IntOp.andi x v reducesTo_S2x256x128_S_d0_1_2 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S50000x64 .f32) (main_arg1 : FVec F S800000x64 .f32) (main_arg2 : IVec S2x800000 32) (main_arg3 : FVec F S64x128 .f32) (main_arg4 : FVec F S128 .f32) (main_arg5 : FVec F S2x192x128 .f32) (main_arg6 : FVec F S2x128 .f32) (main_arg7 : FVec F S2x256x128 .f32) (main_arg8 : FVec F S2x128 .f32) (main_arg9 : FVec F S2x320x64 .f32) (main_arg10 : FVec F S2x64 .f32) (main_arg11 : FVec F S128x32 .f32) (main_arg12 : FVec F S32 .f32) (main_arg13 : FVec F S320x1 .f32) (main_arg14 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S50000x64 : Shape := ⟨2, ![50000, 64]⟩
abbrev S800000x64 : Shape := ⟨2, ![800000, 64]⟩
abbrev S2x800000 : Shape := ⟨2, ![2, 800000]⟩
abbrev S64x128 : Shape := ⟨2, ![64, 128]⟩
abbrev S128 : Shape := ⟨1, ![128]⟩
abbrev S2x192x128 : Shape := ⟨3, ![2, 192, 128]⟩
abbrev S2x128 : Shape := ⟨2, ![2, 128]⟩
abbrev S2x256x128 : Shape := ⟨3, ![2, 256, 128]⟩
abbrev S2x320x64 : Shape := ⟨3, ![2, 320, 64]⟩
abbrev S2x64 : Shape := ⟨2, ![2, 64]⟩
abbrev S128x32 : Shape := ⟨2, ![128, 32]⟩
abbrev S32 : Shape := ⟨1, ![32]⟩
abbrev S320x1 : Shape := ⟨2, ![320, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S50000x128 : Shape := ⟨2, ![50000, 128]⟩
abbrev S10000x64 : Shape := ⟨2, ![10000, 64]⟩
abbrev S10000x128 : Shape := ⟨2, ![10000, 128]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x128x128 : Shape := ⟨3, ![1, 128, 128]⟩
abbrev S128x128 : Shape := ⟨2, ![128, 128]⟩
abbrev S1x64x128 : Shape := ⟨3, ![1, 64, 128]⟩
abbrev S16000x128 : Shape := ⟨2, ![16000, 128]⟩
abbrev S16000x64 : Shape := ⟨2, ![16000, 64]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x32 : Shape := ⟨2, ![1, 32]⟩
abbrev S50000x32 : Shape := ⟨2, ![50000, 32]⟩
abbrev S10000x32 : Shape := ⟨2, ![10000, 32]⟩
abbrev S128x1 : Shape := ⟨2, ![128, 1]⟩
abbrev S64x1 : Shape := ⟨2, ![64, 1]⟩
abbrev S16000x1 : Shape := ⟨2, ![16000, 1]⟩

abbrev nBuf : Space → Nat
  | .hbm => 226
  | .vmem => 76
  | .smem => 0
  | _ => 0

abbrev hbmTy0_0 (i : Nat) : BufTy := match i % 128 with
  | 0 => ⟨S50000x64, .f32⟩
  | 1 => ⟨S800000x64, .f32⟩
  | 2 => ⟨S2x800000, .i32⟩
  | 3 => ⟨S64x128, .f32⟩
  | 4 => ⟨S128, .f32⟩
  | 5 => ⟨S2x192x128, .f32⟩
  | 6 => ⟨S2x128, .f32⟩
  | 7 => ⟨S2x256x128, .f32⟩
  | 8 => ⟨S2x128, .f32⟩
  | 9 => ⟨S2x320x64, .f32⟩
  | 10 => ⟨S2x64, .f32⟩
  | 11 => ⟨S128x32, .f32⟩
  | 12 => ⟨S32, .f32⟩
  | 13 => ⟨S320x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S1x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x128, .f32⟩
  | 40 => ⟨S800000x128, .i1⟩
  | 41 => ⟨S_, .f32⟩
  | 42 => ⟨S800000x128, .f32⟩
  | 43 => ⟨S800000x128, .f32⟩
  | 44 => ⟨S1x128x128, .f32⟩
  | 45 => ⟨S128x128, .f32⟩
  | 46 => ⟨S1x64x128, .f32⟩
  | 47 => ⟨S64x128, .f32⟩
  | 48 => ⟨S1x128, .f32⟩
  | 49 => ⟨S128, .f32⟩
  | 50 => ⟨S1x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S1x128x128, .f32⟩
  | 57 => ⟨S128x128, .f32⟩
  | 58 => ⟨S1x128x128, .f32⟩
  | 59 => ⟨S128x128, .f32⟩
  | 60 => ⟨S1x128, .f32⟩
  | 61 => ⟨S128, .f32⟩
  | 62 => ⟨S1x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S1, .i32⟩
  | 73 => ⟨S_, .i32⟩
  | 74 => ⟨S800000x1, .i32⟩
  | 75 => ⟨S800000x1, .i1⟩
  | 76 => ⟨S1x1, .i32⟩
  | 77 => ⟨S800000x1, .i32⟩
  | 78 => ⟨S800000x1, .i1⟩
  | 79 => ⟨S800000x1, .i1⟩
  | 80 => ⟨S_, .i1⟩
  | 81 => ⟨S800000, .i1⟩
  | 82 => ⟨S800000x128, .f32⟩
  | 83 => ⟨S800000x128, .i1⟩
  | 84 => ⟨S_, .f32⟩
  | 85 => ⟨S800000x128, .f32⟩
  | 86 => ⟨S800000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S1, .i32⟩
  | 96 => ⟨S_, .i32⟩
  | 97 => ⟨S800000x1, .i32⟩
  | 98 => ⟨S800000x1, .i1⟩
  | 99 => ⟨S1x1, .i32⟩
  | 100 => ⟨S800000x1, .i32⟩
  | 101 => ⟨S800000x1, .i1⟩
  | 102 => ⟨S800000x1, .i1⟩
  | 103 => ⟨S_, .i1⟩
  | 104 => ⟨S800000, .i1⟩
  | 105 => ⟨S800000x128, .f32⟩
  | 106 => ⟨S800000x128, .i1⟩
  | 107 => ⟨S_, .f32⟩
  | 108 => ⟨S800000x128, .f32⟩
  | 109 => ⟨S800000x128, .f32⟩
  | 110 => ⟨S1x128x64, .f32⟩
  | 111 => ⟨S128x64, .f32⟩
  | 112 => ⟨S1x128x64, .f32⟩
  | 113 => ⟨S128x64, .f32⟩
  | 114 => ⟨S1x64x64, .f32⟩
  | 115 => ⟨S64x64, .f32⟩
  | 116 => ⟨S1x64, .f32⟩
  | 117 => ⟨S64, .f32⟩
  | 118 => ⟨S1x64, .f32⟩
  | 119 => ⟨S800000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S1, .i32⟩
  | 1 => ⟨S_, .i32⟩
  | 2 => ⟨S800000x1, .i32⟩
  | 3 => ⟨S800000x1, .i1⟩
  | 4 => ⟨S1x1, .i32⟩
  | 5 => ⟨S800000x1, .i32⟩
  | 6 => ⟨S800000x1, .i1⟩
  | 7 => ⟨S800000x1, .i1⟩
  | 8 => ⟨S_, .i1⟩
  | 9 => ⟨S800000, .i1⟩
  | 10 => ⟨S800000x128, .f32⟩
  | 11 => ⟨S800000x128, .i1⟩
  | 12 => ⟨S_, .f32⟩
  | 13 => ⟨S800000x128, .f32⟩
  | 14 => ⟨S800000x128, .f32⟩
  | 15 => ⟨S1x128x128, .f32⟩
  | 16 => ⟨S128x128, .f32⟩
  | 17 => ⟨S1x64x128, .f32⟩
  | 18 => ⟨S64x128, .f32⟩
  | 19 => ⟨S1x128, .f32⟩
  | 20 => ⟨S128, .f32⟩
  | 21 => ⟨S1x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1x128x128, .f32⟩
  | 28 => ⟨S128x128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S1x32, .f32⟩
  | 35 => ⟨S50000x128, .f32⟩
  | 36 => ⟨S50000x32, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S1, .i32⟩
  | 46 => ⟨S_, .i32⟩
  | 47 => ⟨S800000x1, .i32⟩
  | 48 => ⟨S800000x1, .i1⟩
  | 49 => ⟨S1x1, .i32⟩
  | 50 => ⟨S800000x1, .i32⟩
  | 51 => ⟨S800000x1, .i1⟩
  | 52 => ⟨S800000x1, .i1⟩
  | 53 => ⟨S_, .i1⟩
  | 54 => ⟨S800000, .i1⟩
  | 55 => ⟨S800000x128, .f32⟩
  | 56 => ⟨S800000x128, .i1⟩
  | 57 => ⟨S_, .f32⟩
  | 58 => ⟨S800000x128, .f32⟩
  | 59 => ⟨S800000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S1, .i32⟩
  | 69 => ⟨S_, .i32⟩
  | 70 => ⟨S800000x1, .i32⟩
  | 71 => ⟨S800000x1, .i1⟩
  | 72 => ⟨S1x1, .i32⟩
  | 73 => ⟨S800000x1, .i32⟩
  | 74 => ⟨S800000x1, .i1⟩
  | 75 => ⟨S800000x1, .i1⟩
  | 76 => ⟨S_, .i1⟩
  | 77 => ⟨S800000, .i1⟩
  | 78 => ⟨S800000x128, .f32⟩
  | 79 => ⟨S800000x128, .i1⟩
  | 80 => ⟨S_, .f32⟩
  | 81 => ⟨S800000x128, .f32⟩
  | 82 => ⟨S800000x128, .f32⟩
  | 83 => ⟨S1x128x64, .f32⟩
  | 84 => ⟨S128x64, .f32⟩
  | 85 => ⟨S1x128x64, .f32⟩
  | 86 => ⟨S128x64, .f32⟩
  | 87 => ⟨S1x64x64, .f32⟩
  | 88 => ⟨S64x64, .f32⟩
  | 89 => ⟨S1x64, .f32⟩
  | 90 => ⟨S64, .f32⟩
  | 91 => ⟨S128x1, .f32⟩
  | 92 => ⟨S128x1, .f32⟩
  | 93 => ⟨S64x1, .f32⟩
  | 94 => ⟨S1x64, .f32⟩
  | 95 => ⟨S1x1, .f32⟩
  | 96 => ⟨S800000x64, .f32⟩
  | 97 => ⟨S800000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S16000x128, .f32⟩
  | .local _ .vmem, ⟨7, _⟩ => ⟨S16000x128, .f32⟩
  | .local _ .vmem, ⟨8, _⟩ => ⟨S128x128, .f32⟩
  | .local _ .vmem, ⟨9, _⟩ => ⟨S16000x64, .f32⟩
  | .local _ .vmem, ⟨10, _⟩ => ⟨S16000x64, .f32⟩
  | .local _ .vmem, ⟨11, _⟩ => ⟨S64x128, .f32⟩
  | .local _ .vmem, ⟨12, _⟩ => ⟨S1x128, .f32⟩
  | .local _ .vmem, ⟨13, _⟩ => ⟨S16000x128, .f32⟩
  | .local _ .vmem, ⟨14, _⟩ => ⟨S16000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S16000x128, .f32⟩
  | .local _ .vmem, ⟨25, _⟩ => ⟨S16000x128, .f32⟩
  | .local _ .vmem, ⟨26, _⟩ => ⟨S128x64, .f32⟩
  | .local _ .vmem, ⟨27, _⟩ => ⟨S16000x128, .f32⟩
  | .local _ .vmem, ⟨28, _⟩ => ⟨S16000x128, .f32⟩
  | .local _ .vmem, ⟨29, _⟩ => ⟨S128x64, .f32⟩
  | .local _ .vmem, ⟨30, _⟩ => ⟨S16000x64, .f32⟩
  | .local _ .vmem, ⟨31, _⟩ => ⟨S16000x64, .f32⟩
  | .local _ .vmem, ⟨32, _⟩ => ⟨S64x64, .f32⟩
  | .local _ .vmem, ⟨33, _⟩ => ⟨S1x64, .f32⟩
  | .local _ .vmem, ⟨34, _⟩ => ⟨S16000x64, .f32⟩
  | .local _ .vmem, ⟨35, _⟩ => ⟨S16000x64, .f32⟩
  | .local _ .vmem, ⟨36, _⟩ => ⟨S16000x128, .f32⟩
  | .local _ .vmem, ⟨37, _⟩ => ⟨S16000x128, .f32⟩
  | .local _ .vmem, ⟨38, _⟩ => ⟨S128x128, .f32⟩
  | .local _ .vmem, ⟨39, _⟩ => ⟨S16000x64, .f32⟩
  | .local _ .vmem, ⟨40, _⟩ => ⟨S16000x64, .f32⟩
  | .local _ .vmem, ⟨41, _⟩ => ⟨S64x128, .f32⟩
  | .local _ .vmem, ⟨42, _⟩ => ⟨S1x128, .f32⟩
  | .local _ .vmem, ⟨43, _⟩ => ⟨S16000x128, .f32⟩
  | .local _ .vmem, ⟨44, _⟩ => ⟨S16000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S128x32, .f32⟩
  | .local _ .vmem, ⟨53, _⟩ => ⟨S1x32, .f32⟩
  | .local _ .vmem, ⟨54, _⟩ => ⟨S10000x128, .f32⟩
  | .local _ .vmem, ⟨55, _⟩ => ⟨S10000x128, .f32⟩
  | .local _ .vmem, ⟨56, _⟩ => ⟨S10000x32, .f32⟩
  | .local _ .vmem, ⟨57, _⟩ => ⟨S10000x32, .f32⟩
  | .local _ .vmem, ⟨58, _⟩ => ⟨S16000x128, .f32⟩
  | .local _ .vmem, ⟨59, _⟩ => ⟨S16000x128, .f32⟩
  | .local _ .vmem, ⟨60, _⟩ => ⟨S16000x128, .f32⟩
  | .local _ .vmem, ⟨61, _⟩ => ⟨S16000x128, .f32⟩
  | .local _ .vmem, ⟨62, _⟩ => ⟨S16000x64, .f32⟩
  | .local _ .vmem, ⟨63, _⟩ => ⟨S16000x64, .f32⟩
  | .local _ .vmem, ⟨64, _⟩ => ⟨S128x64, .f32⟩
  | .local _ .vmem, ⟨65, _⟩ => ⟨S128x64, .f32⟩
  | .local _ .vmem, ⟨66, _⟩ => ⟨S64x64, .f32⟩
  | .local _ .vmem, ⟨67, _⟩ => ⟨S1x64, .f32⟩
  | .local _ .vmem, ⟨68, _⟩ => ⟨S128x1, .f32⟩
  | .local _ .vmem, ⟨69, _⟩ => ⟨S128x1, .f32⟩
  | .local _ .vmem, ⟨70, _⟩ => ⟨S64x1, .f32⟩
  | .local _ .vmem, ⟨71, _⟩ => ⟨S1x1, .f32⟩
  | .local _ .vmem, ⟨72, _⟩ => ⟨S16000x64, .f32⟩
  | .local _ .vmem, ⟨73, _⟩ => ⟨S16000x64, .f32⟩
  | .local _ .vmem, ⟨74, _⟩ => ⟨S16000x1, .f32⟩
  | .local _ .vmem, ⟨75, _⟩ => ⟨S16000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v26 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_cst_0 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58_0 : Ref sig .tc := ⟨.hbm, 163, rfl⟩
abbrev main_v58_1 : Ref sig .tc := ⟨.hbm, 164, rfl⟩
abbrev main_call4_c : Ref sig .tc := ⟨.hbm, 165, rfl⟩
abbrev main_call4_v0 : Ref sig .tc := ⟨.hbm, 166, rfl⟩
abbrev main_call4_v1 : Ref sig .tc := ⟨.hbm, 167, rfl⟩
abbrev main_call4_c_0 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_v5 : Ref sig .tc := ⟨.hbm, 172, rfl⟩
abbrev main_call4_c_1 : Ref sig .tc := ⟨.hbm, 173, rfl⟩
abbrev main_call4_c_2 : Ref sig .tc := ⟨.hbm, 174, rfl⟩
abbrev main_call4_v6 : Ref sig .tc := ⟨.hbm, 175, rfl⟩
abbrev main_call4_v7 : Ref sig .tc := ⟨.hbm, 176, rfl⟩
abbrev main_call4_v8 : Ref sig .tc := ⟨.hbm, 177, rfl⟩
abbrev main_call4_v9 : Ref sig .tc := ⟨.hbm, 178, rfl⟩
abbrev main_call4_v10 : Ref sig .tc := ⟨.hbm, 179, rfl⟩
abbrev main_call4_v11 : Ref sig .tc := ⟨.hbm, 180, rfl⟩
abbrev main_call4_c_3 : Ref sig .tc := ⟨.hbm, 181, rfl⟩
abbrev main_call4_v12 : Ref sig .tc := ⟨.hbm, 182, rfl⟩
abbrev main_call4_v13 : Ref sig .tc := ⟨.hbm, 183, rfl⟩
abbrev main_call4_v14 : Ref sig .tc := ⟨.hbm, 184, rfl⟩
abbrev main_call4_cst : Ref sig .tc := ⟨.hbm, 185, rfl⟩
abbrev main_call4_v15 : Ref sig .tc := ⟨.hbm, 186, rfl⟩
abbrev main_v59 : Ref sig .tc := ⟨.hbm, 187, rfl⟩
abbrev main_call5_c : Ref sig .tc := ⟨.hbm, 188, rfl⟩
abbrev main_call5_v0 : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_v5 : Ref sig .tc := ⟨.hbm, 195, rfl⟩
abbrev main_call5_c_1 : Ref sig .tc := ⟨.hbm, 196, rfl⟩
abbrev main_call5_c_2 : Ref sig .tc := ⟨.hbm, 197, rfl⟩
abbrev main_call5_v6 : Ref sig .tc := ⟨.hbm, 198, rfl⟩
abbrev main_call5_v7 : Ref sig .tc := ⟨.hbm, 199, rfl⟩
abbrev main_call5_v8 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_c_3 : Ref sig .tc := ⟨.hbm, 204, rfl⟩
abbrev main_call5_v12 : Ref sig .tc := ⟨.hbm, 205, rfl⟩
abbrev main_call5_v13 : Ref sig .tc := ⟨.hbm, 206, rfl⟩
abbrev main_call5_v14 : Ref sig .tc := ⟨.hbm, 207, rfl⟩
abbrev main_call5_cst : Ref sig .tc := ⟨.hbm, 208, rfl⟩
abbrev main_call5_v15 : Ref sig .tc := ⟨.hbm, 209, rfl⟩
abbrev main_v60 : Ref sig .tc := ⟨.hbm, 210, rfl⟩
abbrev main_v61 : Ref sig .tc := ⟨.hbm, 211, rfl⟩
abbrev main_v62 : Ref sig .tc := ⟨.hbm, 212, rfl⟩
abbrev main_v63 : Ref sig .tc := ⟨.hbm, 213, rfl⟩
abbrev main_v64 : Ref sig .tc := ⟨.hbm, 214, rfl⟩
abbrev main_v65 : Ref sig .tc := ⟨.hbm, 215, rfl⟩
abbrev main_v66 : Ref sig .tc := ⟨.hbm, 216, rfl⟩
abbrev main_v67 : Ref sig .tc := ⟨.hbm, 217, rfl⟩
abbrev main_v68 : Ref sig .tc := ⟨.hbm, 218, rfl⟩
abbrev main_v69 : Ref sig .tc := ⟨.hbm, 219, rfl⟩
abbrev main_v70 : Ref sig .tc := ⟨.hbm, 220, rfl⟩
abbrev main_v71 : Ref sig .tc := ⟨.hbm, 221, rfl⟩
abbrev main_v72 : Ref sig .tc := ⟨.hbm, 222, rfl⟩
abbrev main_v73 : Ref sig .tc := ⟨.hbm, 223, rfl⟩
abbrev main_v74_0 : Ref sig .tc := ⟨.hbm, 224, rfl⟩
abbrev main_v74_1 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc5_stg8_0 : Ref sig .tc := ⟨.vmem, 56, rfl⟩
abbrev cc5_stg8_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg2_1 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg7_0 : Ref sig .tc := ⟨.vmem, 68, rfl⟩
abbrev cc6_stg8_0 : Ref sig .tc := ⟨.vmem, 69, rfl⟩
abbrev cc6_stg9_0 : Ref sig .tc := ⟨.vmem, 70, rfl⟩
abbrev cc6_stg10_0 : Ref sig .tc := ⟨.vmem, 71, rfl⟩
abbrev cc6_stg11_0 : Ref sig .tc := ⟨.vmem, 72, rfl⟩
abbrev cc6_stg11_1 : Ref sig .tc := ⟨.vmem, 73, rfl⟩
abbrev cc6_stg12_0 : Ref sig .tc := ⟨.vmem, 74, rfl⟩
abbrev cc6_stg12_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55
abbrev cc5_sem8_0 : DmaSem sig := 56
abbrev cc5_sem8_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem2_1 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem7_0 : DmaSem sig := 68
abbrev cc6_sem8_0 : DmaSem sig := 69
abbrev cc6_sem9_0 : DmaSem sig := 70
abbrev cc6_sem10_0 : DmaSem sig := 71
abbrev cc6_sem11_0 : DmaSem sig := 72
abbrev cc6_sem11_1 : DmaSem sig := 73
abbrev cc6_sem12_0 : DmaSem sig := 74
abbrev cc6_sem12_1 : DmaSem sig := 75

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S16000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S16000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S16000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S16000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S16000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S10000x32 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S16000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S16000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S16000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S16000x64 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S16000x1 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S2x192x128_S1x128x128_0_0_0 : S2x192x128.Slices ![0, 0, 0] S1x128x128
  shapeCasts_S1x128x128_S128x128 : S1x128x128.ShapeCasts S128x128
  slices_S2x192x128_S1x64x128_0_128_0 : S2x192x128.Slices ![0, 128, 0] S1x64x128
  shapeCasts_S1x64x128_S64x128 : S1x64x128.ShapeCasts S64x128
  slices_S2x128_S1x128_0_0 : S2x128.Slices ![0, 0] S1x128
  shapeCasts_S1x128_S128 : S1x128.ShapeCasts S128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16000x64_S16000x64_0_0 : ∀ a, (![0, 0] : Fin 2 → Nat) a + S16000x64.size a ≤ S16000x64.size a
  h_S16000x64 : 0 < S16000x64.numel
  shapeCasts_S64x128_S64x128 : S64x128.ShapeCasts S64x128
  broadcasts_S1x128_S16000x128 : S1x128.Broadcasts S16000x128
  bcast_S_S50000x128 : S_.BroadcastsInDim S50000x128 (![] : Fin 0 → Fin S50000x128.rank)
  slices_S2x256x128_S1x128x128_0_0_0 : S2x256x128.Slices ![0, 0, 0] S1x128x128
  slices_S2x256x128_S1x128x128_0_128_0 : S2x256x128.Slices ![0, 128, 0] S1x128x128
  shapeCasts_S10000x128_S10000x128 : S10000x128.ShapeCasts S10000x128
  slices_S2x320x64_S1x128x64_0_0_0 : S2x320x64.Slices ![0, 0, 0] S1x128x64
  shapeCasts_S1x128x64_S128x64 : S1x128x64.ShapeCasts S128x64
  slices_S2x320x64_S1x128x64_0_128_0 : S2x320x64.Slices ![0, 128, 0] S1x128x64
  slices_S2x320x64_S1x64x64_0_256_0 : S2x320x64.Slices ![0, 256, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  slices_S2x192x128_S1x128x128_1_0_0 : S2x192x128.Slices ![1, 0, 0] S1x128x128
  slices_S2x192x128_S1x64x128_1_128_0 : S2x192x128.Slices ![1, 128, 0] S1x64x128
  slices_S2x128_S1x128_1_0 : S2x128.Slices ![1, 0] S1x128
  shapeCasts_S16000x64_S16000x64 : S16000x64.ShapeCasts S16000x64
  slices_S2x256x128_S1x128x128_1_0_0 : S2x256x128.Slices ![1, 0, 0] S1x128x128
  slices_S2x256x128_S1x128x128_1_128_0 : S2x256x128.Slices ![1, 128, 0] S1x128x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  slices_S2x320x64_S1x128x64_1_0_0 : S2x320x64.Slices ![1, 0, 0] S1x128x64
  slices_S2x320x64_S1x128x64_1_128_0 : S2x320x64.Slices ![1, 128, 0] S1x128x64
  slices_S2x320x64_S1x64x64_1_256_0 : S2x320x64.Slices ![1, 256, 0] S1x64x64
  slices_S2x64_S1x64_1_0 : S2x64.Slices ![1, 0] S1x64
  slices_S320x1_S128x1_0_0 : S320x1.Slices ![0, 0] S128x1
  slices_S320x1_S128x1_128_0 : S320x1.Slices ![128, 0] S128x1
  slices_S320x1_S64x1_256_0 : S320x1.Slices ![256, 0] S64x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  dot_S10000x64_S64x128_S10000x128_1_0_0_1_n_n_wf : DotDims.WF S10000x64 S64x128 S10000x128 [1] [0] [0] [1] [] []
  gather_S50000x128_S800000x1_S800000x128_1_0_n_n_0_1_1128_wf : GatherDims.WF S50000x128 S800000x1 S800000x128 [1] [0] [] [0] [] 1 ![1, 128]
  dot_S16000x128_S128x128_S16000x128_1_0_0_1_n_n_wf : DotDims.WF S16000x128 S128x128 S16000x128 [1] [0] [0] [1] [] []
  dot_S16000x64_S64x128_S16000x128_1_0_0_1_n_n_wf : DotDims.WF S16000x64 S64x128 S16000x128 [1] [0] [0] [1] [] []
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S16000x128_S128x64_S16000x64_1_0_0_1_n_n_wf : DotDims.WF S16000x128 S128x64 S16000x64 [1] [0] [0] [1] [] []
  dot_S16000x64_S64x64_S16000x64_1_0_0_1_n_n_wf : DotDims.WF S16000x64 S64x64 S16000x64 [1] [0] [0] [1] [] []
  dot_S10000x128_S128x32_S10000x32_1_0_0_1_n_n_wf : DotDims.WF S10000x128 S128x32 S10000x32 [1] [0] [0] [1] [] []
  dot_S16000x128_S128x1_S16000x1_1_0_0_1_n_n_wf : DotDims.WF S16000x128 S128x1 S16000x1 [1] [0] [0] [1] [] []
  dot_S16000x64_S64x1_S16000x1_1_0_0_1_n_n_wf : DotDims.WF S16000x64 S64x1 S16000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S800000x128.size a
  hwx1_0 : ∀ i : grid1.Coords, EltTy.bits .f32 = 32 ∨ (Rect.block (s := S800000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x64.size a ≤ S800000x64.size a
  hwx1_2 : ∀ i : grid1.Coords, EltTy.bits .f32 = 32 ∨ (Rect.block (s := S800000x64) S16000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x128.size a ≤ S800000x128.size a
  hwx1_5 : ∀ i : grid1.Coords, EltTy.bits .f32 = 32 ∨ (Rect.block (s := S800000x128) S16000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .f32 = 32 ∨ (Rect.block (s := S50000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x128.size a ≤ S800000x128.size a
  hwx3_0 : ∀ i : grid3.Coords, EltTy.bits .f32 = 32 ∨ (Rect.block (s := S800000x128) S16000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x128.size a ≤ S800000x128.size a
  hwx3_2 : ∀ i : grid3.Coords, EltTy.bits .f32 = 32 ∨ (Rect.block (s := S800000x128) S16000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S16000x64.size a ≤ S800000x64.size a
  hwx3_4 : ∀ i : grid3.Coords, EltTy.bits .f32 = 32 ∨ (Rect.block (s := S800000x64) S16000x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S16000x64.size a ≤ S800000x64.size a
  hwx3_7 : ∀ i : grid3.Coords, EltTy.bits .f32 = 32 ∨ (Rect.block (s := S800000x64) S16000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16000x128.size a ≤ S800000x128.size a
  hwx4_0 : ∀ i : grid4.Coords, EltTy.bits .f32 = 32 ∨ (Rect.block (s := S800000x128) S16000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16000x64.size a ≤ S800000x64.size a
  hwx4_2 : ∀ i : grid4.Coords, EltTy.bits .f32 = 32 ∨ (Rect.block (s := S800000x64) S16000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S16000x128.size a ≤ S800000x128.size a
  hwx4_5 : ∀ i : grid4.Coords, EltTy.bits .f32 = 32 ∨ (Rect.block (s := S800000x128) S16000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S50000x128.size a
  hwx5_1 : ∀ i : grid5.Coords, EltTy.bits .f32 = 32 ∨ (Rect.block (s := S50000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x32.size a ≤ S128x32.size a
  hwx5_5 : ∀ i : grid5.Coords, EltTy.bits .f32 = 32 ∨ (Rect.block (s := S128x32) S128x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32.size a ≤ S1x32.size a
  hwx5_6 : ∀ i : grid5.Coords, EltTy.bits .f32 = 32 ∨ (Rect.block (s := S1x32) S1x32.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x128.size a ≤ S50000x128.size a
  hwx5_7 : ∀ i : grid5.Coords, EltTy.bits .f32 = 32 ∨ (Rect.block (s := S50000x128) S10000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S10000x32.size a ≤ S50000x32.size a
  hwx5_8 : ∀ i : grid5.Coords, EltTy.bits .f32 = 32 ∨ (Rect.block (s := S50000x32) S10000x32.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S16000x128.size a ≤ S800000x128.size a
  hwx6_0 : ∀ i : grid6.Coords, EltTy.bits .f32 = 32 ∨ (Rect.block (s := S800000x128) S16000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S16000x128.size a ≤ S800000x128.size a
  hwx6_1 : ∀ i : grid6.Coords, EltTy.bits .f32 = 32 ∨ (Rect.block (s := S800000x128) S16000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S16000x64.size a ≤ S800000x64.size a
  hwx6_2 : ∀ i : grid6.Coords, EltTy.bits .f32 = 32 ∨ (Rect.block (s := S800000x64) S16000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x1.size a ≤ S128x1.size a
  hwx6_7 : ∀ i : grid6.Coords, EltTy.bits .f32 = 32 ∨ (Rect.block (s := S128x1) S128x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x1.size a ≤ S128x1.size a
  hwx6_8 : ∀ i : grid6.Coords, EltTy.bits .f32 = 32 ∨ (Rect.block (s := S128x1) S128x1.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S64x1.size a ≤ S64x1.size a
  hwx6_9 : ∀ i : grid6.Coords, EltTy.bits .f32 = 32 ∨ (Rect.block (s := S64x1) S64x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S16000x64.size a ≤ S800000x64.size a
  hwx6_11 : ∀ i : grid6.Coords, EltTy.bits .f32 = 32 ∨ (Rect.block (s := S800000x64) S16000x64.size (cc6_transform_11 i) (hinb6_11 i)).WholeWords (EltTy.packing .f32)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S16000x1.size a ≤ S800000x1.size a
  hwx6_12 : ∀ i : grid6.Coords, EltTy.bits .f32 = 32 ∨ (Rect.block (s := S800000x1) S16000x1.size (cc6_transform_12 i) (hinb6_12 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S16000x128_S128x1_S16000x1_1_0_0_1_n_n : DotDims S16000x128 S128x1 S16000x1 where
  lhsContracting := [1]
  rhsContracting := [0]
  lhsNonContracting := [0]
  rhsNonContracting := [1]
  lhsBatch := []
  rhsBatch := []
  wf := dot_S16000x128_S128x1_S16000x1_1_0_0_1_n_n_wf
def dot_S16000x64_S64x1_S16000x1_1_0_0_1_n_n : DotDims S16000x64 S64x1 S16000x1 where
  lhsContracting := [1]
  rhsContracting := [0]
  lhsNonContracting := [0]
  rhsNonContracting := [1]
  lhsBatch := []
  rhsBatch := []
  wf := dot_S16000x64_S64x1_S16000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S16000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S16000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S16000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg1) S16000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v33) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v37) S16000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v38) S16000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37) S16000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S16000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v49) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg11) S128x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v57) S1x32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v58_0) S10000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v58_1) S10000x32.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v59) S16000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v60) S16000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v37) S16000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v62) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v64) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v66) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v72) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v69) S128x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v70) S128x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v71) S64x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v73) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v74_0) S16000x64.size cc6_transform_11 reads6_11 true false 2 stage6_11 sem6_11
    hrank6 hreads6_11 hinb6_11 nbuf6_11 (Memref.isWhole_whole _) hwx6_11 hstage6_11

abbrev win6_12 : Pipeline.Window sig grid6 :=
  Pipeline.Window.ofSpec (Memref.whole main_v74_1) S16000x1.size cc6_transform_12 reads6_12 true false 2 stage6_12 sem6_12
    hrank6 hreads6_12 hinb6_12 nbuf6_12 (Memref.isWhole_whole _) hwx6_12 hstage6_12

abbrev win6 : Fin 13 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | ⟨_ + 13, h⟩ => absurd h (Nat.not_lt.2 (Nat.le_add_left _ _))
abbrev spec6 : Fin 13 → Pipeline.WinSpec sig grid6.rank := fun w => (win6 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S2x800000 : Shape := ⟨2, ![2, 800000]⟩
abbrev S64x128 : Shape := ⟨2, ![64, 128]⟩
abbrev S128 : Shape := ⟨1, ![128]⟩
abbrev S2x192x128 : Shape := ⟨3, ![2, 192, 128]⟩
abbrev S2x128 : Shape := ⟨2, ![2, 128]⟩
abbrev S2x256x128 : Shape := ⟨3, ![2, 256, 128]⟩
abbrev S2x320x64 : Shape := ⟨3, ![2, 320, 64]⟩
abbrev S2x64 : Shape := ⟨2, ![2, 64]⟩
abbrev S128x32 : Shape := ⟨2, ![128, 32]⟩
abbrev S32 : Shape := ⟨1, ![32]⟩
abbrev S320x1 : Shape := ⟨2, ![320, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x64x128 : Shape := ⟨3, ![1, 64, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S50000x32 : Shape := ⟨2, ![50000, 32]⟩
abbrev S1x32 : Shape := ⟨2, ![1, 32]⟩
abbrev S128x1 : Shape := ⟨2, ![128, 1]⟩
abbrev S64x1 : Shape := ⟨2, ![64, 1]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S50000x64, .f32⟩
  | 1 => ⟨S800000x64, .f32⟩
  | 2 => ⟨S2x800000, .i32⟩
  | 3 => ⟨S64x128, .f32⟩
  | 4 => ⟨S128, .f32⟩
  | 5 => ⟨S2x192x128, .f32⟩
  | 6 => ⟨S2x128, .f32⟩
  | 7 => ⟨S2x256x128, .f32⟩
  | 8 => ⟨S2x128, .f32⟩
  | 9 => ⟨S2x320x64, .f32⟩
  | 10 => ⟨S2x64, .f32⟩
  | 11 => ⟨S128x32, .f32⟩
  | 12 => ⟨S32, .f32⟩
  | 13 => ⟨S320x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S50000x128, .f32⟩
  | 20 => ⟨S1x128, .f32⟩
  | 21 => ⟨S50000x128, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S1x128x128, .f32⟩
  | 33 => ⟨S128x128, .f32⟩
  | 34 => ⟨S800000x128, .f32⟩
  | 35 => ⟨S1x64x128, .f32⟩
  | 36 => ⟨S64x128, .f32⟩
  | 37 => ⟨S800000x128, .f32⟩
  | 38 => ⟨S800000x128, .f32⟩
  | 39 => ⟨S1x128, .f32⟩
  | 40 => ⟨S128, .f32⟩
  | 41 => ⟨S1x128, .f32⟩
  | 42 => ⟨S800000x128, .f32⟩
  | 43 => ⟨S800000x128, .f32⟩
  | 44 => ⟨S_, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S1x128x128, .f32⟩
  | 52 => ⟨S128x128, .f32⟩
  | 53 => ⟨S50000x128, .f32⟩
  | 54 => ⟨S1x128x128, .f32⟩
  | 55 => ⟨S128x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S1x128x64, .f32⟩
  | 76 => ⟨S128x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S1x128x64, .f32⟩
  | 88 => ⟨S128x64, .f32⟩
  | 89 => ⟨S800000x64, .f32⟩
  | 90 => ⟨S800000x64, .f32⟩
  | 91 => ⟨S1x64x64, .f32⟩
  | 92 => ⟨S64x64, .f32⟩
  | 93 => ⟨S800000x64, .f32⟩
  | 94 => ⟨S800000x64, .f32⟩
  | 95 => ⟨S1x64, .f32⟩
  | 96 => ⟨S64, .f32⟩
  | 97 => ⟨S1x64, .f32⟩
  | 98 => ⟨S800000x64, .f32⟩
  | 99 => ⟨S800000x64, .f32⟩
  | 100 => ⟨S_, .f32⟩
  | 101 => ⟨S800000x64, .f32⟩
  | 102 => ⟨S800000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S1x128x128, .f32⟩
  | 113 => ⟨S128x128, .f32⟩
  | 114 => ⟨S800000x128, .f32⟩
  | 115 => ⟨S1x64x128, .f32⟩
  | 116 => ⟨S64x128, .f32⟩
  | 117 => ⟨S800000x128, .f32⟩
  | 118 => ⟨S800000x128, .f32⟩
  | 119 => ⟨S1x128, .f32⟩
  | 120 => ⟨S128, .f32⟩
  | 121 => ⟨S1x128, .f32⟩
  | 122 => ⟨S800000x128, .f32⟩
  | 123 => ⟨S800000x128, .f32⟩
  | 124 => ⟨S_, .f32⟩
  | 125 => ⟨S800000x128, .f32⟩
  | 126 => ⟨S800000x128, .f32⟩
  | 127 => ⟨S_, .f32⟩
  | _ => ⟨S50000x64, .f32⟩

abbrev hbmTy0_1 (i : Nat) : BufTy := match i % 128 with
  | 0 => ⟨S50000x128, .f32⟩
  | 1 => ⟨S800000x1, .i32⟩
  | 2 => ⟨S50000x128, .f32⟩
  | 3 => ⟨S1x128x128, .f32⟩
  | 4 => ⟨S128x128, .f32⟩
  | 5 => ⟨S50000x128, .f32⟩
  | 6 => ⟨S1x128x128, .f32⟩
  | 7 => ⟨S128x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S1x128x64, .f32⟩
  | 28 => ⟨S128x64, .f32⟩
  | 29 => ⟨S800000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S1x128x64, .f32⟩
  | 40 => ⟨S128x64, .f32⟩
  | 41 => ⟨S800000x64, .f32⟩
  | 42 => ⟨S800000x64, .f32⟩
  | 43 => ⟨S1x64x64, .f32⟩
  | 44 => ⟨S64x64, .f32⟩
  | 45 => ⟨S800000x64, .f32⟩
  | 46 => ⟨S800000x64, .f32⟩
  | 47 => ⟨S1x64, .f32⟩
  | 48 => ⟨S64, .f32⟩
  | 49 => ⟨S1x64, .f32⟩
  | 50 => ⟨S800000x64, .f32⟩
  | 51 => ⟨S800000x64, .f32⟩
  | 52 => ⟨S_, .f32⟩
  | 53 => ⟨S800000x64, .f32⟩
  | 54 => ⟨S800000x64, .f32⟩
  | 55 => ⟨S50000x32, .f32⟩
  | 56 => ⟨S1x32, .f32⟩
  | 57 => ⟨S50000x32, .f32⟩
  | 58 => ⟨S50000x32, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S128x1, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S128x1, .f32⟩
  | 80 => ⟨S800000x1, .f32⟩
  | 81 => ⟨S800000x1, .f32⟩
  | 82 => ⟨S64x1, .f32⟩
  | 83 => ⟨S800000x1, .f32⟩
  | 84 => ⟨S800000x1, .f32⟩
  | 85 => ⟨S1x1, .f32⟩
  | 86 => ⟨S800000x1, .f32⟩
  | 87 => ⟨S800000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_cst : Ref sig .tc := ⟨.hbm, 44, rfl⟩
abbrev main_call0_v0 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_c_1 : Ref sig .tc := ⟨.hbm, 66, rfl⟩
abbrev main_v44 : Ref sig .tc := ⟨.hbm, 67, rfl⟩
abbrev main_v45 : Ref sig .tc := ⟨.hbm, 68, rfl⟩
abbrev main_c_2 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_3 : Ref sig .tc := ⟨.hbm, 78, rfl⟩
abbrev main_v54 : Ref sig .tc := ⟨.hbm, 79, rfl⟩
abbrev main_v55 : Ref sig .tc := ⟨.hbm, 80, rfl⟩
abbrev main_c_4 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call2_cst : Ref sig .tc := ⟨.hbm, 100, rfl⟩
abbrev main_call2_v0 : Ref sig .tc := ⟨.hbm, 101, rfl⟩
abbrev main_v74 : Ref sig .tc := ⟨.hbm, 102, rfl⟩
abbrev main_c_5 : Ref sig .tc := ⟨.hbm, 103, rfl⟩
abbrev main_v75 : Ref sig .tc := ⟨.hbm, 104, rfl⟩
abbrev main_v76 : Ref sig .tc := ⟨.hbm, 105, rfl⟩
abbrev main_c_6 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call3_cst : Ref sig .tc := ⟨.hbm, 124, rfl⟩
abbrev main_call3_v0 : Ref sig .tc := ⟨.hbm, 125, rfl⟩
abbrev main_v94 : Ref sig .tc := ⟨.hbm, 126, rfl⟩
abbrev main_cst_7 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_call4_cst : Ref sig .tc := ⟨.hbm, 143, rfl⟩
abbrev main_call4_v0 : Ref sig .tc := ⟨.hbm, 144, rfl⟩
abbrev main_v110 : Ref sig .tc := ⟨.hbm, 145, rfl⟩
abbrev main_c_8 : Ref sig .tc := ⟨.hbm, 146, rfl⟩
abbrev main_v111 : Ref sig .tc := ⟨.hbm, 147, rfl⟩
abbrev main_v112 : Ref sig .tc := ⟨.hbm, 148, rfl⟩
abbrev main_c_9 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_10 : Ref sig .tc := ⟨.hbm, 158, rfl⟩
abbrev main_v121 : Ref sig .tc := ⟨.hbm, 159, rfl⟩
abbrev main_v122 : Ref sig .tc := ⟨.hbm, 160, rfl⟩
abbrev main_c_11 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_call5_cst : Ref sig .tc := ⟨.hbm, 180, rfl⟩
abbrev main_call5_v0 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_c_12 : Ref sig .tc := ⟨.hbm, 187, rfl⟩
abbrev main_v146 : Ref sig .tc := ⟨.hbm, 188, rfl⟩
abbrev main_v147 : Ref sig .tc := ⟨.hbm, 189, rfl⟩
abbrev main_c_13 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_c_14 : Ref sig .tc := ⟨.hbm, 198, rfl⟩
abbrev main_v155 : Ref sig .tc := ⟨.hbm, 199, rfl⟩
abbrev main_v156 : Ref sig .tc := ⟨.hbm, 200, rfl⟩
abbrev main_c_15 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S2x192x128_S1x128x128_0_0_0 : S2x192x128.Slices ![0, 0, 0] S1x128x128
  shapeCasts_S1x128x128_S128x128 : S1x128x128.ShapeCasts S128x128
  slices_S2x192x128_S1x64x128_0_128_0 : S2x192x128.Slices ![0, 128, 0] S1x64x128
  shapeCasts_S1x64x128_S64x128 : S1x64x128.ShapeCasts S64x128
  slices_S2x128_S1x128_0_0 : S2x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S2x256x128_S1x128x128_0_0_0 : S2x256x128.Slices ![0, 0, 0] S1x128x128
  slices_S2x256x128_S1x128x128_0_128_0 : S2x256x128.Slices ![0, 128, 0] S1x128x128
  slices_S2x320x64_S1x128x64_0_0_0 : S2x320x64.Slices ![0, 0, 0] S1x128x64
  shapeCasts_S1x128x64_S128x64 : S1x128x64.ShapeCasts S128x64
  slices_S2x320x64_S1x128x64_0_128_0 : S2x320x64.Slices ![0, 128, 0] S1x128x64
  slices_S2x320x64_S1x64x64_0_256_0 : S2x320x64.Slices ![0, 256, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S2x192x128_S1x128x128_1_0_0 : S2x192x128.Slices ![1, 0, 0] S1x128x128
  slices_S2x192x128_S1x64x128_1_128_0 : S2x192x128.Slices ![1, 128, 0] S1x64x128
  slices_S2x128_S1x128_1_0 : S2x128.Slices ![1, 0] S1x128
  slices_S2x256x128_S1x128x128_1_0_0 : S2x256x128.Slices ![1, 0, 0] S1x128x128
  slices_S2x256x128_S1x128x128_1_128_0 : S2x256x128.Slices ![1, 128, 0] S1x128x128
  slices_S2x320x64_S1x128x64_1_0_0 : S2x320x64.Slices ![1, 0, 0] S1x128x64
  slices_S2x320x64_S1x128x64_1_128_0 : S2x320x64.Slices ![1, 128, 0] S1x128x64
  slices_S2x320x64_S1x64x64_1_256_0 : S2x320x64.Slices ![1, 256, 0] S1x64x64
  slices_S2x64_S1x64_1_0 : S2x64.Slices ![1, 0] S1x64
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  slices_S320x1_S128x1_0_0 : S320x1.Slices ![0, 0] S128x1
  slices_S320x1_S128x1_128_0 : S320x1.Slices ![128, 0] S128x1
  slices_S320x1_S64x1_256_0 : S320x1.Slices ![256, 0] S64x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  dot_S800000x64_S64x128_S800000x128_1_0_0_1_n_n_wf : DotDims.WF S800000x64 S64x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  dot_S50000x128_S128x32_S50000x32_1_0_0_1_n_n_wf : DotDims.WF S50000x128 S128x32 S50000x32 [1] [0] [0] [1] [] []
  dot_S800000x128_S128x1_S800000x1_1_0_0_1_n_n_wf : DotDims.WF S800000x128 S128x1 S800000x1 [1] [0] [0] [1] [] []
  dot_S800000x64_S64x1_S800000x1_1_0_0_1_n_n_wf : DotDims.WF S800000x64 S64x1 S800000x1 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.Names.lean ====
/-
  Names shared by the bridge between the kernel program and the reference.

  A k : the launch contents of @main's argument k on core c.
  R n : the value the reference's operation %n writes, as a function of those launch contents (the generated
        stage functions applied to the kernel's own launch memory). The bridge states what each of the kernel
        program's buffers holds at a boundary between segments as one of these.
  IdxOK : every entry of the edge list is a node number, 0 ≤ e < 50000.
  Inv j : what the live buffers hold at boundary j of the run (the exit of a pallas_call).
-/
import proofs.«418406_j45518063403048_2_alg».proof.Proof.Gen.KernelIdeal.Frame
import proofs.«418406_j45518063403048_2_alg».proof.Proof.Gen.ReferenceIdeal.Read

noncomputable section

namespace Cert.KernelIdeal.Bridge

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-! ## The launch contents of the arguments -/

abbrev A0 : (⟨Cert.ReferenceIdeal.S50000x64, .f32⟩ : BufTy).Contents (Elt Ideal) := m ((c : Thread nD τ).loc main_arg0)
abbrev A1 : (⟨Cert.ReferenceIdeal.S800000x64, .f32⟩ : BufTy).Contents (Elt Ideal) := m ((c : Thread nD τ).loc main_arg1)
abbrev A2 : (⟨Cert.ReferenceIdeal.S2x800000, .i32⟩ : BufTy).Contents (Elt Ideal) := m ((c : Thread nD τ).loc main_arg2)
abbrev A3 : (⟨Cert.ReferenceIdeal.S64x128, .f32⟩ : BufTy).Contents (Elt Ideal) := m ((c : Thread nD τ).loc main_arg3)
abbrev A4 : (⟨Cert.ReferenceIdeal.S128, .f32⟩ : BufTy).Contents (Elt Ideal) := m ((c : Thread nD τ).loc main_arg4)
abbrev A5 : (⟨Cert.ReferenceIdeal.S2x192x128, .f32⟩ : BufTy).Contents (Elt Ideal) := m ((c : Thread nD τ).loc main_arg5)
abbrev A6 : (⟨Cert.ReferenceIdeal.S2x128, .f32⟩ : BufTy).Contents (Elt Ideal) := m ((c : Thread nD τ).loc main_arg6)
abbrev A7 : (⟨Cert.ReferenceIdeal.S2x256x128, .f32⟩ : BufTy).Contents (Elt Ideal) := m ((c : Thread nD τ).loc main_arg7)
abbrev A8 : (⟨Cert.ReferenceIdeal.S2x128, .f32⟩ : BufTy).Contents (Elt Ideal) := m ((c : Thread nD τ).loc main_arg8)
abbrev A9 : (⟨Cert.ReferenceIdeal.S2x320x64, .f32⟩ : BufTy).Contents (Elt Ideal) := m ((c : Thread nD τ).loc main_arg9)
abbrev A10 : (⟨Cert.ReferenceIdeal.S2x64, .f32⟩ : BufTy).Contents (Elt Ideal) := m ((c : Thread nD τ).loc main_arg10)
abbrev A11 : (⟨Cert.ReferenceIdeal.S128x32, .f32⟩ : BufTy).Contents (Elt Ideal) := m ((c : Thread nD τ).loc main_arg11)
abbrev A12 : (⟨Cert.ReferenceIdeal.S32, .f32⟩ : BufTy).Contents (Elt Ideal) := m ((c : Thread nD τ).loc main_arg12)
abbrev A13 : (⟨Cert.ReferenceIdeal.S320x1, .f32⟩ : BufTy).Contents (Elt Ideal) := m ((c : Thread nD τ).loc main_arg13)
abbrev A14 : (⟨Cert.ReferenceIdeal.S1, .f32⟩ : BufTy).Contents (Elt Ideal) := m ((c : Thread nD τ).loc main_arg14)

/-! ## The reference's stages at those contents -/

abbrev R1 := val_main_v1 (F := Ideal) (A2 m c)
abbrev R3 := val_main_v3 (F := Ideal) (A2 m c)
abbrev R5 := val_main_v5 (F := Ideal) (A4 m c)
abbrev R7 := val_main_v7 (F := Ideal) (A0 m c) (A3 m c) (A4 m c)
abbrev R12 := val_main_v12 (F := Ideal) (A2 m c)
abbrev R13 := val_main_v13 (F := Ideal) (A2 m c)
abbrev R14 := val_main_v14 (F := Ideal) (A0 m c) (A2 m c) (A3 m c) (A4 m c)
abbrev R16 := val_main_v16 (F := Ideal) (A5 m c)
abbrev R19 := val_main_v19 (F := Ideal) (A5 m c)
abbrev R23 := val_main_v23 (F := Ideal) (A6 m c)
abbrev R24 := val_main_v24 (F := Ideal) (A6 m c)
abbrev R27 := val_main_v27 (F := Ideal) (A0 m c) (A1 m c) (A2 m c) (A3 m c) (A4 m c) (A5 m c) (A6 m c)
abbrev R28 := val_main_v28 (F := Ideal)
abbrev R29 := val_main_v29 (F := Ideal) (A2 m c)
abbrev R30 := val_main_v30 (F := Ideal) (A0 m c) (A1 m c) (A2 m c) (A3 m c) (A4 m c) (A5 m c) (A6 m c)
abbrev R32 := val_main_v32 (F := Ideal) (A7 m c)
abbrev R35 := val_main_v35 (F := Ideal) (A7 m c)
abbrev R39 := val_main_v39 (F := Ideal) (A8 m c)
abbrev R40 := val_main_v40 (F := Ideal) (A8 m c)
abbrev R43 := val_main_v43 (F := Ideal) (A0 m c) (A1 m c) (A2 m c) (A3 m c) (A4 m c) (A5 m c) (A6 m c) (A7 m c) (A8 m c)
abbrev R48 := val_main_v48 (F := Ideal) (A2 m c)
abbrev R49 := val_main_v49 (F := Ideal) (A2 m c)
abbrev R50 := val_main_v50 (F := Ideal) (A0 m c) (A1 m c) (A2 m c) (A3 m c) (A4 m c) (A5 m c) (A6 m c) (A7 m c) (A8 m c)
abbrev R52 := val_main_v52 (F := Ideal) (A9 m c)
abbrev R58 := val_main_v58 (F := Ideal) (A2 m c)
abbrev R59 := val_main_v59 (F := Ideal) (A2 m c)
abbrev R60 := val_main_v60 (F := Ideal) (A0 m c) (A1 m c) (A2 m c) (A3 m c) (A4 m c) (A5 m c) (A6 m c) (A7 m c) (A8 m c)
abbrev R62 := val_main_v62 (F := Ideal) (A9 m c)
abbrev R66 := val_main_v66 (F := Ideal) (A9 m c)
abbrev R70 := val_main_v70 (F := Ideal) (A10 m c)
abbrev R71 := val_main_v71 (F := Ideal) (A10 m c)
abbrev R74 := val_main_v74 (F := Ideal) (A0 m c) (A1 m c) (A2 m c) (A3 m c) (A4 m c) (A5 m c) (A6 m c) (A7 m c) (A8 m c) (A9 m c) (A10 m c)
abbrev R79 := val_main_v79 (F := Ideal) (A2 m c)
abbrev R80 := val_main_v80 (F := Ideal) (A2 m c)
abbrev R81 := val_main_v81 (F := Ideal) (A0 m c) (A1 m c) (A2 m c) (A3 m c) (A4 m c) (A5 m c) (A6 m c) (A7 m c) (A8 m c)
abbrev R83 := val_main_v83 (F := Ideal) (A5 m c)
abbrev R86 := val_main_v86 (F := Ideal) (A5 m c)
abbrev R90 := val_main_v90 (F := Ideal) (A6 m c)
abbrev R91 := val_main_v91 (F := Ideal) (A6 m c)
abbrev R94 := val_main_v94 (F := Ideal) (A0 m c) (A1 m c) (A2 m c) (A3 m c) (A4 m c) (A5 m c) (A6 m c) (A7 m c) (A8 m c) (A9 m c) (A10 m c)
abbrev R95 := val_main_v95 (F := Ideal)
abbrev R96 := val_main_v96 (F := Ideal) (A2 m c)
abbrev R97 := val_main_v97 (F := Ideal) (A0 m c) (A1 m c) (A2 m c) (A3 m c) (A4 m c) (A5 m c) (A6 m c) (A7 m c) (A8 m c) (A9 m c) (A10 m c)
abbrev R99 := val_main_v99 (F := Ideal) (A7 m c)
abbrev R102 := val_main_v102 (F := Ideal) (A7 m c)
abbrev R106 := val_main_v106 (F := Ideal) (A8 m c)
abbrev R107 := val_main_v107 (F := Ideal) (A8 m c)
abbrev R110 := val_main_v110 (F := Ideal) (A0 m c) (A1 m c) (A2 m c) (A3 m c) (A4 m c) (A5 m c) (A6 m c) (A7 m c) (A8 m c) (A9 m c) (A10 m c)
abbrev R115 := val_main_v115 (F := Ideal) (A2 m c)
abbrev R116 := val_main_v116 (F := Ideal) (A2 m c)
abbrev R117 := val_main_v117 (F := Ideal) (A0 m c) (A1 m c) (A2 m c) (A3 m c) (A4 m c) (A5 m c) (A6 m c) (A7 m c) (A8 m c) (A9 m c) (A10 m c)
abbrev R119 := val_main_v119 (F := Ideal) (A9 m c)
abbrev R125 := val_main_v125 (F := Ideal) (A2 m c)
abbrev R126 := val_main_v126 (F := Ideal) (A2 m c)
abbrev R127 := val_main_v127 (F := Ideal) (A0 m c) (A1 m c) (A2 m c) (A3 m c) (A4 m c) (A5 m c) (A6 m c) (A7 m c) (A8 m c) (A9 m c) (A10 m c)
abbrev R129 := val_main_v129 (F := Ideal) (A9 m c)
abbrev R133 := val_main_v133 (F := Ideal) (A9 m c)
abbrev R137 := val_main_v137 (F := Ideal) (A10 m c)
abbrev R138 := val_main_v138 (F := Ideal) (A10 m c)
abbrev R141 := val_main_v141 (F := Ideal) (A0 m c) (A1 m c) (A2 m c) (A3 m c) (A4 m c) (A5 m c) (A6 m c) (A7 m c) (A8 m c) (A9 m c) (A10 m c)
abbrev R143 := val_main_v143 (F := Ideal) (A12 m c)
abbrev R145 := val_main_v145 (F := Ideal) (A0 m c) (A1 m c) (A2 m c) (A3 m c) (A4 m c) (A5 m c) (A6 m c) (A7 m c) (A8 m c) (A9 m c) (A10 m c) (A11 m c) (A12 m c)
abbrev R150 := val_main_v150 (F := Ideal) (A2 m c)
abbrev R151 := val_main_v151 (F := Ideal) (A2 m c)
abbrev R152 := val_main_v152 (F := Ideal) (A0 m c) (A1 m c) (A2 m c) (A3 m c) (A4 m c) (A5 m c) (A6 m c) (A7 m c) (A8 m c) (A9 m c) (A10 m c)
abbrev R153 := val_main_v153 (F := Ideal) (A13 m c)
abbrev R159 := val_main_v159 (F := Ideal) (A2 m c)
abbrev R160 := val_main_v160 (F := Ideal) (A2 m c)
abbrev R161 := val_main_v161 (F := Ideal) (A0 m c) (A1 m c) (A2 m c) (A3 m c) (A4 m c) (A5 m c) (A6 m c) (A7 m c) (A8 m c) (A9 m c) (A10 m c)
abbrev R162 := val_main_v162 (F := Ideal) (A13 m c)
abbrev R165 := val_main_v165 (F := Ideal) (A13 m c)
abbrev R168 := val_main_v168 (F := Ideal) (A14 m c)
abbrev R170 := val_main_v170 (F := Ideal) (A0 m c) (A1 m c) (A2 m c) (A3 m c) (A4 m c) (A5 m c) (A6 m c) (A7 m c) (A8 m c) (A9 m c) (A10 m c) (A13 m c) (A14 m c)

/-! ## The edge list holds node numbers -/

/-- Every entry of the [2, 800000] edge list, read as a signed word, is in [0, 50000). -/
def IdxOK (x2 : (⟨Cert.ReferenceIdeal.S2x800000, .i32⟩ : BufTy).Contents (Elt Ideal)) : Prop :=
  ∀ i, 0 ≤ (x2 i).toInt ∧ (x2 i).toInt < 50000

/-! ## What the live buffers hold at the boundaries of the run -/

/-- The arguments are as launched in the contents `W`. -/
structure ArgsAt (W : Valuation τ sig (Elt Ideal)) : Prop where
  a0 : W (Proc.devRef .tc main_arg0) = A0 m c
  a1 : W (Proc.devRef .tc main_arg1) = A1 m c
  a2 : W (Proc.devRef .tc main_arg2) = A2 m c
  a3 : W (Proc.devRef .tc main_arg3) = A3 m c
  a4 : W (Proc.devRef .tc main_arg4) = A4 m c
  a5 : W (Proc.devRef .tc main_arg5) = A5 m c
  a6 : W (Proc.devRef .tc main_arg6) = A6 m c
  a7 : W (Proc.devRef .tc main_arg7) = A7 m c
  a8 : W (Proc.devRef .tc main_arg8) = A8 m c
  a9 : W (Proc.devRef .tc main_arg9) = A9 m c
  a10 : W (Proc.devRef .tc main_arg10) = A10 m c
  a11 : W (Proc.devRef .tc main_arg11) = A11 m c
  a12 : W (Proc.devRef .tc main_arg12) = A12 m c
  a13 : W (Proc.devRef .tc main_arg13) = A13 m c
  a14 : W (Proc.devRef .tc main_arg14) = A14 m c

/-- After the embedding call: the two index rows and the embedded nodes. -/
structure Inv2 : Prop where
  args : ArgsAt m c (W2 m ρ c)
  src : W2 m ρ c (Proc.devRef .tc main_v1) = R1 m c
  dst : W2 m ρ c (Proc.devRef .tc main_v3) = R3 m c
  h0 : W2 m ρ c (Proc.devRef .tc main_v5) = R7 m c

/-- After the first message call. -/
structure Inv5 : Prop where
  args : ArgsAt m c (W5 m ρ c)
  src : W5 m ρ c (Proc.devRef .tc main_v1) = R1 m c
  dst : W5 m ρ c (Proc.devRef .tc main_v3) = R3 m c
  h0 : W5 m ρ c (Proc.devRef .tc main_v5) = R7 m c
  m1 : W5 m ρ c (Proc.devRef .tc main_v14) = R27 m c

/-- After the first node update. -/
structure Inv7 : Prop where
  args : ArgsAt m c (W7 m ρ c)
  src : W7 m ρ c (Proc.devRef .tc main_v1) = R1 m c
  dst : W7 m ρ c (Proc.devRef .tc main_v3) = R3 m c
  h1 : W7 m ρ c (Proc.devRef .tc main_v25) = R43 m c

/-- After the first edge update. -/
structure Inv11 : Prop where
  args : ArgsAt m c (W11 m ρ c)
  src : W11 m ρ c (Proc.devRef .tc main_v1) = R1 m c
  dst : W11 m ρ c (Proc.devRef .tc main_v3) = R3 m c
  h1 : W11 m ρ c (Proc.devRef .tc main_v25) = R43 m c
  ea1 : W11 m ρ c (Proc.devRef .tc main_v37) = R74 m c

/-- After the second message call. -/
structure Inv14 : Prop where
  args : ArgsAt m c (W14 m ρ c)
  src : W14 m ρ c (Proc.devRef .tc main_v1) = R1 m c
  dst : W14 m ρ c (Proc.devRef .tc main_v3) = R3 m c
  h1 : W14 m ρ c (Proc.devRef .tc main_v25) = R43 m c
  ea1 : W14 m ρ c (Proc.devRef .tc main_v37) = R74 m c
  m2 : W14 m ρ c (Proc.devRef .tc main_v46) = R94 m c

/-- After the second node update and the node head. -/
structure Inv16 : Prop where
  args : ArgsAt m c (W16 m ρ c)
  src : W16 m ρ c (Proc.devRef .tc main_v1) = R1 m c
  dst : W16 m ρ c (Proc.devRef .tc main_v3) = R3 m c
  ea1 : W16 m ρ c (Proc.devRef .tc main_v37) = R74 m c
  h2 : W16 m ρ c (Proc.devRef .tc main_v58_0) = R110 m c
  np : W16 m ρ c (Proc.devRef .tc main_v58_1) = R145 m c

/-- At the end of the run: the two results. -/
structure Inv20 : Prop where
  np : W20 m ρ c (Proc.devRef .tc main_v58_1) = R145 m c
  ep : W20 m ρ c (Proc.devRef .tc main_v74_1) = R170 m c

end Cert.KernelIdeal.Bridge

end
-- ==== Proof.IntFacts.lean ====
/-
  The edge list holds node numbers: from the precondition to the index rows.

  The precondition's last two conjuncts say that every entry e of the [2, 800000] edge list satisfies 0 ≤ e and
  e < 50000 as signed words. The two rows of the list (the source and the target of every edge) are slices of it, so
  their entries are in the same range.
-/
import proofs.«418406_j45518063403048_2_alg».proof.Proof.Names
import proofs.«418406_j45518063403048_2_alg».proof.Proof.Gen.Pre_finite_inputs
import proofs.«418406_j45518063403048_2_alg».proof.Defs
import Idealize.ShloMosaic.Lib.StableHlo.Predicate
import Idealize.ShloMosaic.Lib.ReduceAll

noncomputable section

namespace Cert.KernelIdeal.Bridge

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (c : Dev nD)

/-- A pointwise "and" of two arrays of words, read at an index, is the "and" of the two words there. -/
private theorem andi_at {s : Shape} {w : Nat} (x y : IVec s w) (i : s.Idx) : andi x y i = IntOp.andi (x i) (y i) := rfl

/-- A signed comparison of an array of words against the broadcast of a scalar constant, read at an index, is the
    comparison of the word there against the constant. -/
private theorem cmpi_const_at {s : Shape} (p : CmpIPredicate) (x : IVec s 32) (k : BitVec 32)
    (hb : Cert.Pre_finite_inputs.S_.BroadcastsInDim s (![] : Fin 0 → Fin s.rank)) (i : s.Idx) :
    cmpi p x (broadcastInDim s ![] hb (constantI Cert.Pre_finite_inputs.S_ 32 k)) i = IntOp.cmpi p (x i) k := rfl

/-- The precondition's last two conjuncts at one entry e of the edge list: e ≥ 0 and e < 50000, both as words. -/
private theorem pre_entry (hpre : Cert.Pre_KernelIdeal m) (i : Cert.Pre_finite_inputs.S2x800000.Idx) :
    IntOp.cmpi .sge (A2 m c i) 0#32 = 1#1 ∧ IntOp.cmpi .slt (A2 m c i) 50000#32 = 1#1 := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  -- the predicate is ((… ∧ all (e ≥ 0)) ∧ all (e < 50000)): take the last conjunct, then the one before it
  rw [andi_at, IntOp.andi_eq_one] at h
  obtain ⟨h72, h75⟩ := h
  rw [andi_at, IntOp.andi_eq_one] at h72
  obtain ⟨-, h71⟩ := h72
  -- an "and" over all entries that is 1 has a 1 at every entry (the rank-0 result has one index)
  haveI : Subsingleton Cert.Pre_finite_inputs.S_.Idx := ⟨fun a b => funext fun d => d.elim0⟩
  have hge := Host.reduce_andi_all _ _ _ _ _ h71 i
  have hlt := Host.reduce_andi_all _ _ _ _ _ h75 i
  rw [cmpi_const_at] at hge hlt
  exact ⟨hge, hlt⟩

/-- Under the precondition every entry of the edge list is a node number. -/
theorem idxOK_of_pre (hpre : Cert.Pre_KernelIdeal m) : IdxOK (A2 m c) := by
  intro i
  obtain ⟨hge, hlt⟩ := pre_entry m c hpre i
  -- the comparisons are signed: they say 0 ≤ e and e < 50000 of the entry read as a signed word
  have h0 : (0#32 : BitVec 32).toInt = 0 := by decide
  have h5 : (50000#32 : BitVec 32).toInt = 50000 := by decide
  have a := IntOp.cmpi_sge.1 hge
  have b := IntOp.cmpi_slt.1 hlt
  rw [h0] at a
  rw [h5] at b
  exact ⟨a, b⟩

/-- The source row's entries are node numbers. -/
theorem src_range (hok : IdxOK (A2 m c)) : ∀ i, 0 ≤ (R1 m c i).toInt ∧ (R1 m c i).toInt < 50000 := by
  intro i
  -- the source row at i is the edge list at (0, i): a reshape of the slice [0:1, :]
  have e : R1 m c i = A2 m c (idx_main_v0 (idx_main_v1 i)) :=
    (val_main_v1_apply (F := Ideal) (A2 m c) i).trans (val_main_v0_apply (F := Ideal) (A2 m c) _)
  rw [e]
  exact hok _

/-- The target row's entries are node numbers. -/
theorem dst_range (hok : IdxOK (A2 m c)) : ∀ i, 0 ≤ (R3 m c i).toInt ∧ (R3 m c i).toInt < 50000 := by
  intro i
  -- the target row at i is the edge list at (1, i): a reshape of the slice [1:2, :]
  have e : R3 m c i = A2 m c (idx_main_v2 (idx_main_v3 i)) :=
    (val_main_v3_apply (F := Ideal) (A2 m c) i).trans (val_main_v2_apply (F := Ideal) (A2 m c) _)
  rw [e]
  exact hok _

end Cert.KernelIdeal.Bridge

end
-- ==== Proof.Spec.lean ====
/-
  The layers of the message-passing network as functions of whole arrays over the extended reals, index by index.

  Every stage of the network is a sum of matrix products plus a bias row, possibly clipped below at zero:
    lin1   x W b            (p, q) ↦ Σ_k x(p,k)·W(k,q) + b(0,q)
    relu2  x₁ W₁ x₂ W₂ b    (p, q) ↦ max ((Σ_k x₁(p,k)·W₁(k,q) + Σ_k x₂(p,k)·W₂(k,q)) + b(0,q)) 0
    relu3  …                the same with three products, added left to right
    lin3   …                three products and the bias, not clipped
  The bias is always a 1 × N row read at (0, q). The sums are added in exactly the order both programs add them, so no
  law of the extended reals beyond 0 + x = x is ever needed to join the two sides.
-/
import Idealize.ShloMosaic.PureOps.Ideal.Laws
import Idealize.ShloMosaic.Lib.ValueIdx

noncomputable section

open scoped BigOperators

namespace Cert.Bridge

open Idealize.ShloMosaic Idealize.ShloMosaic.ValueIdx

/-- Entry (p, q) of the product of an M × K array with a K × N matrix. -/
def mm {M K N : Nat} (x : FVec Ideal ⟨2, ![M, K]⟩ .f32) (w : FVec Ideal ⟨2, ![K, N]⟩ .f32) (p : Fin M) (q : Fin N) : EReal :=
  ∑ k : Fin K, x (ix2 p k) * w (ix2 k q)

/-- The first row's index of a 1 × N bias row. -/
abbrev row0 {N : Nat} (q : Fin N) : (⟨2, ![1, N]⟩ : Shape).Idx := ix2 (0 : Fin 1) q

/-- One product plus the bias row. -/
def lin1 {M K N : Nat} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun j => mm x w (j 0) (j 1) + b (row0 (j 1))

/-- Two products and the bias row, clipped below at zero. -/
def relu2 {M K₁ K₂ N : Nat} (x₁ : FVec Ideal ⟨2, ![M, K₁]⟩ .f32) (w₁ : FVec Ideal ⟨2, ![K₁, N]⟩ .f32)
    (x₂ : FVec Ideal ⟨2, ![M, K₂]⟩ .f32) (w₂ : FVec Ideal ⟨2, ![K₂, N]⟩ .f32)
    (b : FVec Ideal ⟨2, ![1, N]⟩ .f32) : FVec Ideal ⟨2, ![M, N]⟩ .f32 :=
  fun j => max ((mm x₁ w₁ (j 0) (j 1) + mm x₂ w₂ (j 0) (j 1)) + b (row0 (j 1))) 0

/-- Three products and the bias row, clipped below at zero. -/
def relu3 {M K₁ K₂ K₃ N : Nat} (x₁ : FVec Ideal ⟨2, ![M, K₁]⟩ .f32) (w₁ : FVec Ideal ⟨2, ![K₁, N]⟩ .f32)
    (x₂ : FVec Ideal ⟨2, ![M, K₂]⟩ .f32) (w₂ : FVec Ideal ⟨2, ![K₂, N]⟩ .f32)
    (x₃ : FVec Ideal ⟨2, ![M, K₃]⟩ .f32) (w₃ : FVec Ideal ⟨2, ![K₃, N]⟩ .f32)
    (b : FVec Ideal ⟨2, ![1, N]⟩ .f32) : FVec Ideal ⟨2, ![M, N]⟩ .f32 :=
  fun j => max (((mm x₁ w₁ (j 0) (j 1) + mm x₂ w₂ (j 0) (j 1)) + mm x₃ w₃ (j 0) (j 1)) + b (row0 (j 1))) 0

/-- Three products and the bias row. -/
def lin3 {M K₁ K₂ K₃ N : Nat} (x₁ : FVec Ideal ⟨2, ![M, K₁]⟩ .f32) (w₁ : FVec Ideal ⟨2, ![K₁, N]⟩ .f32)
    (x₂ : FVec Ideal ⟨2, ![M, K₂]⟩ .f32) (w₂ : FVec Ideal ⟨2, ![K₂, N]⟩ .f32)
    (x₃ : FVec Ideal ⟨2, ![M, K₃]⟩ .f32) (w₃ : FVec Ideal ⟨2, ![K₃, N]⟩ .f32)
    (b : FVec Ideal ⟨2, ![1, N]⟩ .f32) : FVec Ideal ⟨2, ![M, N]⟩ .f32 :=
  fun j => ((mm x₁ w₁ (j 0) (j 1) + mm x₂ w₂ (j 0) (j 1)) + mm x₃ w₃ (j 0) (j 1)) + b (row0 (j 1))

/-! Each layer read at an index built from its coordinates. -/

theorem lin1_apply {M K N : Nat} (x : FVec Ideal ⟨2, ![M, K]⟩ .f32) (w : FVec Ideal ⟨2, ![K, N]⟩ .f32)
    (b : FVec Ideal ⟨2, ![1, N]⟩ .f32) (p : Fin M) (q : Fin N) :
    lin1 x w b (ix2 p q) = mm x w p q + b (row0 q) := rfl

theorem relu2_apply {M K₁ K₂ N : Nat} (x₁ : FVec Ideal ⟨2, ![M, K₁]⟩ .f32) (w₁ : FVec Ideal ⟨2, ![K₁, N]⟩ .f32)
    (x₂ : FVec Ideal ⟨2, ![M, K₂]⟩ .f32) (w₂ : FVec Ideal ⟨2, ![K₂, N]⟩ .f32)
    (b : FVec Ideal ⟨2, ![1, N]⟩ .f32) (p : Fin M) (q : Fin N) :
    relu2 x₁ w₁ x₂ w₂ b (ix2 p q) = max ((mm x₁ w₁ p q + mm x₂ w₂ p q) + b (row0 q)) 0 := rfl

theorem relu3_apply {M K₁ K₂ K₃ N : Nat} (x₁ : FVec Ideal ⟨2, ![M, K₁]⟩ .f32) (w₁ : FVec Ideal ⟨2, ![K₁, N]⟩ .f32)
    (x₂ : FVec Ideal ⟨2, ![M, K₂]⟩ .f32) (w₂ : FVec Ideal ⟨2, ![K₂, N]⟩ .f32)
    (x₃ : FVec Ideal ⟨2, ![M, K₃]⟩ .f32) (w₃ : FVec Ideal ⟨2, ![K₃, N]⟩ .f32)
    (b : FVec Ideal ⟨2, ![1, N]⟩ .f32) (p : Fin M) (q : Fin N) :
    relu3 x₁ w₁ x₂ w₂ x₃ w₃ b (ix2 p q) = max (((mm x₁ w₁ p q + mm x₂ w₂ p q) + mm x₃ w₃ p q) + b (row0 q)) 0 := rfl

theorem lin3_apply {M K₁ K₂ K₃ N : Nat} (x₁ : FVec Ideal ⟨2, ![M, K₁]⟩ .f32) (w₁ : FVec Ideal ⟨2, ![K₁, N]⟩ .f32)
    (x₂ : FVec Ideal ⟨2, ![M, K₂]⟩ .f32) (w₂ : FVec Ideal ⟨2, ![K₂, N]⟩ .f32)
    (x₃ : FVec Ideal ⟨2, ![M, K₃]⟩ .f32) (w₃ : FVec Ideal ⟨2, ![K₃, N]⟩ .f32)
    (b : FVec Ideal ⟨2, ![1, N]⟩ .f32) (p : Fin M) (q : Fin N) :
    lin3 x₁ w₁ x₂ w₂ x₃ w₃ b (ix2 p q) = ((mm x₁ w₁ p q + mm x₂ w₂ p q) + mm x₃ w₃ p q) + b (row0 q) := rfl

end Cert.Bridge

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«418406_j45518063403048_2_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.Region0.lean ====
/-
  The embedding call (the first kernel call, a grid of 5 row tiles of 10000 nodes): after it the output array holds x·W + b, as one function of the arrays the call finds.
-/
import proofs.«418406_j45518063403048_2_alg».proof.Proof.Gen.KernelIdeal.Frame
import proofs.«418406_j45518063403048_2_alg».proof.Proof.Spec
import proofs.«418406_j45518063403048_2_alg».proof.Proof.LibDotAt
import Idealize.ShloMosaic.Lib.Pipeline.Value
import Idealize.ShloMosaic.Lib.ValueLayout
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge

/-- The zero offsets of a whole-block access, spelt as the constant function. -/
theorem zero_off0 : (![0, 0] : Fin 2 → Nat) = fun _ => 0 := funext fun a => by fin_cases a <;> rfl

/-- The tile's arithmetic at one entry: the zero accumulator plus the product of the tile's rows with the weight
    matrix, plus the bias row broadcast down the rows, is Σ_k x(p,k)·W(k,q) + b(0,q) (0 + s = s). -/
theorem tile_entry0 (x : Vec Ideal S10000x64 .f32) (w : Vec Ideal S64x128 .f32) (b : Vec Ideal S1x128 .f32)
    (p : Fin 10000) (q : Fin 128) :
    k0_pay1 x w b (ix2 p q) = mm x w p q + b (row0 q) := by
  have e1 : matmul (F := Ideal) dot_S10000x64_S64x128_S10000x128_1_0_0_1_n_n (some .fp32) x w (constant (F := Ideal) S10000x128 .f32 0x00000000#32) (ix2 p q)
      = mm x w p q :=
    (DotAt.matmul_plain dot_S10000x64_S64x128_S10000x128_1_0_0_1_n_n rfl rfl rfl rfl rfl rfl rfl rfl (some .fp32) x w p q).trans rfl
  have e2 : broadcastTo S10000x128 (shapeCast S1x128 b shapeCasts_S1x128_S1x128) broadcasts_S1x128_S10000x128 (ix2 p q)
      = b (row0 q) := by
    rw [shapeCast_self]
    exact broadcastTo_apply b broadcasts_S1x128_S10000x128 (ix2 p q) (row0 q) (fun a => by
      match a with
      | ⟨0, _⟩ => rfl
      | ⟨1, _⟩ => rfl)
  unfold k0_pay1
  show (Ideal.ofBits .f32 0x00000000#32 + matmul (F := Ideal) dot_S10000x64_S64x128_S10000x128_1_0_0_1_n_n (some .fp32) x w (constant (F := Ideal) S10000x128 .f32 0x00000000#32) (ix2 p q))
      + broadcastTo S10000x128 (shapeCast S1x128 b shapeCasts_S1x128_S1x128) broadcasts_S1x128_S10000x128 (ix2 p q) = _
  rw [e1, e2, Ideal.ofBits_zero_f32, zero_add]

/-- The printed index maps over the five tiles: tile t of the node array and of the output starts at block row t;
    the weight matrix and the bias row are one block each. -/
theorem tile_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A tile's entry (p, q) from the arrays: when the tile's node rows are rows n·10000 + p of the node array and the
    weight and bias blocks are the whole arrays, the tile's result at (p, q) is x·W + b at row n·10000 + p. -/
theorem tile_of_arrays0 (x : Vec Ideal S10000x64 .f32) (w : Vec Ideal S64x128 .f32) (b : Vec Ideal S1x128 .f32)
    (X : FVec Ideal S50000x64 .f32) (W : FVec Ideal S64x128 .f32) (B : FVec Ideal S1x128 .f32)
    (n : Nat) (hn : n < 5)
    (hx : ∀ (p : Fin 10000) (k : Fin 64), x (ix2 p k) = X (ix2 (⟨n * 10000 + p.val, by omega⟩ : Fin 50000) k))
    (hw : w = W) (hb : b = B) (p : Fin 10000) (q : Fin 128) :
    k0_pay1 x w b (ix2 p q) = lin1 X W B (ix2 (⟨n * 10000 + p.val, by omega⟩ : Fin 50000) q) := by
  rw [tile_entry0, lin1_apply, hw, hb]
  unfold mm
  simp only [hx]

-- the TensorCore's buffer contents when the call is entered
variable (V : (c : Dev nD) → (b : Ref sig .tc) → Buf (Elt Ideal) ((c : Thread nD τ).loc b))

/-- Tile t's node block is rows t·10000 … t·10000 + 9999 of the node array: a block's coordinate is the block
    index times the block size plus the coordinate inside the block. -/
theorem nodes_block0 (c : Dev nD) (t : Fin cfg0.N) (ht : t.val < 5) (p : Fin 10000) (k : Fin 64) :
    (iblk0 V c 0 t : Vec Ideal S10000x64 .f32) (ix2 p k)
      = (V c main_arg0 : FVec Ideal S50000x64 .f32) (ix2 (⟨t.val * 10000 + p.val, by omega⟩ : Fin 50000) k) := by
  obtain ⟨e0, e1, -⟩ := tile_index0 t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Every tile's weight block is the whole weight matrix. -/
theorem weights_block0 (c : Dev nD) (t : Fin cfg0.N) :
    (iblk0 V c 1 t : Vec Ideal S64x128 .f32) = (V c main_arg3 : FVec Ideal S64x128 .f32) := by
  obtain ⟨-, -, e0, e1, -⟩ := tile_index0 t
  funext j
  unfold iblk0
  rw [View.read_apply]
  show V c main_arg3 _ = V c main_arg3 _
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 128 + 1 * (j 1).val = (j 1).val; rw [e1]; omega

/-- Every tile's bias block is the whole bias row. -/
theorem bias_block0 (c : Dev nD) (t : Fin cfg0.N) :
    (iblk0 V c 2 t : Vec Ideal S1x128 .f32) = (V c main_v4 : FVec Ideal S1x128 .f32) := by
  obtain ⟨-, -, -, -, e0, e1, -⟩ := tile_index0 t
  funext j
  unfold iblk0
  rw [View.read_apply]
  show V c main_v4 _ = V c main_v4 _
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- What tile t writes back is rows t·10000 … of x·W + b of the arrays the call finds. -/
theorem tile_written0 (c : Dev nD) (t : Fin cfg0.N) :
    (dat0 (F := Ideal) V c).flushed 3 t
      = ((cfg0.win 3).blk t).view.read (Elt Ideal) (lin1 (V c main_arg0) (V c main_arg3) (V c main_v4)) := by
  have ht : t.val < 5 := Nat.lt_of_lt_of_eq t.isLt (show cfg0.N = 5 from N_0)
  obtain ⟨-, -, -, -, -, -, e0, e1⟩ := tile_index0 t
  show (cfg0.win 3).cut (grid0.coords t) ((dat0 V c).after 3 t) = _
  rw [after0_3]
  unfold out0_3
  rw [View.canon_unit_zero zero_off0]
  simp only [View.ld_unit_zero (S := S10000x64) zero_off0, View.ld_unit_zero (S := S64x128) zero_off0,
    View.ld_unit_zero (S := S1x128) zero_off0]
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (ix2 p q)
      = lin1 (V c main_arg0) (V c main_arg3) (V c main_v4) (((cfg0.win 3).blk t).view.emb (ix2 p q))
  refine (tile_of_arrays0 (iblk0 V c 0 t) (iblk0 V c 1 t) (iblk0 V c 2 t) (V c main_arg0) (V c main_arg3) (V c main_v4)
    t.val ht (fun p k => nodes_block0 V c t ht p k) (weights_block0 V c t) (bias_block0 V c t) p q).trans ?_
  refine congrArg (lin1 (V c main_arg0) (V c main_arg3) (V c main_v4)) (funext fun a => Fin.ext ?_)
  match a with
  | ⟨0, _⟩ => show t.val * 10000 + p.val = win0_3.index t (0 : Fin 2) * 10000 + 1 * p.val; rw [e0]; omega
  | ⟨1, _⟩ => show q.val = win0_3.index t (1 : Fin 2) * 128 + 1 * q.val; rw [e1]; omega

/-- An index of the output array is in tile t's block iff each coordinate is in the block's range on its axis. -/
theorem tile_mem0 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v5).slice (win0_3.rect t)).set ↔ _
  rw [View.set_slice_whole, Rect.mem_set_unit]
  exact Iff.rfl

/-- The five tiles cover the output array: row r is in tile r / 10000. -/
theorem tiles_cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 10000 :=
    ⟨⟨(i 0).val / 10000, by rw [show cfg0.N = 5 from N_0]; omega⟩, rfl⟩
  obtain ⟨-, -, -, -, -, -, e0, e1⟩ := tile_index0 t
  refine ⟨t, flush0_3 t, ?_⟩
  rw [tile_mem0]
  intro a
  match a with
  | ⟨0, _⟩ =>
    show win0_3.index t (0 : Fin 2) * 10000 ≤ (i 0).val ∧ (i 0).val < win0_3.index t (0 : Fin 2) * 10000 + 10000
    rw [e0]; omega
  | ⟨1, _⟩ =>
    show win0_3.index t (1 : Fin 2) * 128 ≤ (i 1).val ∧ (i 1).val < win0_3.index t (1 : Fin 2) * 128 + 128
    rw [e1]; omega

/-- The embedded nodes: every row tile's write-back is its rows of x·W + b, and the five tiles cover the array. -/
theorem region0_out (c : Dev nD) :
    (dat0 (F := Ideal) V c).arrAt 3 cfg0.N = lin1 (V c main_arg0) (V c main_arg3) (V c main_v4) :=
  (dat0 (F := Ideal) V c).arrAt_eq_of_cover 3 (lin1 (V c main_arg0) (V c main_arg3) (V c main_v4))
    (fun t _ => tile_written0 V c t) tiles_cover0

end Cert.KernelIdeal.Bridge

end
-- ==== Proof.RefStagesA.lean ====
/-
  The reference's layers of the first half (embedding; layer 0's message, node update and edge update; layer 1's message) as the network's layer functions of the stages they read: each is its dot products, bias row and clip read at an index.
-/
import proofs.«418406_j45518063403048_2_alg».proof.Proof.Gen.ReferenceIdeal.Read
import proofs.«418406_j45518063403048_2_alg».proof.Proof.Spec
import proofs.«418406_j45518063403048_2_alg».proof.Proof.LibDotAt
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Idealize.ShloMosaic Idealize.ShloMosaic.ValueIdx
open Cert.ReferenceIdeal Cert.ReferenceIdeal.Gen Cert.ReferenceIdeal.Read Cert.Bridge

/-- The embedding: x·W + b. -/
theorem ref_h0 (x0 : (⟨S50000x64, .f32⟩ : BufTy).Contents (Elt Ideal)) (x3 : (⟨S64x128, .f32⟩ : BufTy).Contents (Elt Ideal)) (x4 : (⟨S128, .f32⟩ : BufTy).Contents (Elt Ideal)) :
    val_main_v7 (F := Ideal) x0 x3 x4
      = lin1 x0 x3 (val_main_v5 (F := Ideal) x4) := by
  funext j
  obtain ⟨p, q, rfl⟩ : ∃ (p : Fin 50000) (q : Fin 128), j = ix2 p q := ⟨j 0, j 1, eq_ix2 j⟩
  rw [lin1_apply, mm]
  rw [val_main_v7_apply, val_main_v4_apply, val_main_v6_apply]
  -- the product's operands are read at (p, k) and (k, q); the broadcast bias at (0, q)
  have el : ∀ k : Fin 64, lidx_main_v4 (ix2 p q) k = ix2 p k := fun k =>
    funext fun a => Fin.ext (by match a with | ⟨0, _⟩ => rfl | ⟨1, _⟩ => rfl)
  have er : ∀ k : Fin 64, ridx_main_v4 (ix2 p q) k = ix2 k q := fun k =>
    funext fun a => Fin.ext (by match a with | ⟨0, _⟩ => rfl | ⟨1, _⟩ => rfl)
  have eb : idx_main_v6 (ix2 p q) = row0 q :=
    funext fun a => Fin.ext (by match a with | ⟨0, _⟩ => rfl | ⟨1, _⟩ => rfl)
  simp only [el, er, eb, Ideal.addf_def]

/-- Layer 0's messages. -/
theorem ref_m1 (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) :
    val_main_v27 (F := Ideal) x0 x1 x2 x3 x4 x5 x6
      = relu2 (val_main_v14 (F := Ideal) x0 x2 x3 x4) (val_main_v16 (F := Ideal) x5) x1 (val_main_v19 (F := Ideal) x5) (val_main_v24 (F := Ideal) x6) := by
  funext j
  obtain ⟨p, q, rfl⟩ : ∃ (p : Fin 800000) (q : Fin 128), j = ix2 p q := ⟨j 0, j 1, eq_ix2 j⟩
  rw [relu2_apply, mm, mm]
  rw [val_main_v27_apply, val_main_v26_apply, val_main_v21_apply, val_main_v17_apply, val_main_v20_apply,
    val_main_v25_apply, val_main_call0_v0_apply, val_main_call0_cst_apply]
  -- each product's operands are read at (p, k) and (k, q); the broadcast bias at (0, q)
  have el1 : ∀ k : Fin 128, lidx_main_v17 (ix2 p q) k = ix2 p k := fun k =>
    funext fun a => Fin.ext (by match a with | ⟨0, _⟩ => rfl | ⟨1, _⟩ => rfl)
  have er1 : ∀ k : Fin 128, ridx_main_v17 (ix2 p q) k = ix2 k q := fun k =>
    funext fun a => Fin.ext (by match a with | ⟨0, _⟩ => rfl | ⟨1, _⟩ => rfl)
  have el2 : ∀ k : Fin 64, lidx_main_v20 (ix2 p q) k = ix2 p k := fun k =>
    funext fun a => Fin.ext (by match a with | ⟨0, _⟩ => rfl | ⟨1, _⟩ => rfl)
  have er2 : ∀ k : Fin 64, ridx_main_v20 (ix2 p q) k = ix2 k q := fun k =>
    funext fun a => Fin.ext (by match a with | ⟨0, _⟩ => rfl | ⟨1, _⟩ => rfl)
  have eb : idx_main_v25 (ix2 p q) = row0 q :=
    funext fun a => Fin.ext (by match a with | ⟨0, _⟩ => rfl | ⟨1, _⟩ => rfl)
  -- the constant the clip compares against is the extended real 0
  have hz : (FloatOps.ofBits (F := Ideal) .f32 0x00000000#32) = (0 : EReal) := Ideal.ofBits_zero_f32
  simp only [el1, er1, el2, er2, eb, Ideal.addf_def, Ideal.maximumf_def, hz]

/-- Layer 0's node update. -/
theorem ref_h1 (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) :
    val_main_v43 (F := Ideal) x0 x1 x2 x3 x4 x5 x6 x7 x8
      = relu2 (val_main_v30 (F := Ideal) x0 x1 x2 x3 x4 x5 x6) (val_main_v32 (F := Ideal) x7) (val_main_v7 (F := Ideal) x0 x3 x4) (val_main_v35 (F := Ideal) x7) (val_main_v40 (F := Ideal) x8) := by
  funext j
  obtain ⟨p, q, rfl⟩ : ∃ (p : Fin 50000) (q : Fin 128), j = ix2 p q := ⟨j 0, j 1, eq_ix2 j⟩
  rw [relu2_apply, mm, mm]
  rw [val_main_v43_apply, val_main_v42_apply, val_main_v37_apply, val_main_v33_apply, val_main_v36_apply,
    val_main_v41_apply, val_main_call1_v0_apply, val_main_call1_cst_apply]
  -- each product's operands are read at (p, k) and (k, q); the broadcast bias at (0, q)
  have el1 : ∀ k : Fin 128, lidx_main_v33 (ix2 p q) k = ix2 p k := fun k =>
    funext fun a => Fin.ext (by match a with | ⟨0, _⟩ => rfl | ⟨1, _⟩ => rfl)
  have er1 : ∀ k : Fin 128, ridx_main_v33 (ix2 p q) k = ix2 k q := fun k =>
    funext fun a => Fin.ext (by match a with | ⟨0, _⟩ => rfl | ⟨1, _⟩ => rfl)
  have el2 : ∀ k : Fin 128, lidx_main_v36 (ix2 p q) k = ix2 p k := fun k =>
    funext fun a => Fin.ext (by match a with | ⟨0, _⟩ => rfl | ⟨1, _⟩ => rfl)
  have er2 : ∀ k : Fin 128, ridx_main_v36 (ix2 p q) k = ix2 k q := fun k =>
    funext fun a => Fin.ext (by match a with | ⟨0, _⟩ => rfl | ⟨1, _⟩ => rfl)
  have eb : idx_main_v41 (ix2 p q) = row0 q :=
    funext fun a => Fin.ext (by match a with | ⟨0, _⟩ => rfl | ⟨1, _⟩ => rfl)
  -- the constant the clip compares against is the extended real 0
  have hz : (FloatOps.ofBits (F := Ideal) .f32 0x00000000#32) = (0 : EReal) := Ideal.ofBits_zero_f32
  simp only [el1, er1, el2, er2, eb, Ideal.addf_def, Ideal.maximumf_def, hz]

/-- Layer 0's edge update. -/
theorem ref_e1 (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) :
    val_main_v74 (F := Ideal) x0 x1 x2 x3 x4 x5 x6 x7 x8 x9 x10
      = relu3 (val_main_v50 (F := Ideal) x0 x1 x2 x3 x4 x5 x6 x7 x8) (val_main_v52 (F := Ideal) x9) (val_main_v60 (F := Ideal) x0 x1 x2 x3 x4 x5 x6 x7 x8) (val_main_v62 (F := Ideal) x9) x1 (val_main_v66 (F := Ideal) x9) (val_main_v71 (F := Ideal) x10) := by
  funext j
  obtain ⟨p, q, rfl⟩ : ∃ (p : Fin 800000) (q : Fin 64), j = ix2 p q := ⟨j 0, j 1, eq_ix2 j⟩
  rw [relu3_apply, mm, mm, mm]
  rw [val_main_v74_apply, val_main_v73_apply, val_main_v68_apply, val_main_v64_apply, val_main_v53_apply,
    val_main_v63_apply, val_main_v67_apply, val_main_v72_apply, val_main_call2_v0_apply, val_main_call2_cst_apply]
  -- each product's operands are read at (p, k) and (k, q); the broadcast bias at (0, q)
  have el1 : ∀ k : Fin 128, lidx_main_v53 (ix2 p q) k = ix2 p k := fun k =>
    funext fun a => Fin.ext (by match a with | ⟨0, _⟩ => rfl | ⟨1, _⟩ => rfl)
  have er1 : ∀ k : Fin 128, ridx_main_v53 (ix2 p q) k = ix2 k q := fun k =>
    funext fun a => Fin.ext (by match a with | ⟨0, _⟩ => rfl | ⟨1, _⟩ => rfl)
  have el2 : ∀ k : Fin 128, lidx_main_v63 (ix2 p q) k = ix2 p k := fun k =>
    funext fun a => Fin.ext (by match a with | ⟨0, _⟩ => rfl | ⟨1, _⟩ => rfl)
  have er2 : ∀ k : Fin 128, ridx_main_v63 (ix2 p q) k = ix2 k q := fun k =>
    funext fun a => Fin.ext (by match a with | ⟨0, _⟩ => rfl | ⟨1, _⟩ => rfl)
  have el3 : ∀ k : Fin 64, lidx_main_v67 (ix2 p q) k = ix2 p k := fun k =>
    funext fun a => Fin.ext (by match a with | ⟨0, _⟩ => rfl | ⟨1, _⟩ => rfl)
  have er3 : ∀ k : Fin 64, ridx_main_v67 (ix2 p q) k = ix2 k q := fun k =>
    funext fun a => Fin.ext (by match a with | ⟨0, _⟩ => rfl | ⟨1, _⟩ => rfl)
  have eb : idx_main_v72 (ix2 p q) = row0 q :=
    funext fun a => Fin.ext (by match a with | ⟨0, _⟩ => rfl | ⟨1, _⟩ => rfl)
  -- the constant the clip compares against is the extended real 0
  have hz : (FloatOps.ofBits (F := Ideal) .f32 0x00000000#32) = (0 : EReal) := Ideal.ofBits_zero_f32
  simp only [el1, er1, el2, er2, el3, er3, eb, Ideal.addf_def, Ideal.maximumf_def, hz]

/-- Layer 1's messages. -/
theorem ref_m2 (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) :
    val_main_v94 (F := Ideal) x0 x1 x2 x3 x4 x5 x6 x7 x8 x9 x10
      = relu2 (val_main_v81 (F := Ideal) x0 x1 x2 x3 x4 x5 x6 x7 x8) (val_main_v83 (F := Ideal) x5) (val_main_v74 (F := Ideal) x0 x1 x2 x3 x4 x5 x6 x7 x8 x9 x10) (val_main_v86 (F := Ideal) x5) (val_main_v91 (F := Ideal) x6) := by
  funext j
  obtain ⟨p, q, rfl⟩ : ∃ (p : Fin 800000) (q : Fin 128), j = ix2 p q := ⟨j 0, j 1, eq_ix2 j⟩
  rw [relu2_apply, mm, mm]
  rw [val_main_v94_apply, val_main_v93_apply, val_main_v88_apply, val_main_v84_apply, val_main_v87_apply,
    val_main_v92_apply, val_main_call3_v0_apply, val_main_call3_cst_apply]
  -- each product's operands are read at (p, k) and (k, q); the broadcast bias at (0, q)
  have el1 : ∀ k : Fin 128, lidx_main_v84 (ix2 p q) k = ix2 p k := fun k =>
    funext fun a => Fin.ext (by match a with | ⟨0, _⟩ => rfl | ⟨1, _⟩ => rfl)
  have er1 : ∀ k : Fin 128, ridx_main_v84 (ix2 p q) k = ix2 k q := fun k =>
    funext fun a => Fin.ext (by match a with | ⟨0, _⟩ => rfl | ⟨1, _⟩ => rfl)
  have el2 : ∀ k : Fin 64, lidx_main_v87 (ix2 p q) k = ix2 p k := fun k =>
    funext fun a => Fin.ext (by match a with | ⟨0, _⟩ => rfl | ⟨1, _⟩ => rfl)
  have er2 : ∀ k : Fin 64, ridx_main_v87 (ix2 p q) k = ix2 k q := fun k =>
    funext fun a => Fin.ext (by match a with | ⟨0, _⟩ => rfl | ⟨1, _⟩ => rfl)
  have eb : idx_main_v92 (ix2 p q) = row0 q :=
    funext fun a => Fin.ext (by match a with | ⟨0, _⟩ => rfl | ⟨1, _⟩ => rfl)
  -- the constant the clip compares against is the extended real 0
  have hz : (FloatOps.ofBits (F := Ideal) .f32 0x00000000#32) = (0 : EReal) := Ideal.ofBits_zero_f32
  simp only [el1, er1, el2, er2, eb, Ideal.addf_def, Ideal.maximumf_def, hz]

end Cert.ReferenceIdeal.Bridge

end
-- ==== Proof.Rows.lean ====
/-
  A vector kept as a 1 × N row two ways: reshaping it to [1, N], and broadcasting it along axis 1 into [1, N].
  Both rows hold v(q) at (0, q), so they are one array. The kernel program makes its bias rows the first way, the
  reference the second.
-/
import Idealize.ShloMosaic.PureOps.Ideal.Laws
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

/-- A length-N vector reshaped to a 1 × N row is the vector broadcast along axis 1 into a 1 × N row. -/
theorem row_reshape_eq_bcast {N : Nat} {α : Type} (v : (⟨1, ![N]⟩ : Shape).Idx → α)
    (hs : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ v hs = broadcastInDim ⟨2, ![1, N]⟩ ![1] hb v := by
  funext j
  -- split the index of the row into its unit coordinate u and its column q
  obtain ⟨u, q, rfl⟩ : ∃ (u : Fin 1) (q : Fin N), j = ix2 u q := ⟨j 0, j 1, eq_ix2 j⟩
  -- the reshape reads v(q): the row-major positions q and u * N + q agree since u = 0
  rw [shapeCast_a_1a_apply v hs u q]
  -- the broadcast reads v at the coordinate on axis 1, which is q (when N = 1 the coordinate q is 0 anyway)
  refine (broadcastInDim_apply ![1] hb v (ix2 u q) (ix1 q) ?_).symm
  intro a
  match a with
  | ⟨0, _⟩ =>
    show q.val = if N = 1 then 0 else q.val
    have hq : q.val < N := q.isLt
    split
    · omega
    · rfl

end Cert.Bridge

end
-- ==== Proof.Chain0.lean ====
/-
  From the launch to the exit of the embedding call: the index rows are the two slices of the edge list, the call's output is the reference's embedded nodes, and the arguments are as launched.
-/
import proofs.«418406_j45518063403048_2_alg».proof.Proof.Names
import proofs.«418406_j45518063403048_2_alg».proof.Proof.Region0
import proofs.«418406_j45518063403048_2_alg».proof.Proof.RefStagesA
import proofs.«418406_j45518063403048_2_alg».proof.Proof.Rows
import Idealize.ShloMosaic.Lib.StableHlo.Run
import Idealize.ShloMosaic.Lib.Pipeline.Value
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open Cert.ReferenceIdeal.Read

variable (m : (ℓ : Loc nD τ sig) → Buf (Elt Ideal) ℓ) (ρ : Dev nD → PrngReg) (c : Dev nD)

/-- A buffer none of the five entry operations writes (they write the two index rows, their two slices and the bias
    row) holds at the call's entry what it held at launch. -/
theorem entry_keeps (b : Ref sig .tc) (h0 : b ≠ main_v0) (h1 : b ≠ main_v1) (h2 : b ≠ main_v2) (h3 : b ≠ main_v3)
    (h4 : b ≠ main_v4) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-- A buffer that is neither one of the embedding call's four arrays nor written by the entry operations holds at
    the call's exit what it held at launch. -/
theorem exit_keeps (b : Ref sig .tc) (hb : ∀ w, Pipeline.arrRef spec0 w ≠ b) (h0 : b ≠ main_v0) (h1 : b ≠ main_v1)
    (h2 : b ≠ main_v2) (h3 : b ≠ main_v3) (h4 : b ≠ main_v4) :
    W2 m ρ c (Proc.devRef .tc b) = W0 m ρ c (Proc.devRef .tc b) :=
  (W2_of_ne m ρ c b hb).trans (entry_keeps m ρ c b h0 h1 h2 h3 h4)

/-- The source row at the call's entry: the reshape of the edge list's first row, which is the reference's. -/
theorem entry_src : W1 m ρ c (Proc.devRef .tc main_v1) = R1 m c := by
  show StableHlo.after hostOps0 (W0 m ρ c) (Proc.devRef .tc main_v1) = _
  after_results
  rfl

/-- The target row at the call's entry: the reshape of the edge list's second row. -/
theorem entry_dst : W1 m ρ c (Proc.devRef .tc main_v3) = R3 m c := by
  show StableHlo.after hostOps0 (W0 m ρ c) (Proc.devRef .tc main_v3) = _
  after_results
  rfl

/-- The bias row at the call's entry: the bias vector reshaped to 1 × 128, which is the reference's broadcast of it
    into 1 × 128. -/
theorem entry_bias : W1 m ρ c (Proc.devRef .tc main_v4) = R5 m c := by
  show StableHlo.after hostOps0 (W0 m ρ c) (Proc.devRef .tc main_v4) = _
  after_results
  exact row_reshape_eq_bcast _ _ _

/-- The state after the embedding call. -/
theorem chain0 : Inv2 m ρ c := by
  -- the node array and the weight matrix are input arrays of the call: never written back, and as launched at entry
  have e0 : W1 m ρ c (Proc.devRef .tc main_arg0) = A0 m c :=
    entry_keeps m ρ c main_arg0 (by decide) (by decide) (by decide) (by decide) (by decide)
  have e3 : W1 m ρ c (Proc.devRef .tc main_arg3) = A3 m c :=
    entry_keeps m ρ c main_arg3 (by decide) (by decide) (by decide) (by decide) (by decide)
  refine ⟨⟨?_, ?_, ?_, ?_, ?_, ?_, ?_, ?_, ?_, ?_, ?_, ?_, ?_, ?_, ?_⟩, ?_, ?_, ?_⟩
  · exact ((W2_arr m ρ c 0).trans (((dat0 (V1 m ρ) c).arrAt_in 0 rfl _).trans (A_eq0 (V1 m ρ) c 0))).trans e0
  · exact exit_keeps m ρ c main_arg1 (by decide) (by decide) (by decide) (by decide) (by decide) (by decide)
  · exact exit_keeps m ρ c main_arg2 (by decide) (by decide) (by decide) (by decide) (by decide) (by decide)
  · exact ((W2_arr m ρ c 1).trans (((dat0 (V1 m ρ) c).arrAt_in 1 rfl _).trans (A_eq0 (V1 m ρ) c 1))).trans e3
  · exact exit_keeps m ρ c main_arg4 (by decide) (by decide) (by decide) (by decide) (by decide) (by decide)
  · exact exit_keeps m ρ c main_arg5 (by decide) (by decide) (by decide) (by decide) (by decide) (by decide)
  · exact exit_keeps m ρ c main_arg6 (by decide) (by decide) (by decide) (by decide) (by decide) (by decide)
  · exact exit_keeps m ρ c main_arg7 (by decide) (by decide) (by decide) (by decide) (by decide) (by decide)
  · exact exit_keeps m ρ c main_arg8 (by decide) (by decide) (by decide) (by decide) (by decide) (by decide)
  · exact exit_keeps m ρ c main_arg9 (by decide) (by decide) (by decide) (by decide) (by decide) (by decide)
  · exact exit_keeps m ρ c main_arg10 (by decide) (by decide) (by decide) (by decide) (by decide) (by decide)
  · exact exit_keeps m ρ c main_arg11 (by decide) (by decide) (by decide) (by decide) (by decide) (by decide)
  · exact exit_keeps m ρ c main_arg12 (by decide) (by decide) (by decide) (by decide) (by decide) (by decide)
  · exact exit_keeps m ρ c main_arg13 (by decide) (by decide) (by decide) (by decide) (by decide) (by decide)
  · exact exit_keeps m ρ c main_arg14 (by decide) (by decide) (by decide) (by decide) (by decide) (by decide)
  -- the two index rows are not arrays of the call
  · exact (W2_of_ne m ρ c main_v1 (by decide)).trans (entry_src m ρ c)
  · exact (W2_of_ne m ρ c main_v3 (by decide)).trans (entry_dst m ρ c)
  -- the call's output is x·W + b of the arrays it finds, which are the launch's node array and weight matrix and the
  -- reference's bias row; that is the reference's embedded nodes
  · refine (W2_arr m ρ c 3).trans ((region0_out (V1 m ρ) c).trans ?_)
    show lin1 (W1 m ρ c (Proc.devRef .tc main_arg0)) (W1 m ρ c (Proc.devRef .tc main_arg3))
        (W1 m ρ c (Proc.devRef .tc main_v4)) = R7 m c
    rw [e0, e3, entry_bias m ρ c]
    exact (Cert.ReferenceIdeal.Bridge.ref_h0 (A0 m c) (A3 m c) (A4 m c)).symm

end Cert.KernelIdeal.Bridge

end
-- ==== Proof.Region1.lean ====
/-
  The first message call (pallas_call 1, grid of 50 row tiles of 16000 edges): after it the output array holds max ((h_src·W₁ + e·W₂) + b) 0, as one function of the arrays the call finds.
-/
import proofs.«418406_j45518063403048_2_alg».proof.Proof.Gen.KernelIdeal.Frame
import proofs.«418406_j45518063403048_2_alg».proof.Proof.Spec
import proofs.«418406_j45518063403048_2_alg».proof.Proof.LibDotAt
import Idealize.ShloMosaic.Lib.Pipeline.Value
import Idealize.ShloMosaic.Lib.ValueLayout
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge

namespace Region1

/-- The zero offsets of a whole-buffer access, as a constant function. -/
theorem hz1 : (![0, 0] : Fin 2 → Nat) = fun _ => 0 := funext fun a => by fin_cases a <;> rfl

/-- The body's value at row p, column q of a tile: the two products of the tile's rows with the weight matrices, added from
    zero in the body's order, plus the bias row's entry, clipped below at zero. -/
theorem pay1_apply (x0 : FVec Ideal S16000x128 .f32) (x1 : FVec Ideal S128x128 .f32) (x2 : FVec Ideal S16000x64 .f32)
    (x3 : FVec Ideal S64x128 .f32) (x4 : FVec Ideal S1x128 .f32) (p : Fin 16000) (q : Fin 128) :
    k1_pay1 (F := Ideal) x0 x1 x2 x3 x4 (ix2 p q) = max ((mm x0 x1 p q + mm x2 x3 p q) + x4 (row0 q)) 0 := by
  unfold k1_pay1
  rw [maximumf_apply, addf_apply, addf_apply, addf_apply, broadcast_apply]
  simp only [shapeCast_self]
  rw [DotAt.matmul_plain dot_S16000x128_S128x128_S16000x128_1_0_0_1_n_n rfl rfl rfl rfl rfl rfl rfl rfl,
    DotAt.matmul_plain dot_S16000x64_S64x128_S16000x128_1_0_0_1_n_n rfl rfl rfl rfl rfl rfl rfl rfl,
    broadcastTo_1b_ab_apply]
  show max (((Ideal.ofBits .f32 0x00000000#32 + _) + _) + _) (Ideal.ofBits .f32 0x00000000#32) = _
  rw [Ideal.ofBits_zero_f32, zero_add]
  rfl

/-- A tile's value as the layer function of the whole arrays: when the tile's rows of the two tiled inputs are rows P of
    their arrays and the three small inputs are the whole weight and bias arrays, the body's value at (p, q) is the layer's
    at (P, q). -/
theorem tile1_eq (x0 : FVec Ideal S16000x128 .f32) (x1 : FVec Ideal S128x128 .f32) (x2 : FVec Ideal S16000x64 .f32)
    (x3 : FVec Ideal S64x128 .f32) (x4 : FVec Ideal S1x128 .f32)
    (a0 : FVec Ideal S800000x128 .f32) (a1 : FVec Ideal S128x128 .f32) (a2 : FVec Ideal S800000x64 .f32)
    (a3 : FVec Ideal S64x128 .f32) (a4 : FVec Ideal S1x128 .f32)
    (p : Fin 16000) (q : Fin 128) (P : Fin 800000)
    (h0 : ∀ k : Fin 128, x0 (ix2 p k) = a0 (ix2 P k)) (h1 : x1 = a1)
    (h2 : ∀ k : Fin 64, x2 (ix2 p k) = a2 (ix2 P k)) (h3 : x3 = a3) (h4 : x4 = a4) :
    k1_pay1 (F := Ideal) x0 x1 x2 x3 x4 (ix2 p q) = relu2 a0 a1 a2 a3 a4 (ix2 P q) := by
  subst h1 h3 h4
  rw [pay1_apply, relu2_apply]
  unfold mm
  simp only [h0, h2]

end Region1

-- the TensorCore's buffer contents when the call is entered
variable (V : (c : Dev nD) → (b : Ref sig .tc) → Buf (Elt Ideal) ((c : Thread nD τ).loc b))

namespace Region1

/-- The printed index maps over the grid: the three row-tiled windows sit at the point's own tile, the three whole-array
    windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The gathered-rows window's block at point t is rows 16000 t … 16000 t + 15999 of its array. -/
theorem iblk1_0_apply (c : Dev nD) (t : Fin cfg1.N) (x : S16000x128.Idx) (k : S800000x128.Idx)
    (hk0 : (k 0).val = t.val * 16000 + (x 0).val) (hk1 : (k 1).val = (x 1).val) :
    (iblk1 V c 0 t : Vec Ideal S16000x128 .f32) x = (V c main_v6 : S800000x128.Idx → Elt Ideal .f32) k := by
  obtain ⟨e0, e1, -⟩ := idx_facts1 t
  unfold iblk1
  rw [View.read_apply]
  show V c main_v6 _ = V c main_v6 _
  congr 1
  funext a
  apply Fin.ext
  match a with
  | ⟨0, _⟩ => show win1_0.index t 0 * 16000 + 1 * (x 0).val = (k 0).val; rw [e0, hk0]; omega
  | ⟨1, _⟩ => show win1_0.index t 1 * 128 + 1 * (x 1).val = (k 1).val; rw [e1, hk1]; omega

/-- The edge-feature window's block at point t is the same rows of the edge-feature array. -/
theorem iblk1_2_apply (c : Dev nD) (t : Fin cfg1.N) (x : S16000x64.Idx) (k : S800000x64.Idx)
    (hk0 : (k 0).val = t.val * 16000 + (x 0).val) (hk1 : (k 1).val = (x 1).val) :
    (iblk1 V c 2 t : Vec Ideal S16000x64 .f32) x = (V c main_arg1 : S800000x64.Idx → Elt Ideal .f32) k := by
  obtain ⟨-, -, -, -, e0, e1, -⟩ := idx_facts1 t
  unfold iblk1
  rw [View.read_apply]
  show V c main_arg1 _ = V c main_arg1 _
  congr 1
  funext a
  apply Fin.ext
  match a with
  | ⟨0, _⟩ => show win1_2.index t 0 * 16000 + 1 * (x 0).val = (k 0).val; rw [e0, hk0]; omega
  | ⟨1, _⟩ => show win1_2.index t 1 * 64 + 1 * (x 1).val = (k 1).val; rw [e1, hk1]; omega

/-- The first weight window's block is the whole weight array at every point. -/
theorem iblk1_1_eq (c : Dev nD) (t : Fin cfg1.N) :
    (iblk1 V c 1 t : Vec Ideal S128x128 .f32) = (V c main_v8 : S128x128.Idx → Elt Ideal .f32) := by
  obtain ⟨-, -, e0, e1, -⟩ := idx_facts1 t
  funext x
  unfold iblk1
  rw [View.read_apply]
  show V c main_v8 _ = V c main_v8 x
  congr 1
  funext a
  apply Fin.ext
  match a with
  | ⟨0, _⟩ => show win1_1.index t 0 * 128 + 1 * (x 0).val = (x 0).val; rw [e0]; omega
  | ⟨1, _⟩ => show win1_1.index t 1 * 128 + 1 * (x 1).val = (x 1).val; rw [e1]; omega

/-- The second weight window's block is the whole weight array at every point. -/
theorem iblk1_3_eq (c : Dev nD) (t : Fin cfg1.N) :
    (iblk1 V c 3 t : Vec Ideal S64x128 .f32) = (V c main_v10 : S64x128.Idx → Elt Ideal .f32) := by
  obtain ⟨-, -, -, -, -, -, e0, e1, -⟩ := idx_facts1 t
  funext x
  unfold iblk1
  rw [View.read_apply]
  show V c main_v10 _ = V c main_v10 x
  congr 1
  funext a
  apply Fin.ext
  match a with
  | ⟨0, _⟩ => show win1_3.index t 0 * 64 + 1 * (x 0).val = (x 0).val; rw [e0]; omega
  | ⟨1, _⟩ => show win1_3.index t 1 * 128 + 1 * (x 1).val = (x 1).val; rw [e1]; omega

/-- The bias window's block is the whole bias row at every point. -/
theorem iblk1_4_eq (c : Dev nD) (t : Fin cfg1.N) :
    (iblk1 V c 4 t : Vec Ideal S1x128 .f32) = (V c main_v13 : S1x128.Idx → Elt Ideal .f32) := by
  obtain ⟨-, -, -, -, -, -, -, -, e0, e1, -⟩ := idx_facts1 t
  funext x
  unfold iblk1
  rw [View.read_apply]
  show V c main_v13 _ = V c main_v13 x
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- What point t writes back is tile t of the layer function of the arrays the call finds. -/
theorem flushed1_eq (c : Dev nD) (t : Fin cfg1.N) :
    (dat1 V c).flushed 5 t = ((cfg1.win 5).blk t).view.read (Elt Ideal)
      (relu2 (V c main_v6) (V c main_v8) (V c main_arg1) (V c main_v10) (V c main_v13)) := by
  show (cfg1.win 5).cut (grid1.coords t) ((dat1 V c).after 5 t) = _
  rw [after1_5]
  unfold out1_5
  rw [View.canon_unit_zero hz1]
  simp only [View.ld_unit_zero (S := S16000x128) hz1, View.ld_unit_zero (S := S128x128) hz1,
    View.ld_unit_zero (S := S16000x64) hz1, View.ld_unit_zero (S := S64x128) hz1, View.ld_unit_zero (S := S1x128) hz1]
  have hN : cfg1.N = 50 := N_1
  have ht : t.val < 50 := lt_of_lt_of_eq t.isLt hN
  obtain ⟨-, -, -, -, -, -, -, -, -, -, e0, e1⟩ := idx_facts1 t
  funext j
  obtain ⟨p, q, rfl⟩ : ∃ (p : Fin 16000) (q : Fin 128), j = ix2 p q := ⟨j 0, j 1, eq_ix2 j⟩
  have hp : p.val < 16000 := p.isLt
  show k1_pay1 (F := Ideal) (iblk1 V c 0 t) (iblk1 V c 1 t) (iblk1 V c 2 t) (iblk1 V c 3 t) (iblk1 V c 4 t) (ix2 p q)
    = relu2 (V c main_v6) (V c main_v8) (V c main_arg1) (V c main_v10) (V c main_v13) (((cfg1.win 5).blk t).view.emb (ix2 p q))
  have hr : ((cfg1.win 5).blk t).view.emb (ix2 p q) = ix2 (⟨t.val * 16000 + p.val, by omega⟩ : Fin 800000) q := by
    funext a
    apply Fin.ext
    match a with
    | ⟨0, _⟩ => show win1_5.index t 0 * 16000 + 1 * p.val = t.val * 16000 + p.val; rw [e0]; omega
    | ⟨1, _⟩ => show win1_5.index t 1 * 128 + 1 * q.val = q.val; rw [e1]; omega
  rw [hr]
  exact tile1_eq (iblk1 V c 0 t) (iblk1 V c 1 t) (iblk1 V c 2 t) (iblk1 V c 3 t) (iblk1 V c 4 t)
    (V c main_v6) (V c main_v8) (V c main_arg1) (V c main_v10) (V c main_v13) p q ⟨t.val * 16000 + p.val, by omega⟩
    (fun k => iblk1_0_apply V c t (ix2 p k) (ix2 (⟨t.val * 16000 + p.val, by omega⟩ : Fin 800000) k) rfl rfl)
    (iblk1_1_eq V c t)
    (fun k => iblk1_2_apply V c t (ix2 p k) (ix2 (⟨t.val * 16000 + p.val, by omega⟩ : Fin 800000) k) rfl rfl)
    (iblk1_3_eq V c t) (iblk1_4_eq V c t)

/-- Every row of the output array lies in the tile of the point numbered by the row over 16000. -/
theorem cover1 (c : Dev nD) (i : S800000x128.Idx) :
    ∃ t : Fin cfg1.N, (cfg1.win 5).flush t = true ∧ i ∈ ((cfg1.win 5).blk t).view.set := by
  have hN : cfg1.N = 50 := N_1
  have hi0 : (i 0).val < 800000 := (i 0).isLt
  have hi1 : (i 1).val < 128 := (i 1).isLt
  obtain ⟨t, ht⟩ : ∃ t : Fin cfg1.N, t.val = (i 0).val / 16000 := ⟨⟨(i 0).val / 16000, by rw [hN]; omega⟩, rfl⟩
  obtain ⟨-, -, -, -, -, -, -, -, -, -, e0, e1⟩ := idx_facts1 t
  refine ⟨t, flush1_5 t, ?_⟩
  show i ∈ ((View.whole main_v14).slice (win1_5.rect t)).set
  rw [View.set_slice_whole, Rect.mem_set_unit]
  intro a
  match a with
  | ⟨0, _⟩ =>
    show win1_5.index t 0 * 16000 ≤ (i 0).val ∧ (i 0).val < win1_5.index t 0 * 16000 + 16000
    rw [e0, ht]; omega
  | ⟨1, _⟩ =>
    show win1_5.index t 1 * 128 ≤ (i 1).val ∧ (i 1).val < win1_5.index t 1 * 128 + 128
    rw [e1]; omega

end Region1

/-- The messages of layer 0. -/
theorem region1_out (c : Dev nD) :
    (dat1 (F := Ideal) V c).arrAt 5 cfg1.N
      = relu2 (V c main_v6) (V c main_v8) (V c main_arg1) (V c main_v10) (V c main_v13) :=
  (dat1 V c).arrAt_eq_of_cover 5 _ (fun t _ => Region1.flushed1_eq V c t) (Region1.cover1 c)

end Cert.KernelIdeal.Bridge

end
-- ==== Proof.Take.lean ====
/-
  jnp.take with in-range indices is a plain gather.

  The kernel program gathers table rows through jnp.take: a negative index is wrapped by the table's length, the rows
  are gathered at the wrapped indices, and a row whose wrapped index falls outside [0, 49999] is replaced by a fill word.
  When every index is already a row number, 0 ≤ i < 50000, nothing is wrapped and nothing is filled: the range test is
  true in every row, so the select returns the gathered rows.
-/
import proofs.«418406_j45518063403048_2_alg».proof.Proof.Gen.KernelIdeal
import Idealize.ShloMosaic.Lib.StableHlo.Predicate
import Idealize.ShloMosaic.Lib.ReduceAll
import Idealize.ShloMosaic.Lib.Pipeline.Value
import Idealize.ShloMosaic.Lib.ValueIdx

noncomputable section

namespace Cert.KernelIdeal.Bridge

open Idealize.ShloMosaic Idealize.ShloMosaic.ValueIdx
open Cert.KernelIdeal Cert.KernelIdeal.Gen

/-- The column of start indices jnp.take gathers at: an index below zero moved up by the table's length. -/
abbrev takeCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- What jnp.take returns: the gathered rows where the wrapped index is a row number, the fill word elsewhere. -/
abbrev takeVal (h : FVec Ideal S50000x128 .f32) (idx : IVec S800000 32) : FVec Ideal S800000x128 .f32 :=
  select
    (broadcastInDim S800000x128 ![0] bcast_S800000_S800000x128_0
      (Host.reduce IntOp.andi
        (andi (cmpi .sge (takeCol idx) (broadcastInDim S800000x1 ![] bcast_S_S800000x1 (constantI S_ 32 0#32)))
              (cmpi .sle (takeCol idx) (broadcastInDim S800000x1 ![0, 1] bcast_S1x1_S800000x1_0_1
                (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 h (takeCol idx))
    (broadcastInDim S800000x128 ![] bcast_S_S800000x128 (constant S_ .f32 0x7FC00000#32))

/-! ## Words -/

/-- A word that is not below zero as a signed number is left alone by the wrap: the test "below zero" fails, so the
    select keeps the word and not the word moved up by the table's length. -/
theorem wrap_of_nonneg (w : BitVec 32) (h0 : 0 ≤ w.toInt) :
    Scalar.select (IntOp.cmpi .slt w 0#32) (IntOp.addi w 50000#32) w = w := by
  have hz : (0#32 : BitVec 32).toInt = 0 := by decide
  have hne : ¬ IntOp.cmpi .slt w 0#32 = 1#1 := by
    rw [IntOp.cmpi_slt, hz]
    omega
  rw [eq_zero_of_ne_one hne, select_zero]

/-- A word in [0, 50000) as a signed number passes the range test 0 ≤ w ∧ w ≤ 49999. -/
theorem range_test_of_mem (w : BitVec 32) (h0 : 0 ≤ w.toInt) (h1 : w.toInt < 50000) :
    IntOp.andi (IntOp.cmpi .sge w 0#32) (IntOp.cmpi .sle w 49999#32) = 1#1 := by
  have hz : (0#32 : BitVec 32).toInt = 0 := by decide
  have hm : (49999#32 : BitVec 32).toInt = 49999 := by decide
  refine IntOp.andi_eq_one.2 ⟨IntOp.cmpi_sge.2 ?_, IntOp.cmpi_sle.2 ?_⟩
  · rw [hz]; exact h0
  · rw [hm]; omega

/-- A select whose condition is the word 1 returns its first branch. -/
theorem select_of_eq_one {α : Type} {c : BitVec 1} (hc : c = 1#1) (a b : α) : Scalar.select c a b = a := by
  rw [hc]; exact select_one a b

/-! ## An and-reduction of an all-ones array -/

/-- A left fold by `and` over one-bit words that starts at 1 and meets only 1s ends at 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    exact foldl_andi_of_all_one f l _ (IntOp.andi_eq_one.2 ⟨hi, hl a List.mem_cons_self⟩)
      (fun n hn => hl n (List.mem_cons_of_mem _ hn))

/-- A reduction by `and`, from the initial value 1, of an array that is 1 everywhere is 1 at every result index:
    whatever operand indices reduce into that index, the fold meets only 1s. -/
theorem reduce_andi_of_all_one {s t u : Shape} {axes : List (Fin s.rank)} (x : s.Idx → BitVec 1)
    (init : u.Idx → BitVec 1) (hr : s.ReducesTo axes t) (hu : 0 < u.numel) (hx : ∀ i, x i = 1#1)
    (hi : init (Shape.Idx.first hu) = 1#1) (j : t.Idx) : Host.reduce IntOp.andi x init hr hu j = 1#1 := by
  rw [Host.reduce_eq_foldl]
  exact foldl_andi_of_all_one x _ _ hi (fun n _ => hx n)

/-! ## The column of start indices, the range test and the mask, each read at one index -/

/-- With every index at or above zero the column of start indices holds, in row k, the index k itself. -/
theorem takeCol_apply (idx : IVec S800000 32) (hin : ∀ i, 0 ≤ (idx i).toInt ∧ (idx i).toInt < 50000)
    (k : S800000x1.Idx) : takeCol idx k = idx (ix1 (k 0)) := by
  -- the broadcast along axis 0 reads the wrapped vector at the row coordinate
  refine (broadcastInDim_apply _ bcast_S800000_S800000x1_0 _ k (ix1 (k 0)) ?_).trans ?_
  · intro a
    match a with
    | ⟨0, _⟩ =>
      split
      · next h1 => change (800000 : Nat) = 1 at h1; omega
      · rfl
  -- the wrapped vector at that row is the select of one word, whose test "below zero" fails
  · show Scalar.select (IntOp.cmpi .slt (idx (ix1 (k 0))) 0#32) (IntOp.addi (idx (ix1 (k 0))) 50000#32)
        (idx (ix1 (k 0))) = idx (ix1 (k 0))
    exact wrap_of_nonneg _ (hin _).1

/-- The range test of jnp.take over the column of start indices: 0 ≤ start ∧ start ≤ 49999, row by row. -/
abbrev takeTest (idx : IVec S800000 32) : IVec S800000x1 1 :=
  andi (cmpi .sge (takeCol idx) (broadcastInDim S800000x1 ![] bcast_S_S800000x1 (constantI S_ 32 0#32)))
       (cmpi .sle (takeCol idx) (broadcastInDim S800000x1 ![0, 1] bcast_S1x1_S800000x1_0_1
         (broadcastInDim S1x1 ![1] bcast_S1_S1x1_1 (constantI S1 32 49999#32))))

/-- With every index a row number the range test is 1 in every row of the column. -/
theorem takeTest_apply (idx : IVec S800000 32) (hin : ∀ i, 0 ≤ (idx i).toInt ∧ (idx i).toInt < 50000)
    (k : S800000x1.Idx) : takeTest idx k = 1#1 := by
  -- both broadcast constants read their word at every index
  show IntOp.andi (IntOp.cmpi .sge (takeCol idx k) 0#32) (IntOp.cmpi .sle (takeCol idx k) 49999#32) = 1#1
  rw [takeCol_apply idx hin k]
  exact range_test_of_mem _ (hin _).1 (hin _).2

/-- With every index a row number the mask of jnp.take — the range test and-reduced over the trailing axis of extent 1,
    then broadcast along axis 0 — is 1 at every position of the result. -/
theorem takeMask_apply (idx : IVec S800000 32) (hin : ∀ i, 0 ≤ (idx i).toInt ∧ (idx i).toInt < 50000)
    (j : S800000x128.Idx) :
    broadcastInDim S800000x128 ![0] bcast_S800000_S800000x128_0
      (Host.reduce IntOp.andi (takeTest idx) (constantI S_ 1 1#1) reducesTo_S800000x1_S800000_d1 h_S_) j = 1#1 := by
  -- the broadcast reads the reduced vector at the row coordinate of j
  refine (broadcastInDim_apply _ bcast_S800000_S800000x128_0 _ j (ix1 (j 0)) ?_).trans ?_
  · intro a
    match a with
    | ⟨0, _⟩ =>
      split
      · next h1 => change (800000 : Nat) = 1 at h1; omega
      · rfl
  -- the reduced vector is 1 there: the test is 1 everywhere and the fold starts from 1
  · exact reduce_andi_of_all_one (takeTest idx) _ _ _ (takeTest_apply idx hin) rfl _

/-- With every index a row number the range test holds in every row, so the take is the gather. -/
theorem take_in_range (h : FVec Ideal S50000x128 .f32) (idx : IVec S800000 32)
    (hin : ∀ i, 0 ≤ (idx i).toInt ∧ (idx i).toInt < 50000) :
    takeVal h idx = Host.gather gather_S50000x128_S800000x1_S800000x128_1_0_n_n_0_1_1128 h (takeCol idx) := by
  funext j
  -- at j the take is the select of three words, and its condition, the mask at j, is 1
  exact (select_apply _ _ _ j).trans (select_of_eq_one (takeMask_apply idx hin j) _ _)

end Cert.KernelIdeal.Bridge

end
-- ==== Proof.Chain1.lean ====
/-
  Through the first take and the first message call: the taken rows are the reference's gathered rows (every index a node number), the weight slices and the bias row are the reference's, and the call's output is the reference's messages of layer 0.
-/
import proofs.«418406_j45518063403048_2_alg».proof.Proof.Names
import proofs.«418406_j45518063403048_2_alg».proof.Proof.Region1
import proofs.«418406_j45518063403048_2_alg».proof.Proof.RefStagesA
import proofs.«418406_j45518063403048_2_alg».proof.Proof.Rows
import proofs.«418406_j45518063403048_2_alg».proof.Proof.Take
import proofs.«418406_j45518063403048_2_alg».proof.Proof.IntFacts
import Idealize.ShloMosaic.Lib.StableHlo.Run
import Idealize.ShloMosaic.Lib.Pipeline.Value
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open Cert.ReferenceIdeal.Read

variable (m : (ℓ : Loc nD τ sig) → Buf (Elt Ideal) ℓ) (ρ : Dev nD → PrngReg) (c : Dev nD)

namespace Chain1

/-- No operation of the named stretch writes the buffer of the goal: the stretch's result buffers, listed, each differ
    from it. -/
local macro "unwritten " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- A buffer neither stretch between the two calls writes holds at the second call's entry what it held at the first
    call's exit. -/
theorem enter (b : Ref sig .tc)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes) :
    W4 m ρ c (Proc.devRef .tc b) = W2 m ρ c (Proc.devRef .tc b) :=
  (StableHlo.after_of_forall_not_mem (b := Proc.devRef .tc b) _ _ h11).trans
    (StableHlo.after_of_forall_not_mem (b := Proc.devRef .tc b) _ _ h1)

/-- If moreover it is not one of the second call's arrays, it holds the same at that call's exit. -/
theorem cross (b : Ref sig .tc) (h5 : ∀ w, Pipeline.arrRef spec1 w ≠ b)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes) :
    W5 m ρ c (Proc.devRef .tc b) = W2 m ρ c (Proc.devRef .tc b) :=
  (W5_of_ne m ρ c b h5).trans (enter m ρ c b h11 h1)

/-- The edge features, an input of the call, leave it as they entered it. -/
theorem through_arg1 : W5 m ρ c (Proc.devRef .tc main_arg1) = W2 m ρ c (Proc.devRef .tc main_arg1) :=
  ((W5_arr m ρ c 2).trans (((dat1 (V4 m ρ) c).arrAt_in 2 rfl _).trans (A_eq1 (V4 m ρ) c 2))).trans
    (enter m ρ c main_arg1 (by unwritten hostOps1_1) (by unwritten hostOps1))

/-- The arguments are as launched after the call. -/
theorem args5 (h : ArgsAt m c (W2 m ρ c)) : ArgsAt m c (W5 m ρ c) where
  a0 := (cross m ρ c main_arg0 (by decide) (by unwritten hostOps1_1) (by unwritten hostOps1)).trans h.a0
  a1 := (through_arg1 m ρ c).trans h.a1
  a2 := (cross m ρ c main_arg2 (by decide) (by unwritten hostOps1_1) (by unwritten hostOps1)).trans h.a2
  a3 := (cross m ρ c main_arg3 (by decide) (by unwritten hostOps1_1) (by unwritten hostOps1)).trans h.a3
  a4 := (cross m ρ c main_arg4 (by decide) (by unwritten hostOps1_1) (by unwritten hostOps1)).trans h.a4
  a5 := (cross m ρ c main_arg5 (by decide) (by unwritten hostOps1_1) (by unwritten hostOps1)).trans h.a5
  a6 := (cross m ρ c main_arg6 (by decide) (by unwritten hostOps1_1) (by unwritten hostOps1)).trans h.a6
  a7 := (cross m ρ c main_arg7 (by decide) (by unwritten hostOps1_1) (by unwritten hostOps1)).trans h.a7
  a8 := (cross m ρ c main_arg8 (by decide) (by unwritten hostOps1_1) (by unwritten hostOps1)).trans h.a8
  a9 := (cross m ρ c main_arg9 (by decide) (by unwritten hostOps1_1) (by unwritten hostOps1)).trans h.a9
  a10 := (cross m ρ c main_arg10 (by decide) (by unwritten hostOps1_1) (by unwritten hostOps1)).trans h.a10
  a11 := (cross m ρ c main_arg11 (by decide) (by unwritten hostOps1_1) (by unwritten hostOps1)).trans h.a11
  a12 := (cross m ρ c main_arg12 (by decide) (by unwritten hostOps1_1) (by unwritten hostOps1)).trans h.a12
  a13 := (cross m ρ c main_arg13 (by decide) (by unwritten hostOps1_1) (by unwritten hostOps1)).trans h.a13
  a14 := (cross m ρ c main_arg14 (by decide) (by unwritten hostOps1_1) (by unwritten hostOps1)).trans h.a14

/-- The source row, the target row and the embedded nodes are not touched between the two boundaries. -/
theorem src5 : W5 m ρ c (Proc.devRef .tc main_v1) = W2 m ρ c (Proc.devRef .tc main_v1) :=
  cross m ρ c main_v1 (by decide) (by unwritten hostOps1_1) (by unwritten hostOps1)
theorem dst5 : W5 m ρ c (Proc.devRef .tc main_v3) = W2 m ρ c (Proc.devRef .tc main_v3) :=
  cross m ρ c main_v3 (by decide) (by unwritten hostOps1_1) (by unwritten hostOps1)
theorem nodes5 : W5 m ρ c (Proc.devRef .tc main_v5) = W2 m ρ c (Proc.devRef .tc main_v5) :=
  cross m ρ c main_v5 (by decide) (by unwritten hostOps1_1) (by unwritten hostOps1)

/-! ## What the call finds in its five input arrays -/

/-- Contents carried to a typed reference's buffer and back are unchanged. -/
theorem ofBuf_toBuf {T : BufTy} (x : StableHlo.TRef sig T) (v : T.Contents (Elt Ideal)) : x.ofBuf (x.toBuf v) = v := by
  obtain ⟨r, h, d, u⟩ := x
  subst h
  rfl

/-- Reading the source row, the node table, and writing the taken rows through their typed references changes nothing. -/
theorem ofBuf_v1 (h : main_v1.ty = ⟨S800000, .i32⟩) (d u) (v : main_v1.ty.Contents (Elt Ideal)) :
    (StableHlo.TRef.of main_v1 h d u).ofBuf v = v := rfl
theorem ofBuf_v5 (h : main_v5.ty = ⟨S50000x128, .f32⟩) (d u) (v : main_v5.ty.Contents (Elt Ideal)) :
    (StableHlo.TRef.of main_v5 h d u).ofBuf v = v := rfl
theorem toBuf_v6 (h : main_v6.ty = ⟨S800000x128, .f32⟩) (d u) (v : (⟨S800000x128, .f32⟩ : BufTy).Contents (Elt Ideal)) :
    (StableHlo.TRef.of main_v6 h d u).toBuf v = v := rfl

/-- The taken rows at the call's entry: the take of the node table at the source row, both as the first call left them. -/
theorem taken4 : W4 m ρ c (Proc.devRef .tc main_v6)
    = takeVal (W2 m ρ c (Proc.devRef .tc main_v5)) (W2 m ρ c (Proc.devRef .tc main_v1)) := by
  show StableHlo.after hostOps1_1 (StableHlo.after hostOps1 (W2 m ρ c)) (Proc.devRef .tc main_v6) = _
  after_results_simp
  simp only [ofBuf_toBuf, ofBuf_v1, ofBuf_v5, toBuf_v6]

/-- With every source index a node number they are the reference's gathered rows. -/
theorem rows4 (hok : IdxOK (A2 m c)) (h : Inv2 m ρ c) : W4 m ρ c (Proc.devRef .tc main_v6) = R14 m c := by
  rw [taken4, h.h0, h.src, take_in_range _ _ (src_range m c hok)]
  rfl

/-- The first weight slice is the reference's. -/
theorem w1_4 (h : Inv2 m ρ c) : W4 m ρ c (Proc.devRef .tc main_v8) = R16 m c := by
  show StableHlo.after hostOps1_1 (StableHlo.after hostOps1 (W2 m ρ c)) (Proc.devRef .tc main_v8) = _
  after_results
  rw [h.args.a5]
  rfl

/-- The second weight slice is the reference's. -/
theorem w2_4 (h : Inv2 m ρ c) : W4 m ρ c (Proc.devRef .tc main_v10) = R19 m c := by
  show StableHlo.after hostOps1_1 (StableHlo.after hostOps1 (W2 m ρ c)) (Proc.devRef .tc main_v10) = _
  after_results
  rw [h.args.a5]
  rfl

/-- The bias row, a reshape here and a broadcast in the reference, is the reference's. -/
theorem b_4 (h : Inv2 m ρ c) : W4 m ρ c (Proc.devRef .tc main_v13) = R24 m c := by
  show StableHlo.after hostOps1_1 (StableHlo.after hostOps1 (W2 m ρ c)) (Proc.devRef .tc main_v13) = _
  after_results
  rw [h.args.a6]
  exact row_reshape_eq_bcast _ _ _

/-- The edge features at the call's entry are the launched ones. -/
theorem e_4 (h : Inv2 m ρ c) : W4 m ρ c (Proc.devRef .tc main_arg1) = A1 m c :=
  (enter m ρ c main_arg1 (by unwritten hostOps1_1) (by unwritten hostOps1)).trans h.args.a1

/-- The call's output is the reference's messages of layer 0. -/
theorem messages5 (hok : IdxOK (A2 m c)) (h : Inv2 m ρ c) : W5 m ρ c (Proc.devRef .tc main_v14) = R27 m c := by
  refine (W5_arr m ρ c 5).trans ?_
  refine (region1_out (V4 m ρ) c).trans ?_
  rw [show V4 m ρ c main_v6 = R14 m c from rows4 m ρ c hok h, show V4 m ρ c main_v8 = R16 m c from w1_4 m ρ c h,
    show V4 m ρ c main_arg1 = A1 m c from e_4 m ρ c h, show V4 m ρ c main_v10 = R19 m c from w2_4 m ρ c h,
    show V4 m ρ c main_v13 = R24 m c from b_4 m ρ c h]
  exact (Cert.ReferenceIdeal.Bridge.ref_m1 (A0 m c) (A1 m c) (A2 m c) (A3 m c) (A4 m c) (A5 m c) (A6 m c)).symm

end Chain1

/-- The state after the first message call. -/
theorem chain1 (hok : IdxOK (A2 m c)) (h : Inv2 m ρ c) : Inv5 m ρ c where
  args := Chain1.args5 m ρ c h.args
  src := (Chain1.src5 m ρ c).trans h.src
  dst := (Chain1.dst5 m ρ c).trans h.dst
  h0 := (Chain1.nodes5 m ρ c).trans h.h0
  m1 := Chain1.messages5 m ρ c hok h

end Cert.KernelIdeal.Bridge

end
-- ==== Proof.Region2.lean ====
/-
  The first node update (pallas_call 2, grid of 5 row tiles of 10000 nodes): after it the output array holds max ((aggr·W₁ + h·W₂) + b) 0, as one function of the arrays the call finds.
-/
import proofs.«418406_j45518063403048_2_alg».proof.Proof.Gen.KernelIdeal.Frame
import proofs.«418406_j45518063403048_2_alg».proof.Proof.Spec
import proofs.«418406_j45518063403048_2_alg».proof.Proof.LibDotAt
import Idealize.ShloMosaic.Lib.Pipeline.Value
import Idealize.ShloMosaic.Lib.ValueLayout
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge

/-- The zero offsets of a whole-buffer access, spelt as a function. -/
theorem zero_off2 : (![0, 0] : Fin 2 → Nat) = fun _ => 0 := funext fun a => by fin_cases a <;> rfl

/-- The body's value at row p, column q of a tile: the two products of the tile's rows with the weight matrices, added
    to zero from the left in the body's order, plus the bias row, clipped below at zero. -/
theorem tile_value_at (x0 : Vec Ideal S10000x128 .f32) (x1 : Vec Ideal S128x128 .f32) (x2 : Vec Ideal S10000x128 .f32)
    (x3 : Vec Ideal S128x128 .f32) (x4 : Vec Ideal S1x128 .f32) (p : Fin 10000) (q : Fin 128) :
    k2_pay1 (F := Ideal) x0 x1 x2 x3 x4 (ix2 p q)
      = max ((mm x0 x1 p q + mm x2 x3 p q) + x4 (row0 q)) 0 := by
  unfold k2_pay1
  simp only [shapeCast_self, maximumf, addf, broadcast]
  rw [DotAt.matmul_plain dot_S10000x128_S128x128_S10000x128_1_0_0_1_n_n rfl rfl rfl rfl rfl rfl rfl rfl (some .fp32) x0 x1 p q,
    DotAt.matmul_plain dot_S10000x128_S128x128_S10000x128_1_0_0_1_n_n rfl rfl rfl rfl rfl rfl rfl rfl (some .fp32) x2 x3 p q,
    broadcastTo_1b_ab_apply x4 broadcasts_S1x128_S10000x128 p q]
  simp only [Ideal.maximumf_def, Ideal.addf_def, Ideal.ofBits_def, Ideal.ofBits_zero_f32, zero_add]
  rfl

/-- The same value when the tile's blocks are rows i·10000 … i·10000 + 9999 of two node arrays and the three small
    arrays whole: the layer function of the arrays at that row. -/
theorem tile_is_layer (x0 : Vec Ideal S10000x128 .f32) (x1 : Vec Ideal S128x128 .f32) (x2 : Vec Ideal S10000x128 .f32)
    (x3 : Vec Ideal S128x128 .f32) (x4 : Vec Ideal S1x128 .f32)
    (a0 : Vec Ideal S50000x128 .f32) (a1 : Vec Ideal S128x128 .f32) (a2 : Vec Ideal S50000x128 .f32)
    (a3 : Vec Ideal S128x128 .f32) (a4 : Vec Ideal S1x128 .f32) (p : Fin 10000) (q : Fin 128) (r : Fin 50000)
    (h0 : ∀ k : Fin 128, x0 (ix2 p k) = a0 (ix2 r k)) (h1 : x1 = a1)
    (h2 : ∀ k : Fin 128, x2 (ix2 p k) = a2 (ix2 r k)) (h3 : x3 = a3) (h4 : x4 = a4) :
    k2_pay1 (F := Ideal) x0 x1 x2 x3 x4 (ix2 p q) = relu2 a0 a1 a2 a3 a4 (ix2 r q) := by
  rw [tile_value_at, relu2_apply]
  subst h1 h3 h4
  unfold mm
  simp only [h0, h2]

-- the TensorCore's buffer contents when the call is entered
variable (V : (c : Dev nD) → (b : Ref sig .tc) → Buf (Elt Ideal) ((c : Thread nD τ).loc b))

/-- The block index maps over the grid: the two node windows and the output move one row tile per point, the weight
    and bias windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t, read at (p, k), is row t·10000 + p of the array the call finds. -/
theorem blk0_at (c : Dev nD) (t : Fin cfg2.N) (p : Fin 10000) (k : Fin 128) (r : Fin 50000)
    (hr : r.val = t.val * 10000 + p.val) :
    (iblk2 V c 0 t : Vec Ideal S10000x128 .f32) (ix2 p k) = (V c main_v17 : Vec Ideal S50000x128 .f32) (ix2 r k) := by
  obtain ⟨e0, e1, -⟩ := idx_facts t
  unfold iblk2
  rw [View.read_apply]
  show V c main_v17 _ = V c main_v17 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- Window 2's block at point t, read at (p, k), is row t·10000 + p of the array the call finds. -/
theorem blk2_at (c : Dev nD) (t : Fin cfg2.N) (p : Fin 10000) (k : Fin 128) (r : Fin 50000)
    (hr : r.val = t.val * 10000 + p.val) :
    (iblk2 V c 2 t : Vec Ideal S10000x128 .f32) (ix2 p k) = (V c main_v5 : Vec Ideal S50000x128 .f32) (ix2 r k) := by
  obtain ⟨-, -, -, -, e0, e1, -⟩ := idx_facts t
  unfold iblk2
  rw [View.read_apply]
  show V c main_v5 _ = V c main_v5 _
  congr 1
  funext a
  apply Fin.ext
  match a with
  | ⟨0, _⟩ => show win2_2.index t (0 : Fin 2) * 10000 + 1 * p.val = r.val; rw [e0, hr]; omega
  | ⟨1, _⟩ => show win2_2.index t (1 : Fin 2) * 128 + 1 * k.val = k.val; rw [e1]; omega

/-- Window 1's block at every point is the whole first weight matrix. -/
theorem blk1_whole (c : Dev nD) (t : Fin cfg2.N) :
    (iblk2 V c 1 t : Vec Ideal S128x128 .f32) = (V c main_v19 : Vec Ideal S128x128 .f32) := by
  obtain ⟨-, -, e0, e1, -⟩ := idx_facts t
  funext j
  unfold iblk2
  rw [View.read_apply]
  show V c main_v19 _ = V c main_v19 _
  congr 1
  funext a
  apply Fin.ext
  match a with
  | ⟨0, _⟩ => show win2_1.index t (0 : Fin 2) * 128 + 1 * (j 0).val = (j 0).val; rw [e0]; omega
  | ⟨1, _⟩ => show win2_1.index t (1 : Fin 2) * 128 + 1 * (j 1).val = (j 1).val; rw [e1]; omega

/-- Window 3's block at every point is the whole second weight matrix. -/
theorem blk3_whole (c : Dev nD) (t : Fin cfg2.N) :
    (iblk2 V c 3 t : Vec Ideal S128x128 .f32) = (V c main_v21 : Vec Ideal S128x128 .f32) := by
  obtain ⟨-, -, -, -, -, -, e0, e1, -⟩ := idx_facts t
  funext j
  unfold iblk2
  rw [View.read_apply]
  show V c main_v21 _ = V c main_v21 _
  congr 1
  funext a
  apply Fin.ext
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

/-- Window 4's block at every point is the whole bias row. -/
theorem blk4_whole (c : Dev nD) (t : Fin cfg2.N) :
    (iblk2 V c 4 t : Vec Ideal S1x128 .f32) = (V c main_v24 : Vec Ideal S1x128 .f32) := by
  obtain ⟨-, -, -, -, -, -, -, -, e0, e1, -⟩ := idx_facts t
  funext j
  unfold iblk2
  rw [View.read_apply]
  show V c main_v24 _ = V c main_v24 _
  congr 1
  funext a
  apply Fin.ext
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-- Block t of an array of the output's shape, read at (p, q), is the array at row t·10000 + p. -/
theorem outblk_at (G : Vec Ideal S50000x128 .f32) (t : Fin cfg2.N) (p : Fin 10000) (q : Fin 128) (r : Fin 50000)
    (hr : r.val = t.val * 10000 + p.val) :
    (((cfg2.win 5).blk t).view.read (Elt Ideal) G : Vec Ideal S10000x128 .f32) (ix2 p q) = G (ix2 r q) := by
  obtain ⟨-, -, -, -, -, -, -, -, -, -, e0, e1⟩ := idx_facts t
  rw [View.read_apply]
  show G _ = G _
  congr 1
  funext a
  apply Fin.ext
  match a with
  | ⟨0, _⟩ => show win2_5.index t (0 : Fin 2) * 10000 + 1 * p.val = r.val; rw [e0, hr]; omega
  | ⟨1, _⟩ => show win2_5.index t (1 : Fin 2) * 128 + 1 * q.val = q.val; rw [e1]; omega

/-- What point t writes back is block t of the layer function of the arrays the call finds. -/
theorem flushed_is_layer (c : Dev nD) (t : Fin cfg2.N) :
    (dat2 V c).flushed 5 t = ((cfg2.win 5).blk t).view.read (Elt Ideal)
      (relu2 (V c main_v17) (V c main_v19) (V c main_v5) (V c main_v21) (V c main_v24) : Vec Ideal S50000x128 .f32) := by
  show (cfg2.win 5).cut (grid2.coords t) ((dat2 V c).after 5 t) = _
  rw [after2_5]
  unfold out2_5
  rw [View.canon_unit_zero zero_off2]
  simp only [View.ld_unit_zero (S := S10000x128) zero_off2, View.ld_unit_zero (S := S128x128) zero_off2,
    View.ld_unit_zero (S := S1x128) zero_off2]
  funext j
  obtain ⟨p, q, rfl⟩ : ∃ (p : Fin 10000) (q : Fin 128), j = ix2 p q := ⟨j 0, j 1, eq_ix2 j⟩
  have hlt : t.val < 5 := lt_of_lt_of_eq t.isLt (N_2 : cfg2.N = 5)
  have hr : t.val * 10000 + p.val < 50000 := by have := p.isLt; omega
  refine (tile_is_layer (iblk2 V c 0 t) (iblk2 V c 1 t) (iblk2 V c 2 t) (iblk2 V c 3 t) (iblk2 V c 4 t)
    (V c main_v17) (V c main_v19) (V c main_v5) (V c main_v21) (V c main_v24) p q ⟨t.val * 10000 + p.val, hr⟩
    (fun k => blk0_at V c t p k _ rfl) (blk1_whole V c t) (fun k => blk2_at V c t p k _ rfl) (blk3_whole V c t)
    (blk4_whole V c t)).trans ?_
  exact (outblk_at _ t p q _ rfl).symm

/-- An index of the output array is in point t's block iff each coordinate is in the block's range on its axis. -/
theorem mem_outblk (t : Fin cfg2.N) (i : S50000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v25).slice (win2_5.rect t)).set ↔ _
  rw [View.set_slice_whole, Rect.mem_set_unit]
  exact Iff.rfl

/-- Every row of the output array lies in the block of the point numbered row / 10000, and every point writes back. -/
theorem rows_covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 10000, lt_of_lt_of_eq (by omega) (N_2 : cfg2.N = 5).symm⟩
  obtain ⟨-, -, -, -, -, -, -, -, -, -, e0, e1⟩ := idx_facts t
  refine ⟨t, flush2_5 t, ?_⟩
  rw [mem_outblk]
  intro a
  match a with
  | ⟨0, _⟩ =>
    show win2_5.index t (0 : Fin 2) * 10000 ≤ (i 0).val ∧ (i 0).val < win2_5.index t (0 : Fin 2) * 10000 + 10000
    rw [e0]; show (i 0).val / 10000 * 10000 ≤ (i 0).val ∧ (i 0).val < (i 0).val / 10000 * 10000 + 10000; omega
  | ⟨1, _⟩ =>
    show win2_5.index t (1 : Fin 2) * 128 ≤ (i 1).val ∧ (i 1).val < win2_5.index t (1 : Fin 2) * 128 + 128
    rw [e1]; omega

/-- The nodes after layer 0. -/
theorem region2_out (c : Dev nD) :
    (dat2 (F := Ideal) V c).arrAt 5 cfg2.N
      = relu2 (V c main_v17) (V c main_v19) (V c main_v5) (V c main_v21) (V c main_v24) :=
  (dat2 V c).arrAt_eq_of_cover 5 _ (fun t _ => flushed_is_layer V c t) rows_covered

end Cert.KernelIdeal.Bridge

end
-- ==== Proof.Chain2.lean ====
/-
  Through the first scatter-add and the first node update: the scatter-add is the same operation on both sides applied to equal operands, and the call's output is the reference's nodes after layer 0.
-/
import proofs.«418406_j45518063403048_2_alg».proof.Proof.Names
import proofs.«418406_j45518063403048_2_alg».proof.Proof.Region2
import proofs.«418406_j45518063403048_2_alg».proof.Proof.RefStagesA
import proofs.«418406_j45518063403048_2_alg».proof.Proof.Rows
import Idealize.ShloMosaic.Lib.StableHlo.Run
import Idealize.ShloMosaic.Lib.Pipeline.Value
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open Cert.ReferenceIdeal.Read

variable (m : (ℓ : Loc nD τ sig) → Buf (Elt Ideal) ℓ) (ρ : Dev nD → PrngReg) (c : Dev nD)

/-- The host stretch before the first node update writes eleven buffers: the zero scalar and its splat, the index
    column, the scatter-add's result, and the slices and reshapes of the weights and the bias. Any other buffer it
    leaves as it was. -/
theorem W6_keeps (b : Ref sig .tc)
    (hb : b ≠ main_cst ∧ b ≠ main_v15 ∧ b ≠ main_v16 ∧ b ≠ main_v17 ∧ b ≠ main_v18 ∧ b ≠ main_v19 ∧ b ≠ main_v20
      ∧ b ≠ main_v21 ∧ b ≠ main_v22 ∧ b ≠ main_v23 ∧ b ≠ main_v24) :
    W6 m ρ c (Proc.devRef .tc b) = W5 m ρ c (Proc.devRef .tc b) := by
  obtain ⟨h0, h1, h2, h3, h4, h5, h6, h7, h8, h9, h10⟩ := hb
  refine StableHlo.after_of_forall_not_mem (b := Proc.devRef .tc b) _ _ (List.forall_iff_forall_mem.mp ?_)
  simp only [hostOps2, List.Forall, StableHlo.nullary_writes, StableHlo.unary_writes, StableHlo.ternary_writes,
    StableHlo.reshape_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9, StableHlo.devRef_ne_of_ne h10⟩

/-- A buffer that is neither written by that stretch nor an array of the call is, after the call, as it was before the
    stretch. -/
theorem W7_keeps (b : Ref sig .tc) (ha : ∀ w, Pipeline.arrRef spec2 w ≠ b)
    (hb : b ≠ main_cst ∧ b ≠ main_v15 ∧ b ≠ main_v16 ∧ b ≠ main_v17 ∧ b ≠ main_v18 ∧ b ≠ main_v19 ∧ b ≠ main_v20
      ∧ b ≠ main_v21 ∧ b ≠ main_v22 ∧ b ≠ main_v23 ∧ b ≠ main_v24) :
    W7 m ρ c (Proc.devRef .tc b) = W5 m ρ c (Proc.devRef .tc b) :=
  (W7_of_ne m ρ c b ha).trans (W6_keeps m ρ c b hb)

/-- The aggregated messages: the scatter-add of the first message call's output into zeros along the target row is the
    reference's scatter-add of its layer-0 messages. -/
theorem aggr_eq (h : Inv5 m ρ c) : W6 m ρ c (Proc.devRef .tc main_v17) = R30 m c := by
  show StableHlo.after hostOps2 (W5 m ρ c) (Proc.devRef .tc main_v17) = _
  after_results
  rw [h.dst, h.m1]
  rfl

/-- The first weight matrix of the node update: the same slice and reshape of the weights on both sides. -/
theorem w1_eq (h : Inv5 m ρ c) : W6 m ρ c (Proc.devRef .tc main_v19) = R32 m c := by
  show StableHlo.after hostOps2 (W5 m ρ c) (Proc.devRef .tc main_v19) = _
  after_results
  rw [h.args.a7]
  rfl

/-- The second weight matrix of the node update. -/
theorem w2_eq (h : Inv5 m ρ c) : W6 m ρ c (Proc.devRef .tc main_v21) = R35 m c := by
  show StableHlo.after hostOps2 (W5 m ρ c) (Proc.devRef .tc main_v21) = _
  after_results
  rw [h.args.a7]
  rfl

/-- The bias row of the node update: a reshape of the bias vector on the kernel side, a broadcast of it on the
    reference's; both are the vector as a 1 × 128 row. -/
theorem b_eq (h : Inv5 m ρ c) : W6 m ρ c (Proc.devRef .tc main_v24) = R40 m c := by
  show StableHlo.after hostOps2 (W5 m ρ c) (Proc.devRef .tc main_v24) = _
  after_results
  rw [h.args.a8]
  exact row_reshape_eq_bcast (R39 m c) _ _

/-- The state after the first node update. -/
theorem chain2 (h : Inv5 m ρ c) : Inv7 m ρ c := by
  refine ⟨⟨?_, ?_, ?_, ?_, ?_, ?_, ?_, ?_, ?_, ?_, ?_, ?_, ?_, ?_, ?_⟩, ?_, ?_, ?_⟩
  · exact (W7_keeps m ρ c main_arg0 (by decide) (by decide)).trans h.args.a0
  · exact (W7_keeps m ρ c main_arg1 (by decide) (by decide)).trans h.args.a1
  · exact (W7_keeps m ρ c main_arg2 (by decide) (by decide)).trans h.args.a2
  · exact (W7_keeps m ρ c main_arg3 (by decide) (by decide)).trans h.args.a3
  · exact (W7_keeps m ρ c main_arg4 (by decide) (by decide)).trans h.args.a4
  · exact (W7_keeps m ρ c main_arg5 (by decide) (by decide)).trans h.args.a5
  · exact (W7_keeps m ρ c main_arg6 (by decide) (by decide)).trans h.args.a6
  · exact (W7_keeps m ρ c main_arg7 (by decide) (by decide)).trans h.args.a7
  · exact (W7_keeps m ρ c main_arg8 (by decide) (by decide)).trans h.args.a8
  · exact (W7_keeps m ρ c main_arg9 (by decide) (by decide)).trans h.args.a9
  · exact (W7_keeps m ρ c main_arg10 (by decide) (by decide)).trans h.args.a10
  · exact (W7_keeps m ρ c main_arg11 (by decide) (by decide)).trans h.args.a11
  · exact (W7_keeps m ρ c main_arg12 (by decide) (by decide)).trans h.args.a12
  · exact (W7_keeps m ρ c main_arg13 (by decide) (by decide)).trans h.args.a13
  · exact (W7_keeps m ρ c main_arg14 (by decide) (by decide)).trans h.args.a14
  · exact (W7_keeps m ρ c main_v1 (by decide) (by decide)).trans h.src
  · exact (W7_keeps m ρ c main_v3 (by decide) (by decide)).trans h.dst
  · -- the call's output array is the layer function of the five arrays the call finds
    refine (W7_arr m ρ c 5).trans ((region2_out (V6 m ρ) c).trans ?_)
    have e5 : W6 m ρ c (Proc.devRef .tc main_v5) = R7 m c :=
      (W6_keeps m ρ c main_v5 (by decide)).trans h.h0
    show relu2 (W6 m ρ c (Proc.devRef .tc main_v17)) (W6 m ρ c (Proc.devRef .tc main_v19))
      (W6 m ρ c (Proc.devRef .tc main_v5)) (W6 m ρ c (Proc.devRef .tc main_v21))
      (W6 m ρ c (Proc.devRef .tc main_v24)) = _
    rw [aggr_eq m ρ c h, w1_eq m ρ c h, e5, w2_eq m ρ c h, b_eq m ρ c h]
    exact (Cert.ReferenceIdeal.Bridge.ref_h1 (A0 m c) (A1 m c) (A2 m c) (A3 m c) (A4 m c) (A5 m c) (A6 m c) (A7 m c)
      (A8 m c)).symm

end Cert.KernelIdeal.Bridge

end
-- ==== Proof.Region3.lean ====
/-
  The first edge update (pallas_call 3, grid of 50 row tiles of 16000 edges): after it the output array holds max (((h_src·W₁ + h_dst·W₂) + e·W₃) + b) 0, as one function of the arrays the call finds.
-/
import proofs.«418406_j45518063403048_2_alg».proof.Proof.Gen.KernelIdeal.Frame
import proofs.«418406_j45518063403048_2_alg».proof.Proof.Spec
import proofs.«418406_j45518063403048_2_alg».proof.Proof.LibDotAt
import Idealize.ShloMosaic.Lib.Pipeline.Value
import Idealize.ShloMosaic.Lib.ValueLayout
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge

-- the TensorCore's buffer contents when the call is entered
variable (V : (c : Dev nD) → (b : Ref sig .tc) → Buf (Elt Ideal) ((c : Thread nD τ).loc b))

/-- Both block offsets of a whole-array access are zero. -/
theorem region3_hz : (![0, 0] : Fin 2 → Nat) = fun _ => 0 := funext fun a => by fin_cases a <;> rfl

/-- The bias row broadcast over the rows, read at (p, q): the row's entry q. -/
theorem region3_bias_at (b : Vec Ideal S1x64 .f32) (p : Fin 16000) (q : Fin 64) :
    broadcastTo S16000x64 b broadcasts_S1x64_S16000x64 (ix2 p q) = b (row0 q) :=
  broadcastTo_apply b broadcasts_S1x64_S16000x64 (ix2 p q) (row0 q) (fun a => by
    match a with
    | ⟨0, _⟩ => rfl
    | ⟨1, _⟩ => rfl)

/-- The body's stored value at (p, q) of the tile: the three products of row p with column q, added left to right
    onto 0, plus the bias entry q, clipped below at 0. Each matrix product into the zero splat is the finite sum;
    0 + x = x removes the initial zero. -/
theorem region3_pay_at (x0 : Vec Ideal S16000x128 .f32) (x1 : Vec Ideal S128x64 .f32) (x2 : Vec Ideal S16000x128 .f32)
    (x3 : Vec Ideal S128x64 .f32) (x4 : Vec Ideal S16000x64 .f32) (x5 : Vec Ideal S64x64 .f32) (x6 : Vec Ideal S1x64 .f32)
    (p : Fin 16000) (q : Fin 64) :
    k3_pay1 (F := Ideal) x0 x1 x2 x3 x4 x5 x6 (ix2 p q)
      = max (((mm x0 x1 p q + mm x2 x3 p q) + mm x4 x5 p q) + x6 (row0 q)) 0 := by
  have e1 := Idealize.ShloMosaic.DotAt.matmul_plain (φ₁ := .f32) (φ₂ := .f32) dot_S16000x128_S128x64_S16000x64_1_0_0_1_n_n rfl rfl rfl rfl rfl rfl rfl rfl (some .fp32) x0 x1 p q
  have e2 := Idealize.ShloMosaic.DotAt.matmul_plain (φ₁ := .f32) (φ₂ := .f32) dot_S16000x128_S128x64_S16000x64_1_0_0_1_n_n rfl rfl rfl rfl rfl rfl rfl rfl (some .fp32) x2 x3 p q
  have e3 := Idealize.ShloMosaic.DotAt.matmul_plain (φ₁ := .f32) (φ₂ := .f32) dot_S16000x64_S64x64_S16000x64_1_0_0_1_n_n rfl rfl rfl rfl rfl rfl rfl rfl (some .fp32) x4 x5 p q
  have eb := region3_bias_at x6 p q
  unfold k3_pay1
  simp only [shapeCast_self]
  show max ((((Ideal.ofBits .f32 0x00000000#32
        + matmul dot_S16000x128_S128x64_S16000x64_1_0_0_1_n_n (some .fp32) x0 x1 (constant S16000x64 .f32 0x00000000#32) (ix2 p q))
        + matmul dot_S16000x128_S128x64_S16000x64_1_0_0_1_n_n (some .fp32) x2 x3 (constant S16000x64 .f32 0x00000000#32) (ix2 p q))
        + matmul dot_S16000x64_S64x64_S16000x64_1_0_0_1_n_n (some .fp32) x4 x5 (constant S16000x64 .f32 0x00000000#32) (ix2 p q))
        + broadcastTo S16000x64 x6 broadcasts_S1x64_S16000x64 (ix2 p q)) (Ideal.ofBits .f32 0x00000000#32) = _
  rw [e1, e2, e3, eb, Ideal.ofBits_zero_f32, zero_add]
  rfl

/-- The grid's index maps, decided over the 50 points: the row-tiled windows (the three big inputs and the output)
    sit at row tile t, column tile 0; the weight and bias windows sit at the origin. -/
theorem region3_idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-! Each input block read at a coordinate: a row-tiled block's entry (p, k) is the array's entry (16000 t + p, k);
    a whole-array window's block is the array. -/

theorem region3_blk0_at (c : Dev nD) (t : Fin cfg3.N) (p : Fin 16000) (k : Fin 128) (P : Fin 800000)
    (hP : P.val = t.val * 16000 + p.val) :
    (iblk3 V c 0 t : Vec Ideal S16000x128 .f32) (ix2 p k) = (V c main_v26 : Vec Ideal S800000x128 .f32) (ix2 P k) := by
  obtain ⟨e0, e1, -⟩ := region3_idx_facts t
  unfold iblk3
  rw [View.read_apply]
  show (V c main_v26 : Vec Ideal S800000x128 .f32) _ = _
  refine congrArg (V c main_v26 : Vec Ideal S800000x128 .f32) (funext fun a => Fin.ext ?_)
  match a with
  | ⟨0, _⟩ => show win3_0.index t (0 : Fin 2) * 16000 + 1 * p.val = P.val; rw [e0, hP]; omega
  | ⟨1, _⟩ => show win3_0.index t (1 : Fin 2) * 128 + 1 * k.val = k.val; rw [e1]; omega

theorem region3_blk1_at (c : Dev nD) (t : Fin cfg3.N) (k : Fin 128) (q : Fin 64) :
    (iblk3 V c 1 t : Vec Ideal S128x64 .f32) (ix2 k q) = (V c main_v29 : Vec Ideal S128x64 .f32) (ix2 k q) := by
  obtain ⟨-, -, e0, e1, -⟩ := region3_idx_facts t
  unfold iblk3
  rw [View.read_apply]
  show (V c main_v29 : Vec Ideal S128x64 .f32) _ = _
  refine congrArg (V c main_v29 : Vec Ideal S128x64 .f32) (funext fun a => Fin.ext ?_)
  match a with
  | ⟨0, _⟩ => show win3_1.index t (0 : Fin 2) * 128 + 1 * k.val = k.val; rw [e0]; omega
  | ⟨1, _⟩ => show win3_1.index t (1 : Fin 2) * 64 + 1 * q.val = q.val; rw [e1]; omega

theorem region3_blk2_at (c : Dev nD) (t : Fin cfg3.N) (p : Fin 16000) (k : Fin 128) (P : Fin 800000)
    (hP : P.val = t.val * 16000 + p.val) :
    (iblk3 V c 2 t : Vec Ideal S16000x128 .f32) (ix2 p k) = (V c main_v27 : Vec Ideal S800000x128 .f32) (ix2 P k) := by
  obtain ⟨-, -, -, -, e0, e1, -⟩ := region3_idx_facts t
  unfold iblk3
  rw [View.read_apply]
  show (V c main_v27 : Vec Ideal S800000x128 .f32) _ = _
  refine congrArg (V c main_v27 : Vec Ideal S800000x128 .f32) (funext fun a => Fin.ext ?_)
  match a with
  | ⟨0, _⟩ => show win3_2.index t (0 : Fin 2) * 16000 + 1 * p.val = P.val; rw [e0, hP]; omega
  | ⟨1, _⟩ => show win3_2.index t (1 : Fin 2) * 128 + 1 * k.val = k.val; rw [e1]; omega

theorem region3_blk3_at (c : Dev nD) (t : Fin cfg3.N) (k : Fin 128) (q : Fin 64) :
    (iblk3 V c 3 t : Vec Ideal S128x64 .f32) (ix2 k q) = (V c main_v31 : Vec Ideal S128x64 .f32) (ix2 k q) := by
  obtain ⟨-, -, -, -, -, -, e0, e1, -⟩ := region3_idx_facts t
  unfold iblk3
  rw [View.read_apply]
  show (V c main_v31 : Vec Ideal S128x64 .f32) _ = _
  refine congrArg (V c main_v31 : Vec Ideal S128x64 .f32) (funext fun a => Fin.ext ?_)
  match a with
  | ⟨0, _⟩ => show win3_3.index t (0 : Fin 2) * 128 + 1 * k.val = k.val; rw [e0]; omega
  | ⟨1, _⟩ => show win3_3.index t (1 : Fin 2) * 64 + 1 * q.val = q.val; rw [e1]; omega

theorem region3_blk4_at (c : Dev nD) (t : Fin cfg3.N) (p : Fin 16000) (k : Fin 64) (P : Fin 800000)
    (hP : P.val = t.val * 16000 + p.val) :
    (iblk3 V c 4 t : Vec Ideal S16000x64 .f32) (ix2 p k) = (V c main_arg1 : Vec Ideal S800000x64 .f32) (ix2 P k) := by
  obtain ⟨-, -, -, -, -, -, -, -, e0, e1, -⟩ := region3_idx_facts t
  unfold iblk3
  rw [View.read_apply]
  show (V c main_arg1 : Vec Ideal S800000x64 .f32) _ = _
  refine congrArg (V c main_arg1 : Vec Ideal S800000x64 .f32) (funext fun a => Fin.ext ?_)
  match a with
  | ⟨0, _⟩ => show win3_4.index t (0 : Fin 2) * 16000 + 1 * p.val = P.val; rw [e0, hP]; omega
  | ⟨1, _⟩ => show win3_4.index t (1 : Fin 2) * 64 + 1 * k.val = k.val; rw [e1]; omega

theorem region3_blk5_at (c : Dev nD) (t : Fin cfg3.N) (k : Fin 64) (q : Fin 64) :
    (iblk3 V c 5 t : Vec Ideal S64x64 .f32) (ix2 k q) = (V c main_v33 : Vec Ideal S64x64 .f32) (ix2 k q) := by
  obtain ⟨-, -, -, -, -, -, -, -, -, -, e0, e1, -⟩ := region3_idx_facts t
  unfold iblk3
  rw [View.read_apply]
  show (V c main_v33 : Vec Ideal S64x64 .f32) _ = _
  refine congrArg (V c main_v33 : Vec Ideal S64x64 .f32) (funext fun a => Fin.ext ?_)
  match a with
  | ⟨0, _⟩ => show win3_5.index t (0 : Fin 2) * 64 + 1 * k.val = k.val; rw [e0]; omega
  | ⟨1, _⟩ => show win3_5.index t (1 : Fin 2) * 64 + 1 * q.val = q.val; rw [e1]; omega

theorem region3_blk6_at (c : Dev nD) (t : Fin cfg3.N) (q : Fin 64) :
    (iblk3 V c 6 t : Vec Ideal S1x64 .f32) (row0 q) = (V c main_v36 : Vec Ideal S1x64 .f32) (row0 q) := by
  obtain ⟨-, -, -, -, -, -, -, -, -, -, -, -, e0, e1, -⟩ := region3_idx_facts t
  unfold iblk3
  rw [View.read_apply]
  show (V c main_v36 : Vec Ideal S1x64 .f32) _ = _
  refine congrArg (V c main_v36 : Vec Ideal S1x64 .f32) (funext fun a => Fin.ext ?_)
  match a with
  | ⟨0, _⟩ => show win3_6.index t (0 : Fin 2) * 1 + 1 * (0 : Fin 1).val = (0 : Fin 1).val; rw [e0]; omega
  | ⟨1, _⟩ => show win3_6.index t (1 : Fin 2) * 64 + 1 * q.val = q.val; rw [e1]; omega

/-- One entry of a tile's stored value against the layer on the whole arrays: if row p of each row-tiled block is
    row P of its array and the weight and bias blocks are their arrays (at the entries the sums read), the stored
    value at (p, q) is the layer's entry (P, q). The sums run over the same index in the same order on both sides. -/
theorem region3_tile_entry (b0 : Vec Ideal S16000x128 .f32) (b1 : Vec Ideal S128x64 .f32) (b2 : Vec Ideal S16000x128 .f32)
    (b3 : Vec Ideal S128x64 .f32) (b4 : Vec Ideal S16000x64 .f32) (b5 : Vec Ideal S64x64 .f32) (b6 : Vec Ideal S1x64 .f32)
    (a0 : Vec Ideal S800000x128 .f32) (a1 : Vec Ideal S128x64 .f32) (a2 : Vec Ideal S800000x128 .f32)
    (a3 : Vec Ideal S128x64 .f32) (a4 : Vec Ideal S800000x64 .f32) (a5 : Vec Ideal S64x64 .f32) (a6 : Vec Ideal S1x64 .f32)
    (p : Fin 16000) (q : Fin 64) (P : Fin 800000)
    (h0 : ∀ k : Fin 128, b0 (ix2 p k) = a0 (ix2 P k)) (h1 : ∀ k : Fin 128, b1 (ix2 k q) = a1 (ix2 k q))
    (h2 : ∀ k : Fin 128, b2 (ix2 p k) = a2 (ix2 P k)) (h3 : ∀ k : Fin 128, b3 (ix2 k q) = a3 (ix2 k q))
    (h4 : ∀ k : Fin 64, b4 (ix2 p k) = a4 (ix2 P k)) (h5 : ∀ k : Fin 64, b5 (ix2 k q) = a5 (ix2 k q))
    (h6 : b6 (row0 q) = a6 (row0 q)) :
    k3_pay1 (F := Ideal) b0 b1 b2 b3 b4 b5 b6 (ix2 p q) = relu3 a0 a1 a2 a3 a4 a5 a6 (ix2 P q) := by
  rw [region3_pay_at, relu3_apply]
  have m1 : mm b0 b1 p q = mm a0 a1 P q := Finset.sum_congr rfl fun k _ => by rw [h0 k, h1 k]
  have m2 : mm b2 b3 p q = mm a2 a3 P q := Finset.sum_congr rfl fun k _ => by rw [h2 k, h3 k]
  have m3 : mm b4 b5 p q = mm a4 a5 P q := Finset.sum_congr rfl fun k _ => by rw [h4 k, h5 k]
  rw [m1, m2, m3, h6]

/-- WHAT POINT t WRITES BACK is row tile t of the layer of the arrays as the call finds them. -/
theorem region3_flushed_eq (c : Dev nD) (t : Fin cfg3.N) :
    (dat3 (F := Ideal) V c).flushed 7 t = ((cfg3.win 7).blk t).view.read (Elt Ideal)
      (relu3 (V c main_v26) (V c main_v29) (V c main_v27) (V c main_v31) (V c main_arg1) (V c main_v33) (V c main_v36)) := by
  show (cfg3.win 7).cut (grid3.coords t) ((dat3 (F := Ideal) V c).after 7 t) = _
  rw [after3_7]
  unfold out3_7
  rw [View.canon_unit_zero region3_hz]
  simp only [View.ld_unit_zero (S := S16000x128) region3_hz, View.ld_unit_zero (S := S128x64) region3_hz,
    View.ld_unit_zero (S := S16000x64) region3_hz, View.ld_unit_zero (S := S64x64) region3_hz, View.ld_unit_zero (S := S1x64) region3_hz]
  obtain ⟨-, -, -, -, -, -, -, -, -, -, -, -, -, -, e0, e1⟩ := region3_idx_facts t
  funext j
  obtain ⟨p, q, rfl⟩ : ∃ (p : Fin 16000) (q : Fin 64), j = ix2 p q := ⟨j 0, j 1, eq_ix2 j⟩
  have hlt : t.val < 50 := by have := t.isLt; have hN : cfg3.N = 50 := N_3; omega
  let P : Fin 800000 := ⟨t.val * 16000 + p.val, by have := p.isLt; omega⟩
  have hemb : ((cfg3.win 7).blk t).view.emb (ix2 p q) = (ix2 P q : S800000x64.Idx) := by
    funext a; apply Fin.ext
    match a with
    | ⟨0, _⟩ => show win3_7.index t (0 : Fin 2) * 16000 + 1 * p.val = t.val * 16000 + p.val; rw [e0]; omega
    | ⟨1, _⟩ => show win3_7.index t (1 : Fin 2) * 64 + 1 * q.val = q.val; rw [e1]; omega
  rw [View.read_apply]
  show k3_pay1 (F := Ideal) (iblk3 V c 0 t) (iblk3 V c 1 t) (iblk3 V c 2 t) (iblk3 V c 3 t) (iblk3 V c 4 t) (iblk3 V c 5 t) (iblk3 V c 6 t) (ix2 p q)
    = relu3 (V c main_v26) (V c main_v29) (V c main_v27) (V c main_v31) (V c main_arg1) (V c main_v33) (V c main_v36) (((cfg3.win 7).blk t).view.emb (ix2 p q))
  rw [hemb]
  exact region3_tile_entry (iblk3 V c 0 t) (iblk3 V c 1 t) (iblk3 V c 2 t) (iblk3 V c 3 t) (iblk3 V c 4 t) (iblk3 V c 5 t) (iblk3 V c 6 t)
    (V c main_v26) (V c main_v29) (V c main_v27) (V c main_v31) (V c main_arg1) (V c main_v33) (V c main_v36) p q P
    (fun k => region3_blk0_at V c t p k P rfl) (fun k => region3_blk1_at V c t k q)
    (fun k => region3_blk2_at V c t p k P rfl) (fun k => region3_blk3_at V c t k q)
    (fun k => region3_blk4_at V c t p k P rfl) (fun k => region3_blk5_at V c t k q)
    (region3_blk6_at V c t q)

/-- An index of the output array is in point t's block iff each coordinate is in the block's range on its axis. -/
theorem region3_mem_blk (t : Fin cfg3.N) (i : S800000x64.Idx) :
    i ∈ ((cfg3.win 7).blk t).view.set ↔ ∀ a : Fin 2, win3_7.index t a * S16000x64.size a ≤ (i a).val ∧ (i a).val < win3_7.index t a * S16000x64.size a + S16000x64.size a := by
  show i ∈ ((View.whole main_v37).slice (win3_7.rect t)).set ↔ _
  rw [View.set_slice_whole, Rect.mem_set_unit]
  exact Iff.rfl

/-- The 50 row tiles cover the output array: row r lies in tile r / 16000. -/
theorem region3_cover (i : S800000x64.Idx) :
    ∃ t : Fin cfg3.N, (cfg3.win 7).flush t = true ∧ i ∈ ((cfg3.win 7).blk t).view.set := by
  have hi0 : (i 0).val < 800000 := (i 0).isLt
  have hi1 : (i 1).val < 64 := (i 1).isLt
  let t : Fin cfg3.N := ⟨(i 0).val / 16000, by rw [show cfg3.N = 50 from N_3]; omega⟩
  obtain ⟨-, -, -, -, -, -, -, -, -, -, -, -, -, -, e0, e1⟩ := region3_idx_facts t
  have ht : t.val = (i 0).val / 16000 := rfl
  refine ⟨t, flush3_7 t, ?_⟩
  rw [region3_mem_blk]
  intro a
  match a with
  | ⟨0, _⟩ => show win3_7.index t (0 : Fin 2) * 16000 ≤ (i 0).val ∧ (i 0).val < win3_7.index t (0 : Fin 2) * 16000 + 16000; rw [e0, ht]; omega
  | ⟨1, _⟩ => show win3_7.index t (1 : Fin 2) * 64 ≤ (i 1).val ∧ (i 1).val < win3_7.index t (1 : Fin 2) * 64 + 64; rw [e1]; omega

/-- The edge features after layer 0. -/
theorem region3_out (c : Dev nD) :
    (dat3 (F := Ideal) V c).arrAt 7 cfg3.N
      = relu3 (V c main_v26) (V c main_v29) (V c main_v27) (V c main_v31) (V c main_arg1) (V c main_v33) (V c main_v36) :=
  (dat3 (F := Ideal) V c).arrAt_eq_of_cover 7 _ (fun t _ => region3_flushed_eq V c t) region3_cover

end Cert.KernelIdeal.Bridge

end
-- ==== Proof.Chain3.lean ====
/-
  Through the two takes of the updated nodes and the first edge update: the call's output is the reference's edge features after layer 0.
-/
import proofs.«418406_j45518063403048_2_alg».proof.Proof.Names
import proofs.«418406_j45518063403048_2_alg».proof.Proof.Region3
import proofs.«418406_j45518063403048_2_alg».proof.Proof.RefStagesA
import proofs.«418406_j45518063403048_2_alg».proof.Proof.Rows
import proofs.«418406_j45518063403048_2_alg».proof.Proof.Take
import proofs.«418406_j45518063403048_2_alg».proof.Proof.IntFacts
import Idealize.ShloMosaic.Lib.StableHlo.Run
import Idealize.ShloMosaic.Lib.Pipeline.Value
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open Cert.ReferenceIdeal.Read

variable (m : (ℓ : Loc nD τ sig) → Buf (Elt Ideal) ℓ) (ρ : Dev nD → PrngReg) (c : Dev nD)

/-- A buffer that none of the operations between the first node update and the first edge update writes (the two
    takes and the weight slices) holds at the edge update's entry what it held at the node update's exit. -/
local macro "chain3_kept" b:ident : term => `(
  ((StableHlo.after_of_forall_not_mem (b := Proc.devRef .tc $b) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := Proc.devRef .tc $b) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (StableHlo.after_of_forall_not_mem (b := Proc.devRef .tc $b) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))

/-- Contents carried to a typed reference's buffer and back are unchanged. -/
private theorem ofBuf_toBuf {T : BufTy} (x : StableHlo.TRef sig T) (v : T.Contents (Elt Ideal)) : x.ofBuf (x.toBuf v) = v := by
  obtain ⟨r, h, d, u⟩ := x
  subst h
  rfl

/-- Reading or writing a buffer through a typed reference of the buffer's own type changes nothing. -/
private theorem ofBuf_v1 (h : main_v1.ty = ⟨S800000, .i32⟩) (d u) (v : main_v1.ty.Contents (Elt Ideal)) :
    (StableHlo.TRef.of main_v1 h d u).ofBuf v = v := rfl
private theorem ofBuf_v3 (h : main_v3.ty = ⟨S800000, .i32⟩) (d u) (v : main_v3.ty.Contents (Elt Ideal)) :
    (StableHlo.TRef.of main_v3 h d u).ofBuf v = v := rfl
private theorem ofBuf_v25 (h : main_v25.ty = ⟨S50000x128, .f32⟩) (d u) (v : main_v25.ty.Contents (Elt Ideal)) :
    (StableHlo.TRef.of main_v25 h d u).ofBuf v = v := rfl
private theorem toBuf_v26 (h : main_v26.ty = ⟨S800000x128, .f32⟩) (d u) (v : (⟨S800000x128, .f32⟩ : BufTy).Contents (Elt Ideal)) :
    (StableHlo.TRef.of main_v26 h d u).toBuf v = v := rfl
private theorem toBuf_v27 (h : main_v27.ty = ⟨S800000x128, .f32⟩) (d u) (v : (⟨S800000x128, .f32⟩ : BufTy).Contents (Elt Ideal)) :
    (StableHlo.TRef.of main_v27 h d u).toBuf v = v := rfl

/-- The first take's result at the edge update's entry: the take of the updated nodes at the source row, both as
    they stood after the node update. -/
theorem chain3_take_src : W10 m ρ c (Proc.devRef .tc main_v26)
    = takeVal (W7 m ρ c (Proc.devRef .tc main_v25)) (W7 m ρ c (Proc.devRef .tc main_v1)) := by
  show StableHlo.after hostOps3_2 (StableHlo.after hostOps3_1 (StableHlo.after hostOps3 (W7 m ρ c))) (Proc.devRef .tc main_v26) = _
  after_results_simp
  simp only [ofBuf_toBuf, ofBuf_v1, ofBuf_v25, toBuf_v26]

/-- The second take's result: the take of the updated nodes at the target row. -/
theorem chain3_take_dst : W10 m ρ c (Proc.devRef .tc main_v27)
    = takeVal (W7 m ρ c (Proc.devRef .tc main_v25)) (W7 m ρ c (Proc.devRef .tc main_v3)) := by
  show StableHlo.after hostOps3_2 (StableHlo.after hostOps3_1 (StableHlo.after hostOps3 (W7 m ρ c))) (Proc.devRef .tc main_v27) = _
  after_results_simp
  simp only [ofBuf_toBuf, ofBuf_v3, ofBuf_v25, toBuf_v27]

/-- The weight block of the source rows: rows 0 … 127 of layer 0's edge weights, the same slice and reshape of the
    argument on both sides. -/
theorem chain3_w1 (h : Inv7 m ρ c) : W10 m ρ c (Proc.devRef .tc main_v29) = R52 m c := by
  show StableHlo.after hostOps3_2 (StableHlo.after hostOps3_1 (StableHlo.after hostOps3 (W7 m ρ c))) (Proc.devRef .tc main_v29) = _
  after_results
  rw [h.args.a9]
  rfl

/-- The weight block of the target rows: rows 128 … 255 of layer 0's edge weights. -/
theorem chain3_w2 (h : Inv7 m ρ c) : W10 m ρ c (Proc.devRef .tc main_v31) = R62 m c := by
  show StableHlo.after hostOps3_2 (StableHlo.after hostOps3_1 (StableHlo.after hostOps3 (W7 m ρ c))) (Proc.devRef .tc main_v31) = _
  after_results
  rw [h.args.a9]
  rfl

/-- The weight block of the edge features: rows 256 … 319 of layer 0's edge weights. -/
theorem chain3_w3 (h : Inv7 m ρ c) : W10 m ρ c (Proc.devRef .tc main_v33) = R66 m c := by
  show StableHlo.after hostOps3_2 (StableHlo.after hostOps3_1 (StableHlo.after hostOps3 (W7 m ρ c))) (Proc.devRef .tc main_v33) = _
  after_results
  rw [h.args.a9]
  rfl

/-- The bias row: layer 0's edge bias kept as a 1 × 64 row, by a reshape here and by a broadcast in the reference. -/
theorem chain3_brow (h : Inv7 m ρ c) : W10 m ρ c (Proc.devRef .tc main_v36) = R71 m c := by
  show StableHlo.after hostOps3_2 (StableHlo.after hostOps3_1 (StableHlo.after hostOps3 (W7 m ρ c))) (Proc.devRef .tc main_v36) = _
  after_results
  rw [h.args.a10]
  exact row_reshape_eq_bcast _ _ _

/-- The updated nodes taken at the source row are the reference's gathered rows: the source row holds node numbers, so
    the take is the plain gather at the row's own column of start indices. -/
theorem chain3_src_rows (hok : IdxOK (A2 m c)) (h : Inv7 m ρ c) : W10 m ρ c (Proc.devRef .tc main_v26) = R50 m c := by
  rw [chain3_take_src, h.h1, h.src, take_in_range _ _ (src_range m c hok)]
  rfl

/-- The updated nodes taken at the target row are the reference's gathered rows. -/
theorem chain3_dst_rows (hok : IdxOK (A2 m c)) (h : Inv7 m ρ c) : W10 m ρ c (Proc.devRef .tc main_v27) = R60 m c := by
  rw [chain3_take_dst, h.h1, h.dst, take_in_range _ _ (dst_range m c hok)]
  rfl

/-- The call's output is the reference's edge features after layer 0: the layer of the call's seven arrays, each of
    which is the reference's stage. -/
theorem chain3_ea1 (hok : IdxOK (A2 m c)) (h : Inv7 m ρ c) : W11 m ρ c (Proc.devRef .tc main_v37) = R74 m c := by
  refine (W11_arr m ρ c 7).trans ?_
  refine (region3_out (V10 m ρ) c).trans ?_
  rw [show V10 m ρ c main_v26 = R50 m c from chain3_src_rows m ρ c hok h,
    show V10 m ρ c main_v29 = R52 m c from chain3_w1 m ρ c h,
    show V10 m ρ c main_v27 = R60 m c from chain3_dst_rows m ρ c hok h,
    show V10 m ρ c main_v31 = R62 m c from chain3_w2 m ρ c h,
    show V10 m ρ c main_arg1 = A1 m c from (chain3_kept main_arg1).trans h.args.a1,
    show V10 m ρ c main_v33 = R66 m c from chain3_w3 m ρ c h,
    show V10 m ρ c main_v36 = R71 m c from chain3_brow m ρ c h]
  exact (Cert.ReferenceIdeal.Bridge.ref_e1 (A0 m c) (A1 m c) (A2 m c) (A3 m c) (A4 m c) (A5 m c) (A6 m c) (A7 m c) (A8 m c) (A9 m c) (A10 m c)).symm

/-- The state after the first edge update. -/
theorem chain3 (hok : IdxOK (A2 m c)) (h : Inv7 m ρ c) : Inv11 m ρ c := by
  exact {
    args := {
      a0 := (W11_of_ne m ρ c main_arg0 (by decide)).trans ((chain3_kept main_arg0).trans h.args.a0)
      a1 := ((W11_arr m ρ c 4).trans (((dat3 (V10 m ρ) c).arrAt_in 4 rfl _).trans (A_eq3 (V10 m ρ) c 4))).trans ((chain3_kept main_arg1).trans h.args.a1)
      a2 := (W11_of_ne m ρ c main_arg2 (by decide)).trans ((chain3_kept main_arg2).trans h.args.a2)
      a3 := (W11_of_ne m ρ c main_arg3 (by decide)).trans ((chain3_kept main_arg3).trans h.args.a3)
      a4 := (W11_of_ne m ρ c main_arg4 (by decide)).trans ((chain3_kept main_arg4).trans h.args.a4)
      a5 := (W11_of_ne m ρ c main_arg5 (by decide)).trans ((chain3_kept main_arg5).trans h.args.a5)
      a6 := (W11_of_ne m ρ c main_arg6 (by decide)).trans ((chain3_kept main_arg6).trans h.args.a6)
      a7 := (W11_of_ne m ρ c main_arg7 (by decide)).trans ((chain3_kept main_arg7).trans h.args.a7)
      a8 := (W11_of_ne m ρ c main_arg8 (by decide)).trans ((chain3_kept main_arg8).trans h.args.a8)
      a9 := (W11_of_ne m ρ c main_arg9 (by decide)).trans ((chain3_kept main_arg9).trans h.args.a9)
      a10 := (W11_of_ne m ρ c main_arg10 (by decide)).trans ((chain3_kept main_arg10).trans h.args.a10)
      a11 := (W11_of_ne m ρ c main_arg11 (by decide)).trans ((chain3_kept main_arg11).trans h.args.a11)
      a12 := (W11_of_ne m ρ c main_arg12 (by decide)).trans ((chain3_kept main_arg12).trans h.args.a12)
      a13 := (W11_of_ne m ρ c main_arg13 (by decide)).trans ((chain3_kept main_arg13).trans h.args.a13)
      a14 := (W11_of_ne m ρ c main_arg14 (by decide)).trans ((chain3_kept main_arg14).trans h.args.a14) }
    src := (W11_of_ne m ρ c main_v1 (by decide)).trans ((chain3_kept main_v1).trans h.src)
    dst := (W11_of_ne m ρ c main_v3 (by decide)).trans ((chain3_kept main_v3).trans h.dst)
    h1 := (W11_of_ne m ρ c main_v25 (by decide)).trans ((chain3_kept main_v25).trans h.h1)
    ea1 := chain3_ea1 m ρ c hok h }

end Cert.KernelIdeal.Bridge

end
-- ==== Proof.Region4.lean ====
/-
  The second message call (pallas_call 4, grid of 50 row tiles of 16000 edges): after it the output array holds max ((h_src·W₁ + e·W₂) + b) 0, as one function of the arrays the call finds.

  The body at a point reads a 16000 × 128 tile of gathered node features, the matching 16000 × 64 tile of edge features and the
  whole of the two weight matrices and the bias row, and stores max (((0 + x₁·W₁) + x₂·W₂) + b) 0. Entry (p, q) of that tile is
  therefore the layer function's entry (16000·t + p, q) of the arrays: the two row tiles move with the output's tile, the weights
  and the bias stay. The 50 tiles cover the 800000 rows (row r lies in tile r / 16000), so the array ends at the layer function.
-/
import proofs.«418406_j45518063403048_2_alg».proof.Proof.Gen.KernelIdeal.Frame
import proofs.«418406_j45518063403048_2_alg».proof.Proof.Spec
import proofs.«418406_j45518063403048_2_alg».proof.Proof.LibDotAt
import Idealize.ShloMosaic.Lib.Pipeline.Value
import Idealize.ShloMosaic.Lib.ValueLayout
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge

-- the TensorCore's buffer contents when the call is entered
variable (V : (c : Dev nD) → (b : Ref sig .tc) → Buf (Elt Ideal) ((c : Thread nD τ).loc b))

/-- The zero offsets of a whole-buffer access, as a constant function. -/
theorem zero_off4 : (![0, 0] : Fin 2 → Nat) = fun _ => 0 := funext fun a => by fin_cases a <;> rfl

/-- The zero word is the zero of the extended reals. -/
theorem zero_word4 : (FloatOps.ofBits FTy.f32 0x00000000#32 : Ideal .f32) = 0 := Ideal.ofBits_zero_f32

/-- The body's stored value at (p, q), over any blocks: the two products added onto zero, the bias row, clipped at zero. -/
theorem pay4_at (x0 : Vec Ideal S16000x128 .f32) (x1 : Vec Ideal S128x128 .f32) (x2 : Vec Ideal S16000x64 .f32)
    (x3 : Vec Ideal S64x128 .f32) (x4 : Vec Ideal S1x128 .f32) (p : Fin 16000) (q : Fin 128) :
    k4_pay1 (F := Ideal) x0 x1 x2 x3 x4 (ix2 p q) = max ((mm x0 x1 p q + mm x2 x3 p q) + x4 (row0 q)) 0 := by
  unfold k4_pay1
  simp only [shapeCast_self]
  rw [maximumf_apply, addf_apply, addf_apply, addf_apply]
  rw [DotAt.matmul_plain dot_S16000x128_S128x128_S16000x128_1_0_0_1_n_n rfl rfl rfl rfl rfl rfl rfl rfl,
    DotAt.matmul_plain dot_S16000x64_S64x128_S16000x128_1_0_0_1_n_n rfl rfl rfl rfl rfl rfl rfl rfl,
    broadcastTo_1b_ab_apply]
  show max (((FloatOps.ofBits FTy.f32 0x00000000#32 : Ideal .f32) + mm x0 x1 p q + mm x2 x3 p q) + x4 (row0 q))
      (FloatOps.ofBits FTy.f32 0x00000000#32 : Ideal .f32) = _
  rw [zero_word4, zero_add]

/-- The printed index maps over the grid: the two row tiles and the output's tile are at block row t, every other block index is 0. -/
theorem idx4 : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The grid has fifty points. -/
theorem point_lt4 (t : Fin cfg4.N) : t.val < 50 := lt_of_lt_of_eq t.isLt N_4

/-- Entry (p, k) of the node-feature tile at point t is entry (16000·t + p, k) of the gathered node features. -/
theorem blk4_0_at (c : Dev nD) (t : Fin cfg4.N) (p : Fin 16000) (k : Fin 128) (r : Fin 800000)
    (hr : r.val = t.val * 16000 + p.val) :
    (iblk4 V c 0 t : Vec Ideal S16000x128 .f32) (ix2 p k)
      = (V c main_v38 : FVec Ideal ⟨2, ![800000, 128]⟩ .f32) (ix2 r k) := by
  obtain ⟨e0, e1, -⟩ := idx4 t
  unfold iblk4
  rw [View.read_apply]
  show V c main_v38 _ = V c main_v38 _
  congr 1
  funext a
  apply Fin.ext
  match a with
  | ⟨0, _⟩ => show win4_0.index t (0 : Fin 2) * 16000 + 1 * p.val = r.val; rw [e0, hr]; omega
  | ⟨1, _⟩ => show win4_0.index t (1 : Fin 2) * 128 + 1 * k.val = k.val; rw [e1]; omega

/-- The first weight matrix's window is the whole matrix at every point. -/
theorem blk4_1_at (c : Dev nD) (t : Fin cfg4.N) (k : Fin 128) (q : Fin 128) :
    (iblk4 V c 1 t : Vec Ideal S128x128 .f32) (ix2 k q)
      = (V c main_v40 : FVec Ideal ⟨2, ![128, 128]⟩ .f32) (ix2 k q) := by
  obtain ⟨-, -, e0, e1, -⟩ := idx4 t
  unfold iblk4
  rw [View.read_apply]
  show V c main_v40 _ = V c main_v40 _
  congr 1
  funext a
  apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

/-- Entry (p, k) of the edge-feature tile at point t is entry (16000·t + p, k) of the edge features. -/
theorem blk4_2_at (c : Dev nD) (t : Fin cfg4.N) (p : Fin 16000) (k : Fin 64) (r : Fin 800000)
    (hr : r.val = t.val * 16000 + p.val) :
    (iblk4 V c 2 t : Vec Ideal S16000x64 .f32) (ix2 p k)
      = (V c main_v37 : FVec Ideal ⟨2, ![800000, 64]⟩ .f32) (ix2 r k) := by
  obtain ⟨-, -, -, -, e0, e1, -⟩ := idx4 t
  unfold iblk4
  rw [View.read_apply]
  show V c main_v37 _ = V c main_v37 _
  congr 1
  funext a
  apply Fin.ext
  match a with
  | ⟨0, _⟩ => show win4_2.index t (0 : Fin 2) * 16000 + 1 * p.val = r.val; rw [e0, hr]; omega
  | ⟨1, _⟩ => show win4_2.index t (1 : Fin 2) * 64 + 1 * k.val = k.val; rw [e1]; omega

/-- The second weight matrix's window is the whole matrix at every point. -/
theorem blk4_3_at (c : Dev nD) (t : Fin cfg4.N) (k : Fin 64) (q : Fin 128) :
    (iblk4 V c 3 t : Vec Ideal S64x128 .f32) (ix2 k q)
      = (V c main_v42 : FVec Ideal ⟨2, ![64, 128]⟩ .f32) (ix2 k q) := by
  obtain ⟨-, -, -, -, -, -, e0, e1, -⟩ := idx4 t
  unfold iblk4
  rw [View.read_apply]
  show V c main_v42 _ = V c main_v42 _
  congr 1
  funext a
  apply Fin.ext
  match a with
  | ⟨0, _⟩ => show win4_3.index t (0 : Fin 2) * 64 + 1 * k.val = k.val; rw [e0]; omega
  | ⟨1, _⟩ => show win4_3.index t (1 : Fin 2) * 128 + 1 * q.val = q.val; rw [e1]; omega

/-- The bias row's window is the whole row at every point. -/
theorem blk4_4_at (c : Dev nD) (t : Fin cfg4.N) (q : Fin 128) :
    (iblk4 V c 4 t : Vec Ideal S1x128 .f32) (row0 q)
      = (V c main_v45 : FVec Ideal ⟨2, ![1, 128]⟩ .f32) (row0 q) := by
  obtain ⟨-, -, -, -, -, -, -, -, e0, e1, -⟩ := idx4 t
  unfold iblk4
  rw [View.read_apply]
  show V c main_v45 _ = V c main_v45 _
  congr 1
  funext a
  apply Fin.ext
  match a with
  | ⟨0, _⟩ => show win4_4.index t (0 : Fin 2) * 1 + 1 * 0 = 0; rw [e0]
  | ⟨1, _⟩ => show win4_4.index t (1 : Fin 2) * 128 + 1 * q.val = q.val; rw [e1]; omega

/-- Two products agree when their rows and columns agree entry by entry. -/
private theorem mm_congr {M M' K N : Nat} (x : FVec Ideal ⟨2, ![M, K]⟩ .f32) (x' : FVec Ideal ⟨2, ![M', K]⟩ .f32)
    (w w' : FVec Ideal ⟨2, ![K, N]⟩ .f32) (p : Fin M) (p' : Fin M') (q : Fin N)
    (hx : ∀ k : Fin K, x (ix2 p k) = x' (ix2 p' k)) (hw : ∀ k : Fin K, w (ix2 k q) = w' (ix2 k q)) :
    mm x w p q = mm x' w' p' q :=
  Finset.sum_congr rfl fun k _ => by rw [hx k, hw k]

/-- What point t writes back is tile t of the layer function of the arrays the call finds. -/
theorem flushed4_eq (c : Dev nD) (t : Fin cfg4.N) :
    (dat4 (F := Ideal) V c).flushed 5 t
      = ((cfg4.win 5).blk t).view.read (Elt Ideal)
          (relu2 (V c main_v38) (V c main_v40) (V c main_v37) (V c main_v42) (V c main_v45)) := by
  show (cfg4.win 5).cut (grid4.coords t) ((dat4 V c).after 5 t) = _
  rw [after4_5]
  unfold out4_5
  rw [View.canon_unit_zero zero_off4]
  simp only [View.ld_unit_zero (S := S16000x128) zero_off4, View.ld_unit_zero (S := S128x128) zero_off4,
    View.ld_unit_zero (S := S16000x64) zero_off4, View.ld_unit_zero (S := S64x128) zero_off4,
    View.ld_unit_zero (S := S1x128) zero_off4]
  funext j
  obtain ⟨p, q, rfl⟩ : ∃ (p : Fin 16000) (q : Fin 128), j = ix2 p q := ⟨j 0, j 1, eq_ix2 j⟩
  have ht := point_lt4 t
  have hp := p.isLt
  obtain ⟨-, -, -, -, -, -, -, -, -, -, e0, e1⟩ := idx4 t
  -- the row of the array under row p of tile t
  let r : Fin 800000 := ⟨t.val * 16000 + p.val, by omega⟩
  have hemb : ((cfg4.win 5).blk t).view.emb (ix2 p q) = (ix2 r q : S800000x128.Idx) := by
    funext a
    apply Fin.ext
    match a with
    | ⟨0, _⟩ => show win4_5.index t (0 : Fin 2) * 16000 + 1 * p.val = t.val * 16000 + p.val; rw [e0]; omega
    | ⟨1, _⟩ => show win4_5.index t (1 : Fin 2) * 128 + 1 * q.val = q.val; rw [e1]; omega
  show k4_pay1 (F := Ideal) (iblk4 V c 0 t) (iblk4 V c 1 t) (iblk4 V c 2 t) (iblk4 V c 3 t) (iblk4 V c 4 t) (ix2 p q)
      = relu2 (V c main_v38) (V c main_v40) (V c main_v37) (V c main_v42) (V c main_v45)
          (((cfg4.win 5).blk t).view.emb (ix2 p q))
  rw [hemb, relu2_apply]
  refine (pay4_at (iblk4 V c 0 t) (iblk4 V c 1 t) (iblk4 V c 2 t) (iblk4 V c 3 t) (iblk4 V c 4 t) p q).trans ?_
  refine congrArg₂ max (congrArg₂ (· + ·) (congrArg₂ (· + ·) ?_ ?_) ?_) rfl
  · exact mm_congr _ _ _ _ p r q (fun k => blk4_0_at V c t p k r rfl) (fun k => blk4_1_at V c t k q)
  · exact mm_congr _ _ _ _ p r q (fun k => blk4_2_at V c t p k r rfl) (fun k => blk4_3_at V c t k q)
  · exact blk4_4_at V c t q

/-- An index of the array is under tile t iff each coordinate is in the tile's range on its axis. -/
theorem mem_blk4 (t : Fin cfg4.N) (i : S800000x128.Idx) :
    i ∈ ((cfg4.win 5).blk t).view.set
      ↔ ∀ a : Fin 2, win4_5.index t a * S16000x128.size a ≤ (i a).val
          ∧ (i a).val < win4_5.index t a * S16000x128.size a + S16000x128.size a := by
  show i ∈ ((View.whole main_v46).slice (win4_5.rect t)).set ↔ _
  rw [View.set_slice_whole, Rect.mem_set_unit]
  exact Iff.rfl

/-- Every block row of the output is some point's. -/
theorem idx_onto4 : ∀ b : Fin 50, ∃ t : Fin cfg4.N, t.val = b.val :=
  (by decide +kernel : ∀ b : Fin 50, ∃ t : Fin grid4.N, t.val = b.val)

/-- The fifty tiles cover the array: row r is under tile r / 16000. -/
theorem cover4 (i : S800000x128.Idx) :
    ∃ t : Fin cfg4.N, (cfg4.win 5).flush t = true ∧ i ∈ ((cfg4.win 5).blk t).view.set := by
  have hi0 : (i 0).val < 800000 := (i 0).isLt
  have hi1 : (i 1).val < 128 := (i 1).isLt
  obtain ⟨t, ht⟩ := idx_onto4 ⟨(i 0).val / 16000, by omega⟩
  have ht' : t.val = (i 0).val / 16000 := ht
  obtain ⟨-, -, -, -, -, -, -, -, -, -, e0, e1⟩ := idx4 t
  refine ⟨t, flush4_5 t, ?_⟩
  rw [mem_blk4]
  intro a
  match a with
  | ⟨0, _⟩ =>
    show win4_5.index t (0 : Fin 2) * 16000 ≤ (i 0).val ∧ (i 0).val < win4_5.index t (0 : Fin 2) * 16000 + 16000
    rw [e0, ht']; omega
  | ⟨1, _⟩ =>
    show win4_5.index t (1 : Fin 2) * 128 ≤ (i 1).val ∧ (i 1).val < win4_5.index t (1 : Fin 2) * 128 + 128
    rw [e1]; omega

/-- The messages of layer 1. -/
theorem region4_out (c : Dev nD) :
    (dat4 (F := Ideal) V c).arrAt 5 cfg4.N
      = relu2 (V c main_v38) (V c main_v40) (V c main_v37) (V c main_v42) (V c main_v45) :=
  (dat4 (F := Ideal) V c).arrAt_eq_of_cover 5 _ (fun t _ => flushed4_eq V c t) cover4

end Cert.KernelIdeal.Bridge

end
-- ==== Proof.Chain4.lean ====
/-
  Through the take of layer 1 and the second message call: the call's output is the reference's messages of layer 1.
-/
import proofs.«418406_j45518063403048_2_alg».proof.Proof.Names
import proofs.«418406_j45518063403048_2_alg».proof.Proof.Region4
import proofs.«418406_j45518063403048_2_alg».proof.Proof.RefStagesA
import proofs.«418406_j45518063403048_2_alg».proof.Proof.Rows
import proofs.«418406_j45518063403048_2_alg».proof.Proof.Take
import proofs.«418406_j45518063403048_2_alg».proof.Proof.IntFacts
import Idealize.ShloMosaic.Lib.StableHlo.Run
import Idealize.ShloMosaic.Lib.Pipeline.Value
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open Cert.ReferenceIdeal.Read

variable (m : (ℓ : Loc nD τ sig) → Buf (Elt Ideal) ℓ) (ρ : Dev nD → PrngReg) (c : Dev nD)

/-- A buffer that none of a stretch's operations writes holds after the stretch what it held before: the stretch's
    operations are listed, each one's result buffer named, and the buffer is none of them. -/
local macro "not_written " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the two host stretches before the call write, over any contents they start from -/

/-- Contents carried to a typed reference's buffer and back are unchanged. -/
private theorem ofBuf_toBuf {T : BufTy} (x : StableHlo.TRef sig T) (v : T.Contents (Elt Ideal)) :
    x.ofBuf (x.toBuf v) = v := by
  obtain ⟨r, h, d, u⟩ := x
  subst h
  rfl

/-- The source row read through its typed reference is the buffer's contents. -/
private theorem ofBuf_src (h : main_v1.ty = ⟨S800000, .i32⟩) (d u) (v : main_v1.ty.Contents (Elt Ideal)) :
    (StableHlo.TRef.of main_v1 h d u).ofBuf v = v := rfl

/-- The node features read through their typed reference are the buffer's contents. -/
private theorem ofBuf_nodes (h : main_v25.ty = ⟨S50000x128, .f32⟩) (d u) (v : main_v25.ty.Contents (Elt Ideal)) :
    (StableHlo.TRef.of main_v25 h d u).ofBuf v = v := rfl

/-- The taken rows written through their typed reference are the buffer's contents. -/
private theorem toBuf_taken (h : main_v38.ty = ⟨S800000x128, .f32⟩) (d u)
    (v : (⟨S800000x128, .f32⟩ : BufTy).Contents (Elt Ideal)) :
    (StableHlo.TRef.of main_v38 h d u).toBuf v = v := rfl

/-- The take of layer 1 leaves jnp.take's value of the node features at the source row. -/
theorem take4_after (W : Valuation τ sig (Elt Ideal)) :
    StableHlo.after hostOps4 W (Proc.devRef .tc main_v38)
      = takeVal (W (Proc.devRef .tc main_v25)) (W (Proc.devRef .tc main_v1)) := by
  after_results_simp
  simp only [ofBuf_toBuf, ofBuf_src, ofBuf_nodes, toBuf_taken]

/-- The first weight matrix of layer 1: rows 0 … 127 of the second slab of the message weights. -/
theorem w1_after4 (W : Valuation τ sig (Elt Ideal)) :
    StableHlo.after hostOps4_1 W (Proc.devRef .tc main_v40)
      = val_main_v83 (F := Ideal) (W (Proc.devRef .tc main_arg5)) := by
  after_results
  rfl

/-- The second weight matrix of layer 1: rows 128 … 191 of the same slab. -/
theorem w2_after4 (W : Valuation τ sig (Elt Ideal)) :
    StableHlo.after hostOps4_1 W (Proc.devRef .tc main_v42)
      = val_main_v86 (F := Ideal) (W (Proc.devRef .tc main_arg5)) := by
  after_results
  rfl

/-- The bias of layer 1, kept as a 1 × 128 row by a reshape of the vector. -/
theorem bias_after4 (W : Valuation τ sig (Elt Ideal)) :
    StableHlo.after hostOps4_1 W (Proc.devRef .tc main_v45)
      = val_main_v91 (F := Ideal) (W (Proc.devRef .tc main_arg6)) := by
  after_results
  exact row_reshape_eq_bcast _ _ _

/-! ## Across the two stretches and the call -/

/-- A buffer that neither stretch writes and that is no array of the call holds at the call's exit what it held at the
    first edge update's exit. -/
theorem cross4 (b : Ref sig .tc) (hr : ∀ w, Pipeline.arrRef spec4 w ≠ b)
    (h1 : W13 m ρ c (Proc.devRef .tc b) = W12 m ρ c (Proc.devRef .tc b))
    (h0 : W12 m ρ c (Proc.devRef .tc b) = W11 m ρ c (Proc.devRef .tc b)) :
    W14 m ρ c (Proc.devRef .tc b) = W11 m ρ c (Proc.devRef .tc b) :=
  (W14_of_ne m ρ c b hr).trans (h1.trans h0)

/-- The arguments cross: no host operation writes an argument, and the call has none among its arrays. -/
theorem args14 (h : ArgsAt m c (W11 m ρ c)) : ArgsAt m c (W14 m ρ c) where
  a0 := (cross4 m ρ c main_arg0 (by decide) (by not_written hostOps4_1) (by not_written hostOps4)).trans h.a0
  a1 := (cross4 m ρ c main_arg1 (by decide) (by not_written hostOps4_1) (by not_written hostOps4)).trans h.a1
  a2 := (cross4 m ρ c main_arg2 (by decide) (by not_written hostOps4_1) (by not_written hostOps4)).trans h.a2
  a3 := (cross4 m ρ c main_arg3 (by decide) (by not_written hostOps4_1) (by not_written hostOps4)).trans h.a3
  a4 := (cross4 m ρ c main_arg4 (by decide) (by not_written hostOps4_1) (by not_written hostOps4)).trans h.a4
  a5 := (cross4 m ρ c main_arg5 (by decide) (by not_written hostOps4_1) (by not_written hostOps4)).trans h.a5
  a6 := (cross4 m ρ c main_arg6 (by decide) (by not_written hostOps4_1) (by not_written hostOps4)).trans h.a6
  a7 := (cross4 m ρ c main_arg7 (by decide) (by not_written hostOps4_1) (by not_written hostOps4)).trans h.a7
  a8 := (cross4 m ρ c main_arg8 (by decide) (by not_written hostOps4_1) (by not_written hostOps4)).trans h.a8
  a9 := (cross4 m ρ c main_arg9 (by decide) (by not_written hostOps4_1) (by not_written hostOps4)).trans h.a9
  a10 := (cross4 m ρ c main_arg10 (by decide) (by not_written hostOps4_1) (by not_written hostOps4)).trans h.a10
  a11 := (cross4 m ρ c main_arg11 (by decide) (by not_written hostOps4_1) (by not_written hostOps4)).trans h.a11
  a12 := (cross4 m ρ c main_arg12 (by decide) (by not_written hostOps4_1) (by not_written hostOps4)).trans h.a12
  a13 := (cross4 m ρ c main_arg13 (by decide) (by not_written hostOps4_1) (by not_written hostOps4)).trans h.a13
  a14 := (cross4 m ρ c main_arg14 (by decide) (by not_written hostOps4_1) (by not_written hostOps4)).trans h.a14

/-- The gather of the reference's layer 1 reads the node features at the column of start indices jnp.take makes of the
    source row: the same wrap of the same row. -/
theorem ref_gather4 :
    R81 m c = Host.gather gather_S50000x128_S800000x1_S800000x128_1_0_n_n_0_1_1128 (R43 m c) (takeCol (R1 m c)) := rfl

/-- The state after the second message call. -/
theorem chain4 (hok : IdxOK (A2 m c)) (h : Inv11 m ρ c) : Inv14 m ρ c := by
  -- the two weight arguments at the entry of the slicing stretch
  have a5 : W12 m ρ c (Proc.devRef .tc main_arg5) = A5 m c :=
    (show _ = W11 m ρ c (Proc.devRef .tc main_arg5) by not_written hostOps4).trans h.args.a5
  have a6 : W12 m ρ c (Proc.devRef .tc main_arg6) = A6 m c :=
    (show _ = W11 m ρ c (Proc.devRef .tc main_arg6) by not_written hostOps4).trans h.args.a6
  -- the call's five input arrays as it finds them
  have e38 : V13 m ρ c main_v38 = R81 m c := by
    have k1 : W13 m ρ c (Proc.devRef .tc main_v38) = W12 m ρ c (Proc.devRef .tc main_v38) := by
      not_written hostOps4_1
    refine k1.trans ((take4_after (W11 m ρ c)).trans ?_)
    rw [h.h1, h.src, take_in_range _ _ (src_range m c hok)]
    exact (ref_gather4 m c).symm
  have e40 : V13 m ρ c main_v40 = R83 m c :=
    (w1_after4 (W12 m ρ c)).trans (congrArg (val_main_v83 (F := Ideal)) a5)
  have e37 : V13 m ρ c main_v37 = R74 m c :=
    (show W13 m ρ c (Proc.devRef .tc main_v37) = W12 m ρ c (Proc.devRef .tc main_v37) by not_written hostOps4_1).trans
      ((show _ = W11 m ρ c (Proc.devRef .tc main_v37) by not_written hostOps4).trans h.ea1)
  have e42 : V13 m ρ c main_v42 = R86 m c :=
    (w2_after4 (W12 m ρ c)).trans (congrArg (val_main_v86 (F := Ideal)) a5)
  have e45 : V13 m ρ c main_v45 = R91 m c :=
    (bias_after4 (W12 m ρ c)).trans (congrArg (val_main_v91 (F := Ideal)) a6)
  exact
    { args := args14 m ρ c h.args
      src := (cross4 m ρ c main_v1 (by decide) (by not_written hostOps4_1) (by not_written hostOps4)).trans h.src
      dst := (cross4 m ρ c main_v3 (by decide) (by not_written hostOps4_1) (by not_written hostOps4)).trans h.dst
      h1 := (cross4 m ρ c main_v25 (by decide) (by not_written hostOps4_1) (by not_written hostOps4)).trans h.h1
      -- the edge features are an input of the call: its array is as entered
      ea1 := ((W14_arr m ρ c 2).trans (((dat4 (V13 m ρ) c).arrAt_in 2 rfl _).trans (A_eq4 (V13 m ρ) c 2))).trans e37
      -- the output: the layer function of the five inputs, which is the reference's layer 1 message stage
      m2 := by
        refine (W14_arr m ρ c 5).trans ((region4_out (V13 m ρ) c).trans ?_)
        rw [e38, e40, e37, e42, e45]
        exact (Cert.ReferenceIdeal.Bridge.ref_m2 (A0 m c) (A1 m c) (A2 m c) (A3 m c) (A4 m c) (A5 m c) (A6 m c)
          (A7 m c) (A8 m c) (A9 m c) (A10 m c)).symm }

end Cert.KernelIdeal.Bridge

end
-- ==== Proof.Region5.lean ====
/-
  The second node update fused with the node head (call 5 of the program, over a grid of 5 row tiles of 10000 nodes): after it the first output holds h' = max ((aggr·W₁ + h·W₂) + b) 0 and the second h'·Wp + bp, each as one function of the arrays the call finds.
-/
import proofs.«418406_j45518063403048_2_alg».proof.Proof.Gen.KernelIdeal.Frame
import proofs.«418406_j45518063403048_2_alg».proof.Proof.Spec
import proofs.«418406_j45518063403048_2_alg».proof.Proof.LibDotAt
import Idealize.ShloMosaic.Lib.Pipeline.Value
import Idealize.ShloMosaic.Lib.ValueLayout
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge

/-! ## The body's two payloads at an index -/

/-- The stored block of updated nodes at row p, column q: the two products of the loaded blocks with the loaded
    weights, added left to right, plus the bias row's entry, clipped below at zero. The accumulators are the zero
    splat, so each product is the bare sum over the contraction index. -/
theorem reg5_pay1_at (x0 : Vec Ideal S10000x128 .f32) (w0 : Vec Ideal S128x128 .f32) (x1 : Vec Ideal S10000x128 .f32)
    (w1 : Vec Ideal S128x128 .f32) (b : Vec Ideal S1x128 .f32) (p : Fin 10000) (q : Fin 128) :
    k5_pay1 (F := Ideal) x0 w0 x1 w1 b (ix2 p q) = max ((mm x0 w0 p q + mm x1 w1 p q) + b (row0 q)) 0 := by
  unfold k5_pay1
  simp only [shapeCast_self]
  rw [maximumf_apply, addf_apply, addf_apply, broadcast_apply, broadcastTo_1b_ab_apply,
    DotAt.matmul_plain dot_S10000x128_S128x128_S10000x128_1_0_0_1_n_n rfl rfl rfl rfl rfl rfl rfl rfl,
    DotAt.matmul_plain dot_S10000x128_S128x128_S10000x128_1_0_0_1_n_n rfl rfl rfl rfl rfl rfl rfl rfl]
  show max ((mm x0 w0 p q + mm x1 w1 p q) + b (row0 q)) (Ideal.ofBits .f32 0x00000000#32) = _
  rw [Ideal.ofBits_zero_f32]

/-- The stored block of predictions at row p, column r: the product of the block of updated nodes with the head's
    weights plus the head's bias row. -/
theorem reg5_pay2_at (x0 : Vec Ideal S10000x128 .f32) (w0 : Vec Ideal S128x128 .f32) (x1 : Vec Ideal S10000x128 .f32)
    (w1 : Vec Ideal S128x128 .f32) (b : Vec Ideal S1x128 .f32) (wp : Vec Ideal S128x32 .f32) (bp : Vec Ideal S1x32 .f32)
    (p : Fin 10000) (r : Fin 32) :
    k5_pay2 (F := Ideal) x0 w0 x1 w1 b wp bp (ix2 p r)
      = mm (k5_pay1 (F := Ideal) x0 w0 x1 w1 b) wp p r + bp (row0 r) := by
  unfold k5_pay2
  simp only [shapeCast_self]
  rw [addf_apply, broadcastTo_1b_ab_apply,
    DotAt.matmul_plain dot_S10000x128_S128x32_S10000x32_1_0_0_1_n_n rfl rfl rfl rfl rfl rfl rfl rfl]
  rfl

/-! ## Where each window's block sits -/

/-- The printed index maps over the grid: the two node windows and the two outputs move down the rows with the
    point, tile by tile; the weights' and biases' windows stay at block (0, 0). -/
theorem reg5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0 :=
  (by decide +kernel : ∀ t : Fin grid5.N, _)

theorem reg5_hz : (![0, 0] : Fin 2 → Nat) = fun _ => 0 := funext fun a => by fin_cases a <;> rfl

variable (V : (c : Dev nD) → (b : Ref sig .tc) → Buf (Elt Ideal) ((c : Thread nD τ).loc b))

/-- Row p of the aggregated-messages block at point t is row 10000 t + p of the array. -/
theorem reg5_iblk0_at (c : Dev nD) (t : Fin cfg5.N) (p : Fin 10000) (k : Fin 128) (P : Fin 50000)
    (hP : P.val = t.val * 10000 + p.val) :
    (iblk5 (F := Ideal) V c 0 t : Vec Ideal S10000x128 .f32) (ix2 p k)
      = (V c main_v49 : Vec Ideal S50000x128 .f32) (ix2 P k) := by
  obtain ⟨e0, e1, -⟩ := reg5_idx t
  unfold iblk5
  rw [View.read_apply]
  show V c main_v49 _ = V c main_v49 _
  congr 1
  funext a
  apply Fin.ext
  match a with
  | ⟨0, _⟩ => show win5_0.index t (0 : Fin 2) * 10000 + 1 * p.val = P.val; rw [e0, hP]; omega
  | ⟨1, _⟩ => show win5_0.index t (1 : Fin 2) * 128 + 1 * k.val = k.val; rw [e1]; omega

/-- Row p of the node block at point t is row 10000 t + p of the array. -/
theorem reg5_iblk1_at (c : Dev nD) (t : Fin cfg5.N) (p : Fin 10000) (k : Fin 128) (P : Fin 50000)
    (hP : P.val = t.val * 10000 + p.val) :
    (iblk5 (F := Ideal) V c 1 t : Vec Ideal S10000x128 .f32) (ix2 p k)
      = (V c main_v25 : Vec Ideal S50000x128 .f32) (ix2 P k) := by
  obtain ⟨-, -, e0, e1, -⟩ := reg5_idx t
  unfold iblk5
  rw [View.read_apply]
  show V c main_v25 _ = V c main_v25 _
  congr 1
  funext a
  apply Fin.ext
  match a with
  | ⟨0, _⟩ => show win5_1.index t (0 : Fin 2) * 10000 + 1 * p.val = P.val; rw [e0, hP]; omega
  | ⟨1, _⟩ => show win5_1.index t (1 : Fin 2) * 128 + 1 * k.val = k.val; rw [e1]; omega

/-- The window of the first weight matrix is the whole matrix at every point. -/
theorem reg5_iblk2 (c : Dev nD) (t : Fin cfg5.N) :
    (iblk5 (F := Ideal) V c 2 t : Vec Ideal S128x128 .f32) = (V c main_v51 : Vec Ideal S128x128 .f32) := by
  obtain ⟨-, -, -, -, e0, e1, -⟩ := reg5_idx t
  funext y
  unfold iblk5
  rw [View.read_apply]
  show V c main_v51 _ = V c main_v51 _
  congr 1
  funext a
  apply Fin.ext
  match a with
  | ⟨0, _⟩ => show win5_2.index t (0 : Fin 2) * 128 + 1 * (y 0).val = (y 0).val; rw [e0]; omega
  | ⟨1, _⟩ => show win5_2.index t (1 : Fin 2) * 128 + 1 * (y 1).val = (y 1).val; rw [e1]; omega

/-- The window of the second weight matrix is the whole matrix at every point. -/
theorem reg5_iblk3 (c : Dev nD) (t : Fin cfg5.N) :
    (iblk5 (F := Ideal) V c 3 t : Vec Ideal S128x128 .f32) = (V c main_v53 : Vec Ideal S128x128 .f32) := by
  obtain ⟨-, -, -, -, -, -, e0, e1, -⟩ := reg5_idx t
  funext y
  unfold iblk5
  rw [View.read_apply]
  show V c main_v53 _ = V c main_v53 _
  congr 1
  funext a
  apply Fin.ext
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- The window of the layer's bias row is the whole row at every point. -/
theorem reg5_iblk4 (c : Dev nD) (t : Fin cfg5.N) :
    (iblk5 (F := Ideal) V c 4 t : Vec Ideal S1x128 .f32) = (V c main_v56 : Vec Ideal S1x128 .f32) := by
  obtain ⟨-, -, -, -, -, -, -, -, e0, e1, -⟩ := reg5_idx t
  funext y
  unfold iblk5
  rw [View.read_apply]
  show V c main_v56 _ = V c main_v56 _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

/-- The window of the head's weights is the whole matrix at every point. -/
theorem reg5_iblk5 (c : Dev nD) (t : Fin cfg5.N) :
    (iblk5 (F := Ideal) V c 5 t : Vec Ideal S128x32 .f32) = (V c main_arg11 : Vec Ideal S128x32 .f32) := by
  obtain ⟨-, -, -, -, -, -, -, -, -, -, e0, e1, -⟩ := reg5_idx t
  funext y
  unfold iblk5
  rw [View.read_apply]
  show V c main_arg11 _ = V c main_arg11 _
  congr 1
  funext a
  apply Fin.ext
  match a with
  | ⟨0, _⟩ => show win5_5.index t (0 : Fin 2) * 128 + 1 * (y 0).val = (y 0).val; rw [e0]; omega
  | ⟨1, _⟩ => show win5_5.index t (1 : Fin 2) * 32 + 1 * (y 1).val = (y 1).val; rw [e1]; omega

/-- The window of the head's bias row is the whole row at every point. -/
theorem reg5_iblk6 (c : Dev nD) (t : Fin cfg5.N) :
    (iblk5 (F := Ideal) V c 6 t : Vec Ideal S1x32 .f32) = (V c main_v57 : Vec Ideal S1x32 .f32) := by
  obtain ⟨-, -, -, -, -, -, -, -, -, -, -, -, e0, e1, -⟩ := reg5_idx t
  funext y
  unfold iblk5
  rw [View.read_apply]
  show V c main_v57 _ = V c main_v57 _
  congr 1
  funext a
  apply Fin.ext
  match a with
  | ⟨0, _⟩ => show win5_6.index t (0 : Fin 2) * 1 + 1 * (y 0).val = (y 0).val; rw [e0]; omega
  | ⟨1, _⟩ => show win5_6.index t (1 : Fin 2) * 32 + 1 * (y 1).val = (y 1).val; rw [e1]; omega

/-! ## A point's payloads as the layers of the arrays -/

/-- If row p of each loaded node block is row P of its array and the loaded weights and bias are the arrays', the
    stored block of updated nodes at row p is the layer of the arrays at row P. -/
theorem reg5_h_core (x0 x1 : Vec Ideal S10000x128 .f32) (w0 w1 : Vec Ideal S128x128 .f32) (b : Vec Ideal S1x128 .f32)
    (a0 a1 : Vec Ideal S50000x128 .f32) (W0 W1 : Vec Ideal S128x128 .f32) (B : Vec Ideal S1x128 .f32)
    (p : Fin 10000) (P : Fin 50000)
    (h0 : ∀ k : Fin 128, x0 (ix2 p k) = a0 (ix2 P k)) (h1 : ∀ k : Fin 128, x1 (ix2 p k) = a1 (ix2 P k))
    (hw0 : w0 = W0) (hw1 : w1 = W1) (hb : b = B) (q : Fin 128) :
    k5_pay1 (F := Ideal) x0 w0 x1 w1 b (ix2 p q) = relu2 a0 W0 a1 W1 B (ix2 P q) := by
  subst hw0 hw1 hb
  rw [reg5_pay1_at, relu2_apply]
  unfold mm
  simp only [h0, h1]

/-- If row p of the stored block of updated nodes is row P of an array H and the loaded head is the arrays', the
    stored block of predictions at row p is the head applied to H at row P. -/
theorem reg5_pred_core (x0 x1 : Vec Ideal S10000x128 .f32) (w0 w1 : Vec Ideal S128x128 .f32) (b : Vec Ideal S1x128 .f32)
    (wp : Vec Ideal S128x32 .f32) (bp : Vec Ideal S1x32 .f32)
    (H : Vec Ideal S50000x128 .f32) (Wp : Vec Ideal S128x32 .f32) (Bp : Vec Ideal S1x32 .f32)
    (p : Fin 10000) (P : Fin 50000)
    (hh : ∀ k : Fin 128, k5_pay1 (F := Ideal) x0 w0 x1 w1 b (ix2 p k) = H (ix2 P k))
    (hwp : wp = Wp) (hbp : bp = Bp) (r : Fin 32) :
    k5_pay2 (F := Ideal) x0 w0 x1 w1 b wp bp (ix2 p r) = lin1 H Wp Bp (ix2 P r) := by
  subst hwp hbp
  rw [reg5_pay2_at, lin1_apply]
  unfold mm
  simp only [hh]

/-- At point t, row p of the stored block of updated nodes is the layer at row 10000 t + p. -/
theorem reg5_h_at (c : Dev nD) (t : Fin cfg5.N) (p : Fin 10000) (q : Fin 128) (P : Fin 50000)
    (hP : P.val = t.val * 10000 + p.val) :
    k5_pay1 (F := Ideal) (iblk5 V c 0 t) (iblk5 V c 2 t) (iblk5 V c 1 t) (iblk5 V c 3 t) (iblk5 V c 4 t) (ix2 p q)
      = relu2 (V c main_v49) (V c main_v51) (V c main_v25) (V c main_v53) (V c main_v56) (ix2 P q) :=
  reg5_h_core (iblk5 V c 0 t) (iblk5 V c 1 t) (iblk5 V c 2 t) (iblk5 V c 3 t) (iblk5 V c 4 t)
    (V c main_v49) (V c main_v25) (V c main_v51) (V c main_v53) (V c main_v56) p P
    (fun k => reg5_iblk0_at V c t p k P hP) (fun k => reg5_iblk1_at V c t p k P hP)
    (reg5_iblk2 V c t) (reg5_iblk3 V c t) (reg5_iblk4 V c t) q

/-- At point t, row p of the stored block of predictions is the head of the layer at row 10000 t + p. -/
theorem reg5_pred_at (c : Dev nD) (t : Fin cfg5.N) (p : Fin 10000) (r : Fin 32) (P : Fin 50000)
    (hP : P.val = t.val * 10000 + p.val) :
    k5_pay2 (F := Ideal) (iblk5 V c 0 t) (iblk5 V c 2 t) (iblk5 V c 1 t) (iblk5 V c 3 t) (iblk5 V c 4 t)
        (iblk5 V c 5 t) (iblk5 V c 6 t) (ix2 p r)
      = lin1 (relu2 (V c main_v49) (V c main_v51) (V c main_v25) (V c main_v53) (V c main_v56))
          (V c main_arg11) (V c main_v57) (ix2 P r) :=
  reg5_pred_core (iblk5 V c 0 t) (iblk5 V c 1 t) (iblk5 V c 2 t) (iblk5 V c 3 t) (iblk5 V c 4 t)
    (iblk5 V c 5 t) (iblk5 V c 6 t)
    (relu2 (V c main_v49) (V c main_v51) (V c main_v25) (V c main_v53) (V c main_v56))
    (V c main_arg11) (V c main_v57) p P
    (fun k => reg5_h_at V c t p k P hP) (reg5_iblk5 V c t) (reg5_iblk6 V c t) r

/-! ## What each point writes back -/

/-- Point t writes back block t of the layer of the arrays. -/
theorem reg5_flushed7 (c : Dev nD) (t : Fin cfg5.N) :
    (dat5 (F := Ideal) V c).flushed 7 t
      = ((cfg5.win 7).blk t).view.read (Elt Ideal)
          (relu2 (V c main_v49) (V c main_v51) (V c main_v25) (V c main_v53) (V c main_v56)) := by
  show (cfg5.win 7).cut (grid5.coords t) ((dat5 V c).after 7 t) = _
  rw [after5_7]
  unfold out5_7
  rw [View.canon_unit_zero reg5_hz]
  simp only [View.ld_unit_zero (S := S10000x128) reg5_hz, View.ld_unit_zero (S := S128x128) reg5_hz,
    View.ld_unit_zero (S := S1x128) reg5_hz]
  obtain ⟨-, -, -, -, -, -, -, -, -, -, -, -, -, -, e0, e1, -⟩ := reg5_idx t
  have hN : cfg5.N = 5 := N_5
  have ht : t.val < 5 := by have := t.isLt; omega
  funext j
  obtain ⟨p, q, rfl⟩ : ∃ (p : Fin 10000) (q : Fin 128), j = ix2 p q := ⟨j 0, j 1, eq_ix2 j⟩
  refine (reg5_h_at V c t p q ⟨t.val * 10000 + p.val, by omega⟩ rfl).trans ?_
  rw [View.read_apply]
  show relu2 _ _ _ _ _ _ = relu2 _ _ _ _ _ _
  congr 1
  funext a
  apply Fin.ext
  match a with
  | ⟨0, _⟩ => show t.val * 10000 + p.val = win5_7.index t (0 : Fin 2) * 10000 + 1 * p.val; rw [e0]; omega
  | ⟨1, _⟩ => show q.val = win5_7.index t (1 : Fin 2) * 128 + 1 * q.val; rw [e1]; omega

/-- Point t writes back block t of the head applied to the layer of the arrays. -/
theorem reg5_flushed8 (c : Dev nD) (t : Fin cfg5.N) :
    (dat5 (F := Ideal) V c).flushed 8 t
      = ((cfg5.win 8).blk t).view.read (Elt Ideal)
          (lin1 (relu2 (V c main_v49) (V c main_v51) (V c main_v25) (V c main_v53) (V c main_v56))
            (V c main_arg11) (V c main_v57)) := by
  show (cfg5.win 8).cut (grid5.coords t) ((dat5 V c).after 8 t) = _
  rw [after5_8]
  unfold out5_8
  rw [View.canon_unit_zero reg5_hz]
  simp only [View.ld_unit_zero (S := S10000x128) reg5_hz, View.ld_unit_zero (S := S128x128) reg5_hz,
    View.ld_unit_zero (S := S1x128) reg5_hz, View.ld_unit_zero (S := S128x32) reg5_hz,
    View.ld_unit_zero (S := S1x32) reg5_hz]
  obtain ⟨-, -, -, -, -, -, -, -, -, -, -, -, -, -, -, -, e0, e1⟩ := reg5_idx t
  have hN : cfg5.N = 5 := N_5
  have ht : t.val < 5 := by have := t.isLt; omega
  funext j
  obtain ⟨p, r, rfl⟩ : ∃ (p : Fin 10000) (r : Fin 32), j = ix2 p r := ⟨j 0, j 1, eq_ix2 j⟩
  refine (reg5_pred_at V c t p r ⟨t.val * 10000 + p.val, by omega⟩ rfl).trans ?_
  rw [View.read_apply]
  show lin1 _ _ _ _ = lin1 _ _ _ _
  congr 1
  funext a
  apply Fin.ext
  match a with
  | ⟨0, _⟩ => show t.val * 10000 + p.val = win5_8.index t (0 : Fin 2) * 10000 + 1 * p.val; rw [e0]; omega
  | ⟨1, _⟩ => show r.val = win5_8.index t (1 : Fin 2) * 32 + 1 * r.val; rw [e1]; omega

/-! ## The blocks tile the arrays -/

/-- An index of the node array is in point t's block iff each coordinate is in the block's range on its axis. -/
theorem reg5_mem_blk7 (t : Fin cfg5.N) (i : S50000x128.Idx) :
    i ∈ ((cfg5.win 7).blk t).view.set ↔ ∀ a : Fin 2, win5_7.index t a * S10000x128.size a ≤ (i a).val
      ∧ (i a).val < win5_7.index t a * S10000x128.size a + S10000x128.size a := by
  show i ∈ ((View.whole main_v58_0).slice (win5_7.rect t)).set ↔ _
  rw [View.set_slice_whole, Rect.mem_set_unit]
  exact Iff.rfl

/-- An index of the prediction array is in point t's block iff each coordinate is in the block's range on its axis. -/
theorem reg5_mem_blk8 (t : Fin cfg5.N) (i : S50000x32.Idx) :
    i ∈ ((cfg5.win 8).blk t).view.set ↔ ∀ a : Fin 2, win5_8.index t a * S10000x32.size a ≤ (i a).val
      ∧ (i a).val < win5_8.index t a * S10000x32.size a + S10000x32.size a := by
  show i ∈ ((View.whole main_v58_1).slice (win5_8.rect t)).set ↔ _
  rw [View.set_slice_whole, Rect.mem_set_unit]
  exact Iff.rfl

/-- Row r of the node array is in the block of the point r / 10000. -/
theorem reg5_cover7 (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 5 := N_5
  have ht : (i 0).val / 10000 < cfg5.N := by rw [hN]; omega
  obtain ⟨-, -, -, -, -, -, -, -, -, -, -, -, -, -, e0, e1, -⟩ := reg5_idx ⟨(i 0).val / 10000, ht⟩
  have e0' : win5_7.index ⟨(i 0).val / 10000, ht⟩ (0 : Fin 2) = (i 0).val / 10000 := e0
  refine ⟨⟨(i 0).val / 10000, ht⟩, flush5_7 _, ?_⟩
  rw [reg5_mem_blk7]
  intro a
  match a with
  | ⟨0, _⟩ =>
    show win5_7.index ⟨(i 0).val / 10000, ht⟩ (0 : Fin 2) * 10000 ≤ (i 0).val
      ∧ (i 0).val < win5_7.index ⟨(i 0).val / 10000, ht⟩ (0 : Fin 2) * 10000 + 10000
    rw [e0']; omega
  | ⟨1, _⟩ =>
    show win5_7.index ⟨(i 0).val / 10000, ht⟩ (1 : Fin 2) * 128 ≤ (i 1).val
      ∧ (i 1).val < win5_7.index ⟨(i 0).val / 10000, ht⟩ (1 : Fin 2) * 128 + 128
    rw [e1]; omega

/-- Row r of the prediction array is in the block of the point r / 10000. -/
theorem reg5_cover8 (i : S50000x32.Idx) :
    ∃ t : Fin cfg5.N, (cfg5.win 8).flush t = true ∧ i ∈ ((cfg5.win 8).blk t).view.set := by
  have hi0 : (i 0).val < 50000 := (i 0).isLt
  have hi1 : (i 1).val < 32 := (i 1).isLt
  have hN : cfg5.N = 5 := N_5
  have ht : (i 0).val / 10000 < cfg5.N := by rw [hN]; omega
  obtain ⟨-, -, -, -, -, -, -, -, -, -, -, -, -, -, -, -, e0, e1⟩ := reg5_idx ⟨(i 0).val / 10000, ht⟩
  have e0' : win5_8.index ⟨(i 0).val / 10000, ht⟩ (0 : Fin 2) = (i 0).val / 10000 := e0
  refine ⟨⟨(i 0).val / 10000, ht⟩, flush5_8 _, ?_⟩
  rw [reg5_mem_blk8]
  intro a
  match a with
  | ⟨0, _⟩ =>
    show win5_8.index ⟨(i 0).val / 10000, ht⟩ (0 : Fin 2) * 10000 ≤ (i 0).val
      ∧ (i 0).val < win5_8.index ⟨(i 0).val / 10000, ht⟩ (0 : Fin 2) * 10000 + 10000
    rw [e0']; omega
  | ⟨1, _⟩ =>
    show win5_8.index ⟨(i 0).val / 10000, ht⟩ (1 : Fin 2) * 32 ≤ (i 1).val
      ∧ (i 1).val < win5_8.index ⟨(i 0).val / 10000, ht⟩ (1 : Fin 2) * 32 + 32
    rw [e1]; omega

/-! ## The two output arrays after the call -/

/-- The nodes after layer 1. -/
theorem region5_out_h (c : Dev nD) :
    (dat5 (F := Ideal) V c).arrAt 7 cfg5.N
      = relu2 (V c main_v49) (V c main_v51) (V c main_v25) (V c main_v53) (V c main_v56) :=
  (dat5 (F := Ideal) V c).arrAt_eq_of_cover 7 _ (fun t _ => reg5_flushed7 V c t) reg5_cover7

/-- The node predictions: the head applied to the updated nodes. -/
theorem region5_out_pred (c : Dev nD) :
    (dat5 (F := Ideal) V c).arrAt 8 cfg5.N
      = lin1 (relu2 (V c main_v49) (V c main_v51) (V c main_v25) (V c main_v53) (V c main_v56)) (V c main_arg11) (V c main_v57) :=
  (dat5 (F := Ideal) V c).arrAt_eq_of_cover 8 _ (fun t _ => reg5_flushed8 V c t) reg5_cover8

end Cert.KernelIdeal.Bridge

end
-- ==== Proof.RefStagesB.lean ====
/-
  The reference's layers of the second half (layer 1's node update and edge update, the node head and the edge head) as the network's layer functions of the stages they read, and the two gathers the heads repeat.
-/
import proofs.«418406_j45518063403048_2_alg».proof.Proof.Gen.ReferenceIdeal.Read
import proofs.«418406_j45518063403048_2_alg».proof.Proof.Spec
import proofs.«418406_j45518063403048_2_alg».proof.Proof.LibDotAt
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Idealize.ShloMosaic Idealize.ShloMosaic.ValueIdx
open Cert.ReferenceIdeal Cert.ReferenceIdeal.Gen Cert.ReferenceIdeal.Read Cert.Bridge

/-- Layer 1's node update. -/
theorem ref_h2 (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) :
    val_main_v110 (F := Ideal) x0 x1 x2 x3 x4 x5 x6 x7 x8 x9 x10
      = relu2 (val_main_v97 (F := Ideal) x0 x1 x2 x3 x4 x5 x6 x7 x8 x9 x10) (val_main_v99 (F := Ideal) x7) (val_main_v43 (F := Ideal) x0 x1 x2 x3 x4 x5 x6 x7 x8) (val_main_v102 (F := Ideal) x7) (val_main_v107 (F := Ideal) x8) := by
  funext j
  obtain ⟨p, q, rfl⟩ : ∃ (p : Fin 50000) (q : Fin 128), j = ix2 p q := ⟨j 0, j 1, eq_ix2 j⟩
  rw [relu2_apply]
  unfold mm
  rw [val_main_v110_apply, val_main_v109_apply, val_main_v104_apply, val_main_v100_apply, val_main_v103_apply,
    val_main_v108_apply, val_main_call4_v0_apply, val_main_call4_cst_apply]
  -- the two products read their operands at (p, k) and (k, q); the bias is read at (0, q)
  have el1 : ∀ k : Fin 128, lidx_main_v100 (ix2 p q) k = ix2 p k := fun k =>
    funext fun a => Fin.ext (by match a with | ⟨0, _⟩ => rfl | ⟨1, _⟩ => rfl)
  have er1 : ∀ k : Fin 128, ridx_main_v100 (ix2 p q) k = ix2 k q := fun k =>
    funext fun a => Fin.ext (by match a with | ⟨0, _⟩ => rfl | ⟨1, _⟩ => rfl)
  have el2 : ∀ k : Fin 128, lidx_main_v103 (ix2 p q) k = ix2 p k := fun k =>
    funext fun a => Fin.ext (by match a with | ⟨0, _⟩ => rfl | ⟨1, _⟩ => rfl)
  have er2 : ∀ k : Fin 128, ridx_main_v103 (ix2 p q) k = ix2 k q := fun k =>
    funext fun a => Fin.ext (by match a with | ⟨0, _⟩ => rfl | ⟨1, _⟩ => rfl)
  have eb : idx_main_v108 (ix2 p q) = row0 q :=
    funext fun a => Fin.ext (by match a with | ⟨0, _⟩ => rfl | ⟨1, _⟩ => rfl)
  simp only [el1, er1, el2, er2, eb, Ideal.addf_def, Ideal.maximumf_def, Ideal.ofBits_def, Ideal.ofBits_zero_f32]

/-- The node head. -/
theorem ref_np (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) (x11 : (⟨S128x32, .f32⟩ : BufTy).Contents (Elt Ideal)) (x12 : (⟨S32, .f32⟩ : BufTy).Contents (Elt Ideal)) :
    val_main_v145 (F := Ideal) x0 x1 x2 x3 x4 x5 x6 x7 x8 x9 x10 x11 x12
      = lin1 (val_main_v110 (F := Ideal) x0 x1 x2 x3 x4 x5 x6 x7 x8 x9 x10) x11 (val_main_v143 (F := Ideal) x12) := by
  funext j
  obtain ⟨p, q, rfl⟩ : ∃ (p : Fin 50000) (q : Fin 32), j = ix2 p q := ⟨j 0, j 1, eq_ix2 j⟩
  rw [lin1_apply]
  unfold mm
  rw [val_main_v145_apply, val_main_v142_apply, val_main_v144_apply]
  -- the product reads its operands at (p, k) and (k, q); the bias is read at (0, q)
  have el : ∀ k : Fin 128, lidx_main_v142 (ix2 p q) k = ix2 p k := fun k =>
    funext fun a => Fin.ext (by match a with | ⟨0, _⟩ => rfl | ⟨1, _⟩ => rfl)
  have er : ∀ k : Fin 128, ridx_main_v142 (ix2 p q) k = ix2 k q := fun k =>
    funext fun a => Fin.ext (by match a with | ⟨0, _⟩ => rfl | ⟨1, _⟩ => rfl)
  have eb : idx_main_v144 (ix2 p q) = row0 q :=
    funext fun a => Fin.ext (by match a with | ⟨0, _⟩ => rfl | ⟨1, _⟩ => rfl)
  simp only [el, er, eb, Ideal.addf_def]

/-- Layer 1's edge update. -/
theorem ref_e2 (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) :
    val_main_v141 (F := Ideal) x0 x1 x2 x3 x4 x5 x6 x7 x8 x9 x10
      = relu3 (val_main_v117 (F := Ideal) x0 x1 x2 x3 x4 x5 x6 x7 x8 x9 x10) (val_main_v119 (F := Ideal) x9) (val_main_v127 (F := Ideal) x0 x1 x2 x3 x4 x5 x6 x7 x8 x9 x10) (val_main_v129 (F := Ideal) x9) (val_main_v74 (F := Ideal) x0 x1 x2 x3 x4 x5 x6 x7 x8 x9 x10) (val_main_v133 (F := Ideal) x9) (val_main_v138 (F := Ideal) x10) := by
  funext j
  obtain ⟨p, q, rfl⟩ : ∃ (p : Fin 800000) (q : Fin 64), j = ix2 p q := ⟨j 0, j 1, eq_ix2 j⟩
  rw [relu3_apply]
  unfold mm
  rw [val_main_v141_apply, val_main_v140_apply, val_main_v135_apply, val_main_v131_apply, val_main_v120_apply,
    val_main_v130_apply, val_main_v134_apply, val_main_v139_apply, val_main_call5_v0_apply, val_main_call5_cst_apply]
  -- the three products read their operands at (p, k) and (k, q); the bias is read at (0, q)
  have el1 : ∀ k : Fin 128, lidx_main_v120 (ix2 p q) k = ix2 p k := fun k =>
    funext fun a => Fin.ext (by match a with | ⟨0, _⟩ => rfl | ⟨1, _⟩ => rfl)
  have er1 : ∀ k : Fin 128, ridx_main_v120 (ix2 p q) k = ix2 k q := fun k =>
    funext fun a => Fin.ext (by match a with | ⟨0, _⟩ => rfl | ⟨1, _⟩ => rfl)
  have el2 : ∀ k : Fin 128, lidx_main_v130 (ix2 p q) k = ix2 p k := fun k =>
    funext fun a => Fin.ext (by match a with | ⟨0, _⟩ => rfl | ⟨1, _⟩ => rfl)
  have er2 : ∀ k : Fin 128, ridx_main_v130 (ix2 p q) k = ix2 k q := fun k =>
    funext fun a => Fin.ext (by match a with | ⟨0, _⟩ => rfl | ⟨1, _⟩ => rfl)
  have el3 : ∀ k : Fin 64, lidx_main_v134 (ix2 p q) k = ix2 p k := fun k =>
    funext fun a => Fin.ext (by match a with | ⟨0, _⟩ => rfl | ⟨1, _⟩ => rfl)
  have er3 : ∀ k : Fin 64, ridx_main_v134 (ix2 p q) k = ix2 k q := fun k =>
    funext fun a => Fin.ext (by match a with | ⟨0, _⟩ => rfl | ⟨1, _⟩ => rfl)
  have eb : idx_main_v139 (ix2 p q) = row0 q :=
    funext fun a => Fin.ext (by match a with | ⟨0, _⟩ => rfl | ⟨1, _⟩ => rfl)
  simp only [el1, er1, el2, er2, el3, er3, eb, Ideal.addf_def, Ideal.maximumf_def, Ideal.ofBits_def,
    Ideal.ofBits_zero_f32]

/-- The edge head. -/
theorem ref_ep (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) (x13 : (⟨S320x1, .f32⟩ : BufTy).Contents (Elt Ideal)) (x14 : (⟨S1, .f32⟩ : BufTy).Contents (Elt Ideal)) :
    val_main_v170 (F := Ideal) x0 x1 x2 x3 x4 x5 x6 x7 x8 x9 x10 x13 x14
      = lin3 (val_main_v152 (F := Ideal) x0 x1 x2 x3 x4 x5 x6 x7 x8 x9 x10) (val_main_v153 (F := Ideal) x13) (val_main_v161 (F := Ideal) x0 x1 x2 x3 x4 x5 x6 x7 x8 x9 x10) (val_main_v162 (F := Ideal) x13) (val_main_v141 (F := Ideal) x0 x1 x2 x3 x4 x5 x6 x7 x8 x9 x10) (val_main_v165 (F := Ideal) x13) (val_main_v168 (F := Ideal) x14) := by
  funext j
  obtain ⟨p, q, rfl⟩ : ∃ (p : Fin 800000) (q : Fin 1), j = ix2 p q := ⟨j 0, j 1, eq_ix2 j⟩
  rw [lin3_apply]
  unfold mm
  rw [val_main_v170_apply, val_main_v167_apply, val_main_v164_apply, val_main_v154_apply, val_main_v163_apply,
    val_main_v166_apply, val_main_v169_apply]
  -- the three products read their operands at (p, k) and (k, q); the bias is read at (0, q), and the bias row has
  -- the one column q = 0
  have el1 : ∀ k : Fin 128, lidx_main_v154 (ix2 p q) k = ix2 p k := fun k =>
    funext fun a => Fin.ext (by match a with | ⟨0, _⟩ => rfl | ⟨1, _⟩ => rfl)
  have er1 : ∀ k : Fin 128, ridx_main_v154 (ix2 p q) k = ix2 k q := fun k =>
    funext fun a => Fin.ext (by match a with | ⟨0, _⟩ => rfl | ⟨1, _⟩ => rfl)
  have el2 : ∀ k : Fin 128, lidx_main_v163 (ix2 p q) k = ix2 p k := fun k =>
    funext fun a => Fin.ext (by match a with | ⟨0, _⟩ => rfl | ⟨1, _⟩ => rfl)
  have er2 : ∀ k : Fin 128, ridx_main_v163 (ix2 p q) k = ix2 k q := fun k =>
    funext fun a => Fin.ext (by match a with | ⟨0, _⟩ => rfl | ⟨1, _⟩ => rfl)
  have el3 : ∀ k : Fin 64, lidx_main_v166 (ix2 p q) k = ix2 p k := fun k =>
    funext fun a => Fin.ext (by match a with | ⟨0, _⟩ => rfl | ⟨1, _⟩ => rfl)
  have er3 : ∀ k : Fin 64, ridx_main_v166 (ix2 p q) k = ix2 k q := fun k =>
    funext fun a => Fin.ext (by match a with | ⟨0, _⟩ => rfl | ⟨1, _⟩ => rfl)
  have eb : idx_main_v169 (ix2 p q) = row0 q :=
    funext fun a => Fin.ext (by
      match a with
      | ⟨0, _⟩ => rfl
      | ⟨1, _⟩ => have h := q.isLt; show (0 : Nat) = q.val; omega)
  simp only [el1, er1, el2, er2, el3, er3, eb, Ideal.addf_def]

/-- The wrapped source index row the head builds is the one layer 1 built: both are the same selection on the same
    slice of the edge list against the same two constants. -/
theorem ref_src_index_again (x2 : (⟨S2x800000, .i32⟩ : BufTy).Contents (Elt Ideal)) :
    val_main_v151 (F := Ideal) x2 = val_main_v116 (F := Ideal) x2 := by
  unfold val_main_v151 val_main_v150 val_main_v149 val_main_v148 val_main_v147 val_main_v146 val_main_c_13 val_main_c_12
  unfold val_main_v116 val_main_v115 val_main_v114 val_main_v113 val_main_v112 val_main_v111 val_main_c_9 val_main_c_8
  rfl

/-- The wrapped target index row the head builds is the one layer 1 built. -/
theorem ref_dst_index_again (x2 : (⟨S2x800000, .i32⟩ : BufTy).Contents (Elt Ideal)) :
    val_main_v160 (F := Ideal) x2 = val_main_v126 (F := Ideal) x2 := by
  unfold val_main_v160 val_main_v159 val_main_v158 val_main_v157 val_main_v156 val_main_v155 val_main_c_15 val_main_c_14
  unfold val_main_v126 val_main_v125 val_main_v124 val_main_v123 val_main_v122 val_main_v121 val_main_c_11 val_main_c_10
  rfl

/-- The head gathers the source rows a second time: the same rows. -/
theorem ref_gather_src_again (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) :
    val_main_v152 (F := Ideal) x0 x1 x2 x3 x4 x5 x6 x7 x8 x9 x10
      = val_main_v117 (F := Ideal) x0 x1 x2 x3 x4 x5 x6 x7 x8 x9 x10 := by
  -- the same table gathered at the same index row
  unfold val_main_v152 val_main_v117
  rw [ref_src_index_again]

/-- The head gathers the target rows a second time: the same rows. -/
theorem ref_gather_dst_again (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S2x192x128, .f32⟩ : BufTy).Contents (Elt Ideal)) (x6 : (⟨S2x128, .f32⟩ : BufTy).Contents (Elt Ideal)) (x7 : (⟨S2x256x128, .f32⟩ : BufTy).Contents (Elt Ideal)) (x8 : (⟨S2x128, .f32⟩ : BufTy).Contents (Elt Ideal)) (x9 : (⟨S2x320x64, .f32⟩ : BufTy).Contents (Elt Ideal)) (x10 : (⟨S2x64, .f32⟩ : BufTy).Contents (Elt Ideal)) :
    val_main_v161 (F := Ideal) x0 x1 x2 x3 x4 x5 x6 x7 x8 x9 x10
      = val_main_v127 (F := Ideal) x0 x1 x2 x3 x4 x5 x6 x7 x8 x9 x10 := by
  -- the same table gathered at the same index row
  unfold val_main_v161 val_main_v127
  rw [ref_dst_index_again]

end Cert.ReferenceIdeal.Bridge

end
-- ==== Proof.Chain5.lean ====
/-
  Through the second scatter-add and the fused node update and node head: the call's outputs are the reference's nodes after layer 1 and its node predictions.
-/
import proofs.«418406_j45518063403048_2_alg».proof.Proof.Names
import proofs.«418406_j45518063403048_2_alg».proof.Proof.Region5
import proofs.«418406_j45518063403048_2_alg».proof.Proof.RefStagesB
import proofs.«418406_j45518063403048_2_alg».proof.Proof.Rows
import Idealize.ShloMosaic.Lib.StableHlo.Run
import Idealize.ShloMosaic.Lib.Pipeline.Value
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open Cert.ReferenceIdeal.Read

variable (m : (ℓ : Loc nD τ sig) → Buf (Elt Ideal) ℓ) (ρ : Dev nD → PrngReg) (c : Dev nD)

/-! ## Buffers the operations between the two calls leave alone

Between the second message call and the fused call the program makes the zero array, the column of target indices, the
scatter-add of the messages, and the slices and reshapes of the layer's weights and biases. None of them writes an
argument, an index row, the nodes after layer 0 or the edges after layer 0. -/

/-- Closes "this buffer holds after the operations what it held before": no operation of the list writes it. -/
local macro "kept_between" : tactic => `(tactic|
  exact StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

theorem c5_kept_main_arg0 : W15 m ρ c (Proc.devRef .tc main_arg0) = W14 m ρ c (Proc.devRef .tc main_arg0) := by kept_between
theorem c5_kept_main_arg1 : W15 m ρ c (Proc.devRef .tc main_arg1) = W14 m ρ c (Proc.devRef .tc main_arg1) := by kept_between
theorem c5_kept_main_arg2 : W15 m ρ c (Proc.devRef .tc main_arg2) = W14 m ρ c (Proc.devRef .tc main_arg2) := by kept_between
theorem c5_kept_main_arg3 : W15 m ρ c (Proc.devRef .tc main_arg3) = W14 m ρ c (Proc.devRef .tc main_arg3) := by kept_between
theorem c5_kept_main_arg4 : W15 m ρ c (Proc.devRef .tc main_arg4) = W14 m ρ c (Proc.devRef .tc main_arg4) := by kept_between
theorem c5_kept_main_arg5 : W15 m ρ c (Proc.devRef .tc main_arg5) = W14 m ρ c (Proc.devRef .tc main_arg5) := by kept_between
theorem c5_kept_main_arg6 : W15 m ρ c (Proc.devRef .tc main_arg6) = W14 m ρ c (Proc.devRef .tc main_arg6) := by kept_between
theorem c5_kept_main_arg7 : W15 m ρ c (Proc.devRef .tc main_arg7) = W14 m ρ c (Proc.devRef .tc main_arg7) := by kept_between
theorem c5_kept_main_arg8 : W15 m ρ c (Proc.devRef .tc main_arg8) = W14 m ρ c (Proc.devRef .tc main_arg8) := by kept_between
theorem c5_kept_main_arg9 : W15 m ρ c (Proc.devRef .tc main_arg9) = W14 m ρ c (Proc.devRef .tc main_arg9) := by kept_between
theorem c5_kept_main_arg10 : W15 m ρ c (Proc.devRef .tc main_arg10) = W14 m ρ c (Proc.devRef .tc main_arg10) := by kept_between
theorem c5_kept_main_arg11 : W15 m ρ c (Proc.devRef .tc main_arg11) = W14 m ρ c (Proc.devRef .tc main_arg11) := by kept_between
theorem c5_kept_main_arg12 : W15 m ρ c (Proc.devRef .tc main_arg12) = W14 m ρ c (Proc.devRef .tc main_arg12) := by kept_between
theorem c5_kept_main_arg13 : W15 m ρ c (Proc.devRef .tc main_arg13) = W14 m ρ c (Proc.devRef .tc main_arg13) := by kept_between
theorem c5_kept_main_arg14 : W15 m ρ c (Proc.devRef .tc main_arg14) = W14 m ρ c (Proc.devRef .tc main_arg14) := by kept_between
theorem c5_kept_main_v1 : W15 m ρ c (Proc.devRef .tc main_v1) = W14 m ρ c (Proc.devRef .tc main_v1) := by kept_between
theorem c5_kept_main_v3 : W15 m ρ c (Proc.devRef .tc main_v3) = W14 m ρ c (Proc.devRef .tc main_v3) := by kept_between
theorem c5_kept_main_v25 : W15 m ρ c (Proc.devRef .tc main_v25) = W14 m ρ c (Proc.devRef .tc main_v25) := by kept_between
theorem c5_kept_main_v37 : W15 m ρ c (Proc.devRef .tc main_v37) = W14 m ρ c (Proc.devRef .tc main_v37) := by kept_between

/-! ## What the operations between the two calls write -/

/-- The aggregated messages: the scatter-add of the second messages into the zero array along the target column, the
    same scatter-add the reference makes of the same three operands. -/
theorem c5_aggr (h : Inv14 m ρ c) : W15 m ρ c (Proc.devRef .tc main_v49) = R97 m c := by
  show StableHlo.after hostOps5 (W14 m ρ c) (Proc.devRef .tc main_v49) = _
  after_results
  rw [h.dst, h.m2]
  rfl

/-- The weights applied to the aggregated messages: rows 0 … 127 of layer 1's slab of the node weights. -/
theorem c5_w1 (h : Inv14 m ρ c) : W15 m ρ c (Proc.devRef .tc main_v51) = R99 m c := by
  show StableHlo.after hostOps5 (W14 m ρ c) (Proc.devRef .tc main_v51) = _
  after_results
  rw [h.args.a7]
  rfl

/-- The weights applied to the nodes: rows 128 … 255 of the same slab. -/
theorem c5_w2 (h : Inv14 m ρ c) : W15 m ρ c (Proc.devRef .tc main_v53) = R102 m c := by
  show StableHlo.after hostOps5 (W14 m ρ c) (Proc.devRef .tc main_v53) = _
  after_results
  rw [h.args.a7]
  rfl

/-- The layer's bias row: row 1 of the node biases, flattened and set as a 1 × 128 row; the reference broadcasts the
    flattened row into a 1 × 128 row, which is the same row. -/
theorem c5_b (h : Inv14 m ρ c) : W15 m ρ c (Proc.devRef .tc main_v56) = R107 m c := by
  show StableHlo.after hostOps5 (W14 m ρ c) (Proc.devRef .tc main_v56) = _
  after_results
  rw [h.args.a8]
  exact row_reshape_eq_bcast _ _ _

/-- The head's bias row: the bias vector set as a 1 × 32 row, the reference's broadcast of it into a 1 × 32 row. -/
theorem c5_bp (h : Inv14 m ρ c) : W15 m ρ c (Proc.devRef .tc main_v57) = R143 m c := by
  show StableHlo.after hostOps5 (W14 m ρ c) (Proc.devRef .tc main_v57) = _
  after_results
  rw [h.args.a12]
  exact row_reshape_eq_bcast _ _ _

/-! ## The two outputs of the fused call -/

/-- The call's first output is the layer of the arrays it finds, and those are the reference's stages: the nodes
    after layer 1. -/
theorem c5_h2 (h : Inv14 m ρ c) : W16 m ρ c (Proc.devRef .tc main_v58_0) = R110 m c := by
  refine (W16_arr m ρ c 7).trans ?_
  refine (region5_out_h (V15 m ρ) c).trans ?_
  rw [show V15 m ρ c main_v49 = R97 m c from c5_aggr m ρ c h,
    show V15 m ρ c main_v51 = R99 m c from c5_w1 m ρ c h,
    show V15 m ρ c main_v25 = R43 m c from (c5_kept_main_v25 m ρ c).trans h.h1,
    show V15 m ρ c main_v53 = R102 m c from c5_w2 m ρ c h,
    show V15 m ρ c main_v56 = R107 m c from c5_b m ρ c h]
  exact (Cert.ReferenceIdeal.Bridge.ref_h2 (A0 m c) (A1 m c) (A2 m c) (A3 m c) (A4 m c) (A5 m c) (A6 m c) (A7 m c)
    (A8 m c) (A9 m c) (A10 m c)).symm

/-- The call's second output is the head applied to that layer: the reference's node predictions. -/
theorem c5_np (h : Inv14 m ρ c) : W16 m ρ c (Proc.devRef .tc main_v58_1) = R145 m c := by
  refine (W16_arr m ρ c 8).trans ?_
  refine (region5_out_pred (V15 m ρ) c).trans ?_
  rw [show V15 m ρ c main_v49 = R97 m c from c5_aggr m ρ c h,
    show V15 m ρ c main_v51 = R99 m c from c5_w1 m ρ c h,
    show V15 m ρ c main_v25 = R43 m c from (c5_kept_main_v25 m ρ c).trans h.h1,
    show V15 m ρ c main_v53 = R102 m c from c5_w2 m ρ c h,
    show V15 m ρ c main_v56 = R107 m c from c5_b m ρ c h,
    show V15 m ρ c main_arg11 = A11 m c from (c5_kept_main_arg11 m ρ c).trans h.args.a11,
    show V15 m ρ c main_v57 = R143 m c from c5_bp m ρ c h]
  rw [← Cert.ReferenceIdeal.Bridge.ref_h2 (A0 m c) (A1 m c) (A2 m c) (A3 m c) (A4 m c) (A5 m c) (A6 m c) (A7 m c)
    (A8 m c) (A9 m c) (A10 m c)]
  exact (Cert.ReferenceIdeal.Bridge.ref_np (A0 m c) (A1 m c) (A2 m c) (A3 m c) (A4 m c) (A5 m c) (A6 m c) (A7 m c)
    (A8 m c) (A9 m c) (A10 m c) (A11 m c) (A12 m c)).symm

/-! ## The state after the fused call -/

/-- The head's weights are one of the call's input arrays: an input array leaves the call as it entered. -/
theorem c5_through_arg11 : W16 m ρ c (Proc.devRef .tc main_arg11) = W15 m ρ c (Proc.devRef .tc main_arg11) :=
  (W16_arr m ρ c 5).trans (((dat5 (V15 m ρ) c).arrAt_in 5 rfl _).trans (A_eq5 (V15 m ρ) c 5))

/-- The state after the second node update and the node head. -/
theorem chain5 (h : Inv14 m ρ c) : Inv16 m ρ c where
  args :=
    { a0 := (W16_of_ne m ρ c main_arg0 (by decide)).trans ((c5_kept_main_arg0 m ρ c).trans h.args.a0)
      a1 := (W16_of_ne m ρ c main_arg1 (by decide)).trans ((c5_kept_main_arg1 m ρ c).trans h.args.a1)
      a2 := (W16_of_ne m ρ c main_arg2 (by decide)).trans ((c5_kept_main_arg2 m ρ c).trans h.args.a2)
      a3 := (W16_of_ne m ρ c main_arg3 (by decide)).trans ((c5_kept_main_arg3 m ρ c).trans h.args.a3)
      a4 := (W16_of_ne m ρ c main_arg4 (by decide)).trans ((c5_kept_main_arg4 m ρ c).trans h.args.a4)
      a5 := (W16_of_ne m ρ c main_arg5 (by decide)).trans ((c5_kept_main_arg5 m ρ c).trans h.args.a5)
      a6 := (W16_of_ne m ρ c main_arg6 (by decide)).trans ((c5_kept_main_arg6 m ρ c).trans h.args.a6)
      a7 := (W16_of_ne m ρ c main_arg7 (by decide)).trans ((c5_kept_main_arg7 m ρ c).trans h.args.a7)
      a8 := (W16_of_ne m ρ c main_arg8 (by decide)).trans ((c5_kept_main_arg8 m ρ c).trans h.args.a8)
      a9 := (W16_of_ne m ρ c main_arg9 (by decide)).trans ((c5_kept_main_arg9 m ρ c).trans h.args.a9)
      a10 := (W16_of_ne m ρ c main_arg10 (by decide)).trans ((c5_kept_main_arg10 m ρ c).trans h.args.a10)
      a11 := (c5_through_arg11 m ρ c).trans ((c5_kept_main_arg11 m ρ c).trans h.args.a11)
      a12 := (W16_of_ne m ρ c main_arg12 (by decide)).trans ((c5_kept_main_arg12 m ρ c).trans h.args.a12)
      a13 := (W16_of_ne m ρ c main_arg13 (by decide)).trans ((c5_kept_main_arg13 m ρ c).trans h.args.a13)
      a14 := (W16_of_ne m ρ c main_arg14 (by decide)).trans ((c5_kept_main_arg14 m ρ c).trans h.args.a14) }
  src := (W16_of_ne m ρ c main_v1 (by decide)).trans ((c5_kept_main_v1 m ρ c).trans h.src)
  dst := (W16_of_ne m ρ c main_v3 (by decide)).trans ((c5_kept_main_v3 m ρ c).trans h.dst)
  ea1 := (W16_of_ne m ρ c main_v37 (by decide)).trans ((c5_kept_main_v37 m ρ c).trans h.ea1)
  h2 := c5_h2 m ρ c h
  np := c5_np m ρ c h

end Cert.KernelIdeal.Bridge

end
-- ==== Proof.Region6.lean ====
/-
  The second edge update fused with the edge head (pallas_call 6, grid of 50 row tiles of 16000 edges): after it the first output holds e' = max (((h_src·W₁ + h_dst·W₂) + e·W₃) + b) 0 and the second ((h_src·U₁ + h_dst·U₂) + e'·U₃) + b', each as one function of the arrays the call finds.

  The body's arithmetic is read entry by entry: a product into the zero splat at (p, q) is the sum over k of the entries'
  products, a bias row spread over the rows reads the row at column q, and the zero word is 0. Point t of the grid holds rows
  16000 t … 16000 t + 15999 of the three edge-indexed arrays and the whole of every weight and bias, so the tile it writes
  back is those rows of the layer function of the whole arrays; the head reads the tile of updated features the same point
  has just computed, which is those rows of the whole updated features. Row r lies in the tile of point r / 16000, so the
  tiles cover both outputs.
-/
import proofs.«418406_j45518063403048_2_alg».proof.Proof.Gen.KernelIdeal.Frame
import proofs.«418406_j45518063403048_2_alg».proof.Proof.Spec
import proofs.«418406_j45518063403048_2_alg».proof.Proof.LibDotAt
import Idealize.ShloMosaic.Lib.Pipeline.Value
import Idealize.ShloMosaic.Lib.ValueLayout
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge

/-! ## The body's arithmetic, entry by entry -/

/-- The zero offset of a whole-buffer access. -/
theorem off6_zero : (![0, 0] : Fin 2 → Nat) = fun _ => 0 := funext fun a => by fin_cases a <;> rfl

/-- A 16000 × 128 block times a 128 × 64 matrix into the zero splat, at (p, q). -/
theorem mm6_128_64 (l : FVec Ideal S16000x128 .f32) (r : FVec Ideal S128x64 .f32) (p : Fin 16000) (q : Fin 64) :
    matmul dot_S16000x128_S128x64_S16000x64_1_0_0_1_n_n (some .fp32) l r (constant S16000x64 .f32 0x00000000#32) (ix2 p q)
      = mm l r p q :=
  Idealize.ShloMosaic.DotAt.matmul_plain dot_S16000x128_S128x64_S16000x64_1_0_0_1_n_n rfl rfl rfl rfl rfl rfl rfl rfl _ l r p q

/-- A 16000 × 64 block times a 64 × 64 matrix into the zero splat, at (p, q). -/
theorem mm6_64_64 (l : FVec Ideal S16000x64 .f32) (r : FVec Ideal S64x64 .f32) (p : Fin 16000) (q : Fin 64) :
    matmul dot_S16000x64_S64x64_S16000x64_1_0_0_1_n_n (some .fp32) l r (constant S16000x64 .f32 0x00000000#32) (ix2 p q)
      = mm l r p q :=
  Idealize.ShloMosaic.DotAt.matmul_plain dot_S16000x64_S64x64_S16000x64_1_0_0_1_n_n rfl rfl rfl rfl rfl rfl rfl rfl _ l r p q

/-- A 16000 × 128 block times a 128 × 1 column into the zero splat, at (p, q). -/
theorem mm6_128_1 (l : FVec Ideal S16000x128 .f32) (r : FVec Ideal S128x1 .f32) (p : Fin 16000) (q : Fin 1) :
    matmul dot_S16000x128_S128x1_S16000x1_1_0_0_1_n_n (some .fp32) l r (constant S16000x1 .f32 0x00000000#32) (ix2 p q)
      = mm l r p q :=
  Idealize.ShloMosaic.DotAt.matmul_plain dot_S16000x128_S128x1_S16000x1_1_0_0_1_n_n rfl rfl rfl rfl rfl rfl rfl rfl _ l r p q

/-- A 16000 × 64 block times a 64 × 1 column into the zero splat, at (p, q). -/
theorem mm6_64_1 (l : FVec Ideal S16000x64 .f32) (r : FVec Ideal S64x1 .f32) (p : Fin 16000) (q : Fin 1) :
    matmul dot_S16000x64_S64x1_S16000x1_1_0_0_1_n_n (some .fp32) l r (constant S16000x1 .f32 0x00000000#32) (ix2 p q)
      = mm l r p q :=
  Idealize.ShloMosaic.DotAt.matmul_plain dot_S16000x64_S64x1_S16000x1_1_0_0_1_n_n rfl rfl rfl rfl rfl rfl rfl rfl _ l r p q

/-- The 1 × 64 bias row spread over the 16000 rows reads the row at column q. -/
theorem bias6_64 (b : FVec Ideal S1x64 .f32) (p : Fin 16000) (q : Fin 64) :
    broadcastTo S16000x64 b broadcasts_S1x64_S16000x64 (ix2 p q) = b (row0 q) :=
  broadcastTo_apply b _ (ix2 p q) (row0 q) (fun a => by
    match a with
    | ⟨0, _⟩ => rfl
    | ⟨1, _⟩ => rfl)

/-- The 1 × 1 bias spread over the 16000 rows reads its one entry. -/
theorem bias6_1 (b : FVec Ideal S1x1 .f32) (p : Fin 16000) (q : Fin 1) :
    broadcastTo S16000x1 b broadcasts_S1x1_S16000x1 (ix2 p q) = b (row0 q) :=
  broadcastTo_apply b _ (ix2 p q) (row0 q) (fun a => by
    match a with
    | ⟨0, _⟩ => rfl
    | ⟨1, _⟩ => exact (Fin.val_eq_zero q))

/-- The updated edge features of one tile at (p, q): three products added left to right, the bias, clipped at zero. -/
theorem pay6_e_at (x0 : Vec Ideal S16000x128 .f32) (w0 : Vec Ideal S128x64 .f32) (x1 : Vec Ideal S16000x128 .f32)
    (w1 : Vec Ideal S128x64 .f32) (x2 : Vec Ideal S16000x64 .f32) (w2 : Vec Ideal S64x64 .f32) (b : Vec Ideal S1x64 .f32)
    (p : Fin 16000) (q : Fin 64) :
    k6_pay2 (F := Ideal) x0 w0 x1 w1 x2 w2 b (ix2 p q)
      = max (((mm x0 w0 p q + mm x1 w1 p q) + mm x2 w2 p q) + b (row0 q)) 0 := by
  unfold k6_pay2
  simp only [shapeCast_self]
  rw [maximumf_apply, addf_apply, addf_apply, addf_apply, broadcast_apply, mm6_128_64, mm6_128_64, mm6_64_64, bias6_64]
  exact congrArg (max _) Ideal.ofBits_zero_f32

/-- The first product of the head for one tile at (p, q). -/
theorem pay6_h0_at (x0 : Vec Ideal S16000x128 .f32) (u0 : Vec Ideal S128x1 .f32) (p : Fin 16000) (q : Fin 1) :
    k6_pay3 (F := Ideal) x0 u0 (ix2 p q) = mm x0 u0 p q := by
  unfold k6_pay3
  simp only [shapeCast_self]
  exact mm6_128_1 _ _ p q

/-- The reloaded block passes through unchanged. -/
theorem pay6_id (x1 : Vec Ideal S16000x128 .f32) : k6_pay4 (F := Ideal) x1 = x1 := by
  unfold k6_pay4
  exact shapeCast_self _ _

/-- The head of one tile at (p, q), from its first product s, the gathered block x₁ and the updated features e. -/
theorem pay6_pred_at (e : FVec Ideal S16000x64 .f32) (s : FVec Ideal S16000x1 .f32) (x1 : FVec Ideal S16000x128 .f32)
    (u1 : Vec Ideal S128x1 .f32) (u2 : Vec Ideal S64x1 .f32) (b : Vec Ideal S1x1 .f32) (p : Fin 16000) (q : Fin 1) :
    k6_pay1 (F := Ideal) e s x1 u1 u2 b (ix2 p q)
      = ((s (ix2 p q) + mm x1 u1 p q) + mm e u2 p q) + b (row0 q) := by
  unfold k6_pay1
  simp only [shapeCast_self]
  rw [addf_apply, addf_apply, addf_apply, mm6_128_1, mm6_64_1, bias6_1]

/-! ## One tile of each output as rows of the layer function -/

/-- If the blocks a tile loads are rows r p of the three big arrays and the weights are the whole small arrays, the
    tile's updated edge features at (p, q) are the layer function of the arrays at row r p. -/
theorem tile6_e (X0 : FVec Ideal S800000x128 .f32) (W0 : FVec Ideal S128x64 .f32) (X1 : FVec Ideal S800000x128 .f32)
    (W1 : FVec Ideal S128x64 .f32) (X2 : FVec Ideal S800000x64 .f32) (W2 : FVec Ideal S64x64 .f32) (B : FVec Ideal S1x64 .f32)
    (x0 : Vec Ideal S16000x128 .f32) (w0 : Vec Ideal S128x64 .f32) (x1 : Vec Ideal S16000x128 .f32)
    (w1 : Vec Ideal S128x64 .f32) (x2 : Vec Ideal S16000x64 .f32) (w2 : Vec Ideal S64x64 .f32) (b : Vec Ideal S1x64 .f32)
    (r : Fin 16000 → Fin 800000)
    (h0 : ∀ (p : Fin 16000) (k : Fin 128), x0 (ix2 p k) = X0 (ix2 (r p) k))
    (h1 : ∀ (p : Fin 16000) (k : Fin 128), x1 (ix2 p k) = X1 (ix2 (r p) k))
    (h2 : ∀ (p : Fin 16000) (k : Fin 64), x2 (ix2 p k) = X2 (ix2 (r p) k))
    (hw0 : w0 = W0) (hw1 : w1 = W1) (hw2 : w2 = W2) (hb : b = B) (p : Fin 16000) (q : Fin 64) :
    k6_pay2 (F := Ideal) x0 w0 x1 w1 x2 w2 b (ix2 p q) = relu3 X0 W0 X1 W1 X2 W2 B (ix2 (r p) q) := by
  subst hw0 hw1 hw2 hb
  rw [pay6_e_at, relu3_apply]
  unfold mm
  simp only [h0, h1, h2]

/-- The same for the head: its tile at (p, q) is the head's layer function of the arrays and of the whole updated edge
    features at row r p, once the tile of updated features it reads is rows r p of the whole. -/
theorem tile6_pred (X0 : FVec Ideal S800000x128 .f32) (U0 : FVec Ideal S128x1 .f32) (X1 : FVec Ideal S800000x128 .f32)
    (U1 : FVec Ideal S128x1 .f32) (E : FVec Ideal S800000x64 .f32) (U2 : FVec Ideal S64x1 .f32) (B : FVec Ideal S1x1 .f32)
    (x0 : Vec Ideal S16000x128 .f32) (u0 : Vec Ideal S128x1 .f32) (x1 : Vec Ideal S16000x128 .f32)
    (u1 : Vec Ideal S128x1 .f32) (e : FVec Ideal S16000x64 .f32) (u2 : Vec Ideal S64x1 .f32) (b : Vec Ideal S1x1 .f32)
    (r : Fin 16000 → Fin 800000)
    (h0 : ∀ (p : Fin 16000) (k : Fin 128), x0 (ix2 p k) = X0 (ix2 (r p) k))
    (h1 : ∀ (p : Fin 16000) (k : Fin 128), x1 (ix2 p k) = X1 (ix2 (r p) k))
    (he : ∀ (p : Fin 16000) (k : Fin 64), e (ix2 p k) = E (ix2 (r p) k))
    (hu0 : u0 = U0) (hu1 : u1 = U1) (hu2 : u2 = U2) (hb : b = B) (p : Fin 16000) (q : Fin 1) :
    k6_pay1 (F := Ideal) e (k6_pay3 (F := Ideal) x0 u0) (k6_pay4 (F := Ideal) x1) u1 u2 b (ix2 p q)
      = lin3 X0 U0 X1 U1 E U2 B (ix2 (r p) q) := by
  subst hu0 hu1 hu2 hb
  rw [pay6_pred_at, pay6_h0_at, pay6_id, lin3_apply]
  unfold mm
  simp only [h0, h1, he]

-- the TensorCore's buffer contents when the call is entered
variable (V : (c : Dev nD) → (b : Ref sig .tc) → Buf (Elt Ideal) ((c : Thread nD τ).loc b))

/-! ## The tiles: which rows of which array a window's block holds -/

/-- The printed index maps over the 50 grid points: the five tiled windows sit at row block t, column block 0; the eight
    weight and bias windows are the whole array at every point. -/
theorem idx6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0)
    ∧ (win6_9.index t (0 : Fin 2) = 0 ∧ win6_9.index t (1 : Fin 2) = 0)
    ∧ (win6_10.index t (0 : Fin 2) = 0 ∧ win6_10.index t (1 : Fin 2) = 0)
    ∧ (win6_11.index t (0 : Fin 2) = t.val ∧ win6_11.index t (1 : Fin 2) = 0)
    ∧ (win6_12.index t (0 : Fin 2) = t.val ∧ win6_12.index t (1 : Fin 2) = 0) :=
  (by decide +kernel : ∀ t : Fin grid6.N, _)

/-- A grid point is below 50. -/
theorem pt6_lt (t : Fin cfg6.N) : t.val < 50 := Nat.lt_of_lt_of_eq t.isLt N_6

/-- Row p of tile t is row 16000 t + p of an 800000-row array. -/
abbrev row6 (t : Fin cfg6.N) (p : Fin 16000) : Fin 800000 := ⟨t.val * 16000 + p.val, by have := pt6_lt t; omega⟩

/-- Window 0's block at point t is rows 16000 t … 16000 t + 15999 of the gathered source nodes. -/
theorem blk6_0 (c : Dev nD) (t : Fin cfg6.N) (p : Fin 16000) (k : Fin 128) :
    (iblk6 (F := Ideal) V c 0 t : Vec Ideal S16000x128 .f32) (ix2 p k)
      = (V c main_v59 : FVec Ideal S800000x128 .f32) (ix2 (row6 t p) k) := by
  obtain ⟨e0, e1⟩ := (idx6 t).1
  unfold iblk6
  rw [View.read_apply]
  show V c main_v59 (((cfg6.win 0).blk t).view.emb (ix2 p k)) = V c main_v59 (ix2 (row6 t p) k)
  refine congrArg (V c main_v59) (funext fun a => Fin.ext ?_)
  match a with
  | ⟨0, _⟩ => show win6_0.index t (0 : Fin 2) * 16000 + 1 * p.val = t.val * 16000 + p.val; rw [e0]; omega
  | ⟨1, _⟩ => show win6_0.index t (1 : Fin 2) * 128 + 1 * k.val = k.val; rw [e1]; omega

/-- Window 1's block at point t is the same rows of the gathered destination nodes. -/
theorem blk6_1 (c : Dev nD) (t : Fin cfg6.N) (p : Fin 16000) (k : Fin 128) :
    (iblk6 (F := Ideal) V c 1 t : Vec Ideal S16000x128 .f32) (ix2 p k)
      = (V c main_v60 : FVec Ideal S800000x128 .f32) (ix2 (row6 t p) k) := by
  obtain ⟨e0, e1⟩ := (idx6 t).2.1
  unfold iblk6
  rw [View.read_apply]
  show V c main_v60 (((cfg6.win 1).blk t).view.emb (ix2 p k)) = V c main_v60 (ix2 (row6 t p) k)
  refine congrArg (V c main_v60) (funext fun a => Fin.ext ?_)
  match a with
  | ⟨0, _⟩ => show win6_1.index t (0 : Fin 2) * 16000 + 1 * p.val = t.val * 16000 + p.val; rw [e0]; omega
  | ⟨1, _⟩ => show win6_1.index t (1 : Fin 2) * 128 + 1 * k.val = k.val; rw [e1]; omega

/-- Window 2's block at point t is the same rows of the edge features. -/
theorem blk6_2 (c : Dev nD) (t : Fin cfg6.N) (p : Fin 16000) (k : Fin 64) :
    (iblk6 (F := Ideal) V c 2 t : Vec Ideal S16000x64 .f32) (ix2 p k)
      = (V c main_v37 : FVec Ideal S800000x64 .f32) (ix2 (row6 t p) k) := by
  obtain ⟨e0, e1⟩ := (idx6 t).2.2.1
  unfold iblk6
  rw [View.read_apply]
  show V c main_v37 (((cfg6.win 2).blk t).view.emb (ix2 p k)) = V c main_v37 (ix2 (row6 t p) k)
  refine congrArg (V c main_v37) (funext fun a => Fin.ext ?_)
  match a with
  | ⟨0, _⟩ => show win6_2.index t (0 : Fin 2) * 16000 + 1 * p.val = t.val * 16000 + p.val; rw [e0]; omega
  | ⟨1, _⟩ => show win6_2.index t (1 : Fin 2) * 64 + 1 * k.val = k.val; rw [e1]; omega

/-- Window 3's block is the whole first weight of the update at every point. -/
theorem blk6_3 (c : Dev nD) (t : Fin cfg6.N) :
    (iblk6 (F := Ideal) V c 3 t : Vec Ideal S128x64 .f32) = (V c main_v62 : FVec Ideal S128x64 .f32) := by
  obtain ⟨e0, e1⟩ := (idx6 t).2.2.2.1
  funext y
  unfold iblk6
  rw [View.read_apply]
  show V c main_v62 (((cfg6.win 3).blk t).view.emb y) = V c main_v62 y
  refine congrArg (V c main_v62) (funext fun a => Fin.ext ?_)
  match a with
  | ⟨0, _⟩ => show win6_3.index t (0 : Fin 2) * 128 + 1 * (y 0).val = (y 0).val; rw [e0]; omega
  | ⟨1, _⟩ => show win6_3.index t (1 : Fin 2) * 64 + 1 * (y 1).val = (y 1).val; rw [e1]; omega

/-- Window 4's block is the whole second weight of the update. -/
theorem blk6_4 (c : Dev nD) (t : Fin cfg6.N) :
    (iblk6 (F := Ideal) V c 4 t : Vec Ideal S128x64 .f32) = (V c main_v64 : FVec Ideal S128x64 .f32) := by
  obtain ⟨e0, e1⟩ := (idx6 t).2.2.2.2.1
  funext y
  unfold iblk6
  rw [View.read_apply]
  show V c main_v64 (((cfg6.win 4).blk t).view.emb y) = V c main_v64 y
  refine congrArg (V c main_v64) (funext fun a => Fin.ext ?_)
  match a with
  | ⟨0, _⟩ => show win6_4.index t (0 : Fin 2) * 128 + 1 * (y 0).val = (y 0).val; rw [e0]; omega
  | ⟨1, _⟩ => show win6_4.index t (1 : Fin 2) * 64 + 1 * (y 1).val = (y 1).val; rw [e1]; omega

/-- Window 5's block is the whole third weight of the update. -/
theorem blk6_5 (c : Dev nD) (t : Fin cfg6.N) :
    (iblk6 (F := Ideal) V c 5 t : Vec Ideal S64x64 .f32) = (V c main_v66 : FVec Ideal S64x64 .f32) := by
  obtain ⟨e0, e1⟩ := (idx6 t).2.2.2.2.2.1
  funext y
  unfold iblk6
  rw [View.read_apply]
  show V c main_v66 (((cfg6.win 5).blk t).view.emb y) = V c main_v66 y
  refine congrArg (V c main_v66) (funext fun a => Fin.ext ?_)
  match a with
  | ⟨0, _⟩ => show win6_5.index t (0 : Fin 2) * 64 + 1 * (y 0).val = (y 0).val; rw [e0]; omega
  | ⟨1, _⟩ => show win6_5.index t (1 : Fin 2) * 64 + 1 * (y 1).val = (y 1).val; rw [e1]; omega

/-- Window 6's block is the whole bias row of the update. -/
theorem blk6_6 (c : Dev nD) (t : Fin cfg6.N) :
    (iblk6 (F := Ideal) V c 6 t : Vec Ideal S1x64 .f32) = (V c main_v72 : FVec Ideal S1x64 .f32) := by
  obtain ⟨e0, e1⟩ := (idx6 t).2.2.2.2.2.2.1
  funext y
  unfold iblk6
  rw [View.read_apply]
  show V c main_v72 (((cfg6.win 6).blk t).view.emb y) = V c main_v72 y
  refine congrArg (V c main_v72) (funext fun a => Fin.ext ?_)
  match a with
  | ⟨0, _⟩ => show win6_6.index t (0 : Fin 2) * 1 + 1 * (y 0).val = (y 0).val; rw [e0]; omega
  | ⟨1, _⟩ => show win6_6.index t (1 : Fin 2) * 64 + 1 * (y 1).val = (y 1).val; rw [e1]; omega

/-- Window 7's block is the whole first column of the head. -/
theorem blk6_7 (c : Dev nD) (t : Fin cfg6.N) :
    (iblk6 (F := Ideal) V c 7 t : Vec Ideal S128x1 .f32) = (V c main_v69 : FVec Ideal S128x1 .f32) := by
  obtain ⟨e0, e1⟩ := (idx6 t).2.2.2.2.2.2.2.1
  funext y
  unfold iblk6
  rw [View.read_apply]
  show V c main_v69 (((cfg6.win 7).blk t).view.emb y) = V c main_v69 y
  refine congrArg (V c main_v69) (funext fun a => Fin.ext ?_)
  match a with
  | ⟨0, _⟩ => show win6_7.index t (0 : Fin 2) * 128 + 1 * (y 0).val = (y 0).val; rw [e0]; omega
  | ⟨1, _⟩ => show win6_7.index t (1 : Fin 2) * 1 + 1 * (y 1).val = (y 1).val; rw [e1]; omega

/-- Window 8's block is the whole second column of the head. -/
theorem blk6_8 (c : Dev nD) (t : Fin cfg6.N) :
    (iblk6 (F := Ideal) V c 8 t : Vec Ideal S128x1 .f32) = (V c main_v70 : FVec Ideal S128x1 .f32) := by
  obtain ⟨e0, e1⟩ := (idx6 t).2.2.2.2.2.2.2.2.1
  funext y
  unfold iblk6
  rw [View.read_apply]
  show V c main_v70 (((cfg6.win 8).blk t).view.emb y) = V c main_v70 y
  refine congrArg (V c main_v70) (funext fun a => Fin.ext ?_)
  match a with
  | ⟨0, _⟩ => show win6_8.index t (0 : Fin 2) * 128 + 1 * (y 0).val = (y 0).val; rw [e0]; omega
  | ⟨1, _⟩ => show win6_8.index t (1 : Fin 2) * 1 + 1 * (y 1).val = (y 1).val; rw [e1]; omega

/-- Window 9's block is the whole third column of the head. -/
theorem blk6_9 (c : Dev nD) (t : Fin cfg6.N) :
    (iblk6 (F := Ideal) V c 9 t : Vec Ideal S64x1 .f32) = (V c main_v71 : FVec Ideal S64x1 .f32) := by
  obtain ⟨e0, e1⟩ := (idx6 t).2.2.2.2.2.2.2.2.2.1
  funext y
  unfold iblk6
  rw [View.read_apply]
  show V c main_v71 (((cfg6.win 9).blk t).view.emb y) = V c main_v71 y
  refine congrArg (V c main_v71) (funext fun a => Fin.ext ?_)
  match a with
  | ⟨0, _⟩ => show win6_9.index t (0 : Fin 2) * 64 + 1 * (y 0).val = (y 0).val; rw [e0]; omega
  | ⟨1, _⟩ => show win6_9.index t (1 : Fin 2) * 1 + 1 * (y 1).val = (y 1).val; rw [e1]; omega

/-- Window 10's block is the head's one bias entry. -/
theorem blk6_10 (c : Dev nD) (t : Fin cfg6.N) :
    (iblk6 (F := Ideal) V c 10 t : Vec Ideal S1x1 .f32) = (V c main_v73 : FVec Ideal S1x1 .f32) := by
  obtain ⟨e0, e1⟩ := (idx6 t).2.2.2.2.2.2.2.2.2.2.1
  funext y
  unfold iblk6
  rw [View.read_apply]
  show V c main_v73 (((cfg6.win 10).blk t).view.emb y) = V c main_v73 y
  refine congrArg (V c main_v73) (funext fun a => Fin.ext ?_)
  match a with
  | ⟨0, _⟩ => show win6_10.index t (0 : Fin 2) * 1 + 1 * (y 0).val = (y 0).val; rw [e0]; omega
  | ⟨1, _⟩ => show win6_10.index t (1 : Fin 2) * 1 + 1 * (y 1).val = (y 1).val; rw [e1]; omega

/-! ## What each point writes back, and the whole arrays -/

/-- The updated edge features as one function of the arrays the call finds. -/
abbrev eOut6 (c : Dev nD) : FVec Ideal S800000x64 .f32 :=
  relu3 (V c main_v59) (V c main_v62) (V c main_v60) (V c main_v64) (V c main_v37) (V c main_v66) (V c main_v72)

/-- The edge predictions as one function of the arrays the call finds. -/
abbrev predOut6 (c : Dev nD) : FVec Ideal S800000x1 .f32 :=
  lin3 (V c main_v59) (V c main_v69) (V c main_v60) (V c main_v70) (eOut6 V c) (V c main_v71) (V c main_v73)

/-- The tile of updated edge features computed at point t, entry by entry. -/
theorem tileE6_at (c : Dev nD) (t : Fin cfg6.N) (p : Fin 16000) (q : Fin 64) :
    k6_pay2 (F := Ideal) (iblk6 V c 0 t) (iblk6 V c 3 t) (iblk6 V c 1 t) (iblk6 V c 4 t) (iblk6 V c 2 t) (iblk6 V c 5 t) (iblk6 V c 6 t) (ix2 p q)
      = eOut6 V c (ix2 (row6 t p) q) :=
  tile6_e (V c main_v59) (V c main_v62) (V c main_v60) (V c main_v64) (V c main_v37) (V c main_v66) (V c main_v72)
    (iblk6 V c 0 t) (iblk6 V c 3 t) (iblk6 V c 1 t) (iblk6 V c 4 t) (iblk6 V c 2 t) (iblk6 V c 5 t) (iblk6 V c 6 t)
    (row6 t) (blk6_0 V c t) (blk6_1 V c t) (blk6_2 V c t) (blk6_3 V c t) (blk6_4 V c t) (blk6_5 V c t) (blk6_6 V c t) p q

/-- Point t writes back its tile of the updated edge features. -/
theorem flushed6_e (c : Dev nD) (t : Fin cfg6.N) :
    (dat6 (F := Ideal) V c).flushed 11 t = ((cfg6.win 11).blk t).view.read (Elt Ideal) (eOut6 V c) := by
  show (cfg6.win 11).cut (grid6.coords t) ((dat6 (F := Ideal) V c).after 11 t) = _
  rw [after6_11]
  unfold out6_11
  rw [View.canon_unit_zero off6_zero]
  simp only [View.ld_unit_zero (S := S16000x128) off6_zero, View.ld_unit_zero (S := S128x64) off6_zero,
    View.ld_unit_zero (S := S16000x64) off6_zero, View.ld_unit_zero (S := S64x64) off6_zero,
    View.ld_unit_zero (S := S1x64) off6_zero]
  obtain ⟨e0, e1⟩ := (idx6 t).2.2.2.2.2.2.2.2.2.2.2.1
  funext j
  obtain ⟨p, q, rfl⟩ : ∃ (p : Fin 16000) (q : Fin 64), j = ix2 p q := ⟨j 0, j 1, eq_ix2 j⟩
  have hj : ((cfg6.win 11).blk t).view.emb (ix2 p q) = (ix2 (row6 t p) q : S800000x64.Idx) :=
    funext fun a => Fin.ext (by
      match a with
      | ⟨0, _⟩ => show win6_11.index t (0 : Fin 2) * 16000 + 1 * p.val = t.val * 16000 + p.val; rw [e0]; omega
      | ⟨1, _⟩ => show win6_11.index t (1 : Fin 2) * 64 + 1 * q.val = q.val; rw [e1]; omega)
  rw [View.read_apply]
  show _ = eOut6 V c (((cfg6.win 11).blk t).view.emb (ix2 p q))
  rw [hj]
  exact tileE6_at V c t p q

/-- The tile of predictions computed at point t, entry by entry. -/
theorem tileP6_at (c : Dev nD) (t : Fin cfg6.N) (p : Fin 16000) (q : Fin 1) :
    k6_pay1 (F := Ideal)
        (k6_pay2 (F := Ideal) (iblk6 V c 0 t) (iblk6 V c 3 t) (iblk6 V c 1 t) (iblk6 V c 4 t) (iblk6 V c 2 t) (iblk6 V c 5 t) (iblk6 V c 6 t))
        (k6_pay3 (F := Ideal) (iblk6 V c 0 t) (iblk6 V c 7 t)) (k6_pay4 (F := Ideal) (iblk6 V c 1 t))
        (iblk6 V c 8 t) (iblk6 V c 9 t) (iblk6 V c 10 t) (ix2 p q)
      = predOut6 V c (ix2 (row6 t p) q) :=
  tile6_pred (V c main_v59) (V c main_v69) (V c main_v60) (V c main_v70) (eOut6 V c) (V c main_v71) (V c main_v73)
    (iblk6 V c 0 t) (iblk6 V c 7 t) (iblk6 V c 1 t) (iblk6 V c 8 t)
    (k6_pay2 (F := Ideal) (iblk6 V c 0 t) (iblk6 V c 3 t) (iblk6 V c 1 t) (iblk6 V c 4 t) (iblk6 V c 2 t) (iblk6 V c 5 t) (iblk6 V c 6 t))
    (iblk6 V c 9 t) (iblk6 V c 10 t)
    (row6 t) (blk6_0 V c t) (blk6_1 V c t) (tileE6_at V c t) (blk6_7 V c t) (blk6_8 V c t) (blk6_9 V c t) (blk6_10 V c t) p q

/-- Point t writes back its tile of the predictions. -/
theorem flushed6_pred (c : Dev nD) (t : Fin cfg6.N) :
    (dat6 (F := Ideal) V c).flushed 12 t = ((cfg6.win 12).blk t).view.read (Elt Ideal) (predOut6 V c) := by
  show (cfg6.win 12).cut (grid6.coords t) ((dat6 (F := Ideal) V c).after 12 t) = _
  rw [after6_12]
  unfold out6_12
  rw [View.canon_unit_zero off6_zero]
  simp only [View.ld_unit_zero (S := S16000x128) off6_zero, View.ld_unit_zero (S := S128x64) off6_zero,
    View.ld_unit_zero (S := S16000x64) off6_zero, View.ld_unit_zero (S := S64x64) off6_zero,
    View.ld_unit_zero (S := S1x64) off6_zero, View.ld_unit_zero (S := S128x1) off6_zero,
    View.ld_unit_zero (S := S64x1) off6_zero, View.ld_unit_zero (S := S1x1) off6_zero]
  obtain ⟨e0, e1⟩ := (idx6 t).2.2.2.2.2.2.2.2.2.2.2.2
  funext j
  obtain ⟨p, q, rfl⟩ : ∃ (p : Fin 16000) (q : Fin 1), j = ix2 p q := ⟨j 0, j 1, eq_ix2 j⟩
  have hj : ((cfg6.win 12).blk t).view.emb (ix2 p q) = (ix2 (row6 t p) q : S800000x1.Idx) :=
    funext fun a => Fin.ext (by
      match a with
      | ⟨0, _⟩ => show win6_12.index t (0 : Fin 2) * 16000 + 1 * p.val = t.val * 16000 + p.val; rw [e0]; omega
      | ⟨1, _⟩ => show win6_12.index t (1 : Fin 2) * 1 + 1 * q.val = q.val; rw [e1]; omega)
  rw [View.read_apply]
  show _ = predOut6 V c (((cfg6.win 12).blk t).view.emb (ix2 p q))
  rw [hj]
  exact tileP6_at V c t p q

/-- An edge row lies in point t's tile of the updated features iff it is one of rows 16000 t … 16000 t + 15999. -/
theorem mem_blk6_e (t : Fin cfg6.N) (i : S800000x64.Idx) :
    i ∈ ((cfg6.win 11).blk t).view.set ↔ ∀ a : Fin 2, win6_11.index t a * S16000x64.size a ≤ (i a).val
      ∧ (i a).val < win6_11.index t a * S16000x64.size a + S16000x64.size a := by
  show i ∈ ((View.whole main_v74_0).slice (win6_11.rect t)).set ↔ _
  rw [View.set_slice_whole, Rect.mem_set_unit]
  exact Iff.rfl

/-- The same for the predictions' tiles. -/
theorem mem_blk6_pred (t : Fin cfg6.N) (i : S800000x1.Idx) :
    i ∈ ((cfg6.win 12).blk t).view.set ↔ ∀ a : Fin 2, win6_12.index t a * S16000x1.size a ≤ (i a).val
      ∧ (i a).val < win6_12.index t a * S16000x1.size a + S16000x1.size a := by
  show i ∈ ((View.whole main_v74_1).slice (win6_12.rect t)).set ↔ _
  rw [View.set_slice_whole, Rect.mem_set_unit]
  exact Iff.rfl

/-- Every edge row r is in the tile of point r / 16000, which is written back. -/
theorem cover6_e (i : S800000x64.Idx) :
    ∃ t : Fin cfg6.N, (cfg6.win 11).flush t = true ∧ i ∈ ((cfg6.win 11).blk t).view.set := by
  have hi0 : (i 0).val < 800000 := (i 0).isLt
  have hi1 : (i 1).val < 64 := (i 1).isLt
  obtain ⟨t, ht⟩ : ∃ t : Fin cfg6.N, t.val = (i 0).val / 16000 :=
    ⟨⟨(i 0).val / 16000, Nat.lt_of_lt_of_eq (by omega : (i 0).val / 16000 < 50) N_6.symm⟩, rfl⟩
  obtain ⟨e0, e1⟩ := (idx6 t).2.2.2.2.2.2.2.2.2.2.2.1
  refine ⟨t, flush6_11 t, ?_⟩
  rw [mem_blk6_e]
  intro a
  match a with
  | ⟨0, _⟩ =>
    show win6_11.index t (0 : Fin 2) * 16000 ≤ (i 0).val ∧ (i 0).val < win6_11.index t (0 : Fin 2) * 16000 + 16000
    rw [e0, ht]; omega
  | ⟨1, _⟩ =>
    show win6_11.index t (1 : Fin 2) * 64 ≤ (i 1).val ∧ (i 1).val < win6_11.index t (1 : Fin 2) * 64 + 64
    rw [e1]; omega

/-- The same cover for the predictions. -/
theorem cover6_pred (i : S800000x1.Idx) :
    ∃ t : Fin cfg6.N, (cfg6.win 12).flush t = true ∧ i ∈ ((cfg6.win 12).blk t).view.set := by
  have hi0 : (i 0).val < 800000 := (i 0).isLt
  have hi1 : (i 1).val < 1 := (i 1).isLt
  obtain ⟨t, ht⟩ : ∃ t : Fin cfg6.N, t.val = (i 0).val / 16000 :=
    ⟨⟨(i 0).val / 16000, Nat.lt_of_lt_of_eq (by omega : (i 0).val / 16000 < 50) N_6.symm⟩, rfl⟩
  obtain ⟨e0, e1⟩ := (idx6 t).2.2.2.2.2.2.2.2.2.2.2.2
  refine ⟨t, flush6_12 t, ?_⟩
  rw [mem_blk6_pred]
  intro a
  match a with
  | ⟨0, _⟩ =>
    show win6_12.index t (0 : Fin 2) * 16000 ≤ (i 0).val ∧ (i 0).val < win6_12.index t (0 : Fin 2) * 16000 + 16000
    rw [e0, ht]; omega
  | ⟨1, _⟩ =>
    show win6_12.index t (1 : Fin 2) * 1 ≤ (i 1).val ∧ (i 1).val < win6_12.index t (1 : Fin 2) * 1 + 1
    rw [e1]; omega

/-- The edge features after layer 1. -/
theorem region6_out_e (c : Dev nD) :
    (dat6 (F := Ideal) V c).arrAt 11 cfg6.N
      = relu3 (V c main_v59) (V c main_v62) (V c main_v60) (V c main_v64) (V c main_v37) (V c main_v66) (V c main_v72) :=
  (dat6 (F := Ideal) V c).arrAt_eq_of_cover 11 (eOut6 V c) (fun t _ => flushed6_e V c t) cover6_e

/-- The edge predictions: the head applied to the gathered nodes and the updated edge features. -/
theorem region6_out_pred (c : Dev nD) :
    (dat6 (F := Ideal) V c).arrAt 12 cfg6.N
      = lin3 (V c main_v59) (V c main_v69) (V c main_v60) (V c main_v70)
          (relu3 (V c main_v59) (V c main_v62) (V c main_v60) (V c main_v64) (V c main_v37) (V c main_v66) (V c main_v72)) (V c main_v71) (V c main_v73) :=
  (dat6 (F := Ideal) V c).arrAt_eq_of_cover 12 (predOut6 V c) (fun t _ => flushed6_pred V c t) cover6_pred

end Cert.KernelIdeal.Bridge

end
-- ==== Proof.Chain6.lean ====
/-
  Through the last two takes and the fused edge update and edge head: the second output is the reference's edge predictions, and the node predictions written two calls earlier are untouched.

  Between the node head's call and the last call the program runs three host stretches: a take of the layer-1 node
  features at the source row, a take at the target row, and slices and reshapes of the weight and bias arguments. A take
  whose indices are all node numbers is the plain gather the reference does; the slices and reshapes are the reference's
  own operations on the same arguments, and a bias kept as a 1 × N row by a reshape is the row the reference makes by a
  broadcast. The last call then writes the head's layer function of those arrays, which is the reference's edge head of
  the reference's edge update, the reference gathering the same rows a second time for the head. The node predictions
  are in none of the buffers the stretches or the call write.
-/
import proofs.«418406_j45518063403048_2_alg».proof.Proof.Names
import proofs.«418406_j45518063403048_2_alg».proof.Proof.Region6
import proofs.«418406_j45518063403048_2_alg».proof.Proof.RefStagesB
import proofs.«418406_j45518063403048_2_alg».proof.Proof.Rows
import proofs.«418406_j45518063403048_2_alg».proof.Proof.Take
import proofs.«418406_j45518063403048_2_alg».proof.Proof.IntFacts
import Idealize.ShloMosaic.Lib.StableHlo.Run
import Idealize.ShloMosaic.Lib.Pipeline.Value
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open Cert.ReferenceIdeal.Read

variable (m : (ℓ : Loc nD τ sig) → Buf (Elt Ideal) ℓ) (ρ : Dev nD → PrngReg) (c : Dev nD)

namespace Chain6

/-- Closes the side condition "no operation of the stretch writes this buffer": the stretch's list of written buffers is
    spelled out and the buffer differs from each. -/
local macro "stretch_keeps " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Buffers the three host stretches do not write -/

/-- The node predictions cross the three stretches. -/
theorem np19 : W19 m ρ c (Proc.devRef .tc main_v58_1) = W16 m ρ c (Proc.devRef .tc main_v58_1) :=
  ((StableHlo.after_of_forall_not_mem (b := Proc.devRef .tc main_v58_1) _ _ (by stretch_keeps hostOps6_2)).trans
    (StableHlo.after_of_forall_not_mem (b := Proc.devRef .tc main_v58_1) _ _ (by stretch_keeps hostOps6_1))).trans
    (StableHlo.after_of_forall_not_mem (b := Proc.devRef .tc main_v58_1) _ _ (by stretch_keeps hostOps6))

/-- The edge features of layer 0 cross the three stretches. -/
theorem ea19 : W19 m ρ c (Proc.devRef .tc main_v37) = W16 m ρ c (Proc.devRef .tc main_v37) :=
  ((StableHlo.after_of_forall_not_mem (b := Proc.devRef .tc main_v37) _ _ (by stretch_keeps hostOps6_2)).trans
    (StableHlo.after_of_forall_not_mem (b := Proc.devRef .tc main_v37) _ _ (by stretch_keeps hostOps6_1))).trans
    (StableHlo.after_of_forall_not_mem (b := Proc.devRef .tc main_v37) _ _ (by stretch_keeps hostOps6))

/-- The node features of layer 1 cross the first take. -/
theorem h17 : W17 m ρ c (Proc.devRef .tc main_v58_0) = W16 m ρ c (Proc.devRef .tc main_v58_0) :=
  StableHlo.after_of_forall_not_mem (b := Proc.devRef .tc main_v58_0) _ _ (by stretch_keeps hostOps6)

/-- The target row crosses the first take. -/
theorem dst17 : W17 m ρ c (Proc.devRef .tc main_v3) = W16 m ρ c (Proc.devRef .tc main_v3) :=
  StableHlo.after_of_forall_not_mem (b := Proc.devRef .tc main_v3) _ _ (by stretch_keeps hostOps6)

/-- The gathered source rows cross the second take and the slices. -/
theorem src19 : W19 m ρ c (Proc.devRef .tc main_v59) = W17 m ρ c (Proc.devRef .tc main_v59) :=
  (StableHlo.after_of_forall_not_mem (b := Proc.devRef .tc main_v59) _ _ (by stretch_keeps hostOps6_2)).trans
    (StableHlo.after_of_forall_not_mem (b := Proc.devRef .tc main_v59) _ _ (by stretch_keeps hostOps6_1))

/-- The gathered target rows cross the slices. -/
theorem dst19 : W19 m ρ c (Proc.devRef .tc main_v60) = W18 m ρ c (Proc.devRef .tc main_v60) :=
  StableHlo.after_of_forall_not_mem (b := Proc.devRef .tc main_v60) _ _ (by stretch_keeps hostOps6_2)

/-! ## The two takes -/

/-- Contents carried to a typed reference's buffer and back are unchanged. -/
theorem ofBuf_toBuf {T : BufTy} (x : StableHlo.TRef sig T) (v : T.Contents (Elt Ideal)) : x.ofBuf (x.toBuf v) = v := by
  obtain ⟨r, h, d, u⟩ := x
  subst h
  rfl

/-- Reading the source row through its typed reference is reading the buffer. -/
theorem ofBuf_v1 (h : main_v1.ty = ⟨S800000, .i32⟩) (d u) (v : main_v1.ty.Contents (Elt Ideal)) :
    (StableHlo.TRef.of main_v1 h d u).ofBuf v = v := rfl

/-- Reading the target row through its typed reference is reading the buffer. -/
theorem ofBuf_v3 (h : main_v3.ty = ⟨S800000, .i32⟩) (d u) (v : main_v3.ty.Contents (Elt Ideal)) :
    (StableHlo.TRef.of main_v3 h d u).ofBuf v = v := rfl

/-- Reading the node table through its typed reference is reading the buffer. -/
theorem ofBuf_v58_0 (h : main_v58_0.ty = ⟨S50000x128, .f32⟩) (d u) (v : main_v58_0.ty.Contents (Elt Ideal)) :
    (StableHlo.TRef.of main_v58_0 h d u).ofBuf v = v := rfl

/-- Writing the gathered source rows through their typed reference is writing the buffer. -/
theorem toBuf_v59 (h : main_v59.ty = ⟨S800000x128, .f32⟩) (d u) (v : (⟨S800000x128, .f32⟩ : BufTy).Contents (Elt Ideal)) :
    (StableHlo.TRef.of main_v59 h d u).toBuf v = v := rfl

/-- Writing the gathered target rows through their typed reference is writing the buffer. -/
theorem toBuf_v60 (h : main_v60.ty = ⟨S800000x128, .f32⟩) (d u) (v : (⟨S800000x128, .f32⟩ : BufTy).Contents (Elt Ideal)) :
    (StableHlo.TRef.of main_v60 h d u).toBuf v = v := rfl

/-- The first take leaves the node table taken at the source row. -/
theorem take_src : W17 m ρ c (Proc.devRef .tc main_v59)
    = takeVal (W16 m ρ c (Proc.devRef .tc main_v58_0)) (W16 m ρ c (Proc.devRef .tc main_v1)) := by
  show StableHlo.after hostOps6 (W16 m ρ c) (Proc.devRef .tc main_v59) = _
  after_results_simp
  simp only [ofBuf_toBuf, ofBuf_v1, ofBuf_v58_0, toBuf_v59]

/-- The second take leaves the node table taken at the target row. -/
theorem take_dst : W18 m ρ c (Proc.devRef .tc main_v60)
    = takeVal (W17 m ρ c (Proc.devRef .tc main_v58_0)) (W17 m ρ c (Proc.devRef .tc main_v3)) := by
  show StableHlo.after hostOps6_1 (W17 m ρ c) (Proc.devRef .tc main_v60) = _
  after_results_simp
  simp only [ofBuf_toBuf, ofBuf_v3, ofBuf_v58_0, toBuf_v60]

/-- The gathered source rows are the reference's: every source index is a node number, so the take is the gather, and
    the column of start indices is the reference's wrapped index column. -/
theorem src_rows (hok : IdxOK (A2 m c)) (h : Inv16 m ρ c) : W19 m ρ c (Proc.devRef .tc main_v59) = R117 m c := by
  rw [src19, take_src, h.h2, h.src, take_in_range _ _ (src_range m c hok)]
  rfl

/-- The gathered target rows are the reference's. -/
theorem dst_rows (hok : IdxOK (A2 m c)) (h : Inv16 m ρ c) : W19 m ρ c (Proc.devRef .tc main_v60) = R127 m c := by
  rw [dst19, take_dst, h17, dst17, h.h2, h.dst, take_in_range _ _ (dst_range m c hok)]
  rfl

/-! ## The weights and biases the last stretch slices off the arguments -/

/-- The update's weight for the source rows: rows 0 … 127 of the second matrix of argument 9. -/
theorem w_src (h : Inv16 m ρ c) : W19 m ρ c (Proc.devRef .tc main_v62) = R119 m c := by
  show StableHlo.after hostOps6_2 (StableHlo.after hostOps6_1 (StableHlo.after hostOps6 (W16 m ρ c))) (Proc.devRef .tc main_v62) = _
  after_results
  rw [h.args.a9]
  rfl

/-- The update's weight for the target rows: rows 128 … 255 of the same matrix. -/
theorem w_dst (h : Inv16 m ρ c) : W19 m ρ c (Proc.devRef .tc main_v64) = R129 m c := by
  show StableHlo.after hostOps6_2 (StableHlo.after hostOps6_1 (StableHlo.after hostOps6 (W16 m ρ c))) (Proc.devRef .tc main_v64) = _
  after_results
  rw [h.args.a9]
  rfl

/-- The update's weight for the edge features: rows 256 … 319 of the same matrix. -/
theorem w_e (h : Inv16 m ρ c) : W19 m ρ c (Proc.devRef .tc main_v66) = R133 m c := by
  show StableHlo.after hostOps6_2 (StableHlo.after hostOps6_1 (StableHlo.after hostOps6 (W16 m ρ c))) (Proc.devRef .tc main_v66) = _
  after_results
  rw [h.args.a9]
  rfl

/-- The update's bias row: the second row of argument 10, kept as a 1 × 64 row by a reshape here and by a broadcast in
    the reference. -/
theorem b_e (h : Inv16 m ρ c) : W19 m ρ c (Proc.devRef .tc main_v72) = R138 m c := by
  show StableHlo.after hostOps6_2 (StableHlo.after hostOps6_1 (StableHlo.after hostOps6 (W16 m ρ c))) (Proc.devRef .tc main_v72) = _
  after_results
  rw [h.args.a10]
  exact row_reshape_eq_bcast _ _ _

/-- The head's column for the source rows: rows 0 … 127 of argument 13. -/
theorem u_src (h : Inv16 m ρ c) : W19 m ρ c (Proc.devRef .tc main_v69) = R153 m c := by
  show StableHlo.after hostOps6_2 (StableHlo.after hostOps6_1 (StableHlo.after hostOps6 (W16 m ρ c))) (Proc.devRef .tc main_v69) = _
  after_results
  rw [h.args.a13]
  rfl

/-- The head's column for the target rows: rows 128 … 255 of argument 13. -/
theorem u_dst (h : Inv16 m ρ c) : W19 m ρ c (Proc.devRef .tc main_v70) = R162 m c := by
  show StableHlo.after hostOps6_2 (StableHlo.after hostOps6_1 (StableHlo.after hostOps6 (W16 m ρ c))) (Proc.devRef .tc main_v70) = _
  after_results
  rw [h.args.a13]
  rfl

/-- The head's column for the edge features: rows 256 … 319 of argument 13. -/
theorem u_e (h : Inv16 m ρ c) : W19 m ρ c (Proc.devRef .tc main_v71) = R165 m c := by
  show StableHlo.after hostOps6_2 (StableHlo.after hostOps6_1 (StableHlo.after hostOps6 (W16 m ρ c))) (Proc.devRef .tc main_v71) = _
  after_results
  rw [h.args.a13]
  rfl

/-- The head's bias: argument 14 kept as a 1 × 1 row, by a reshape here and by a broadcast in the reference. -/
theorem b_pred (h : Inv16 m ρ c) : W19 m ρ c (Proc.devRef .tc main_v73) = R168 m c := by
  show StableHlo.after hostOps6_2 (StableHlo.after hostOps6_1 (StableHlo.after hostOps6 (W16 m ρ c))) (Proc.devRef .tc main_v73) = _
  after_results
  rw [h.args.a14]
  exact row_reshape_eq_bcast _ _ _

end Chain6

/-- The two results at the end of the run. -/
theorem chain6 (hok : IdxOK (A2 m c)) (h : Inv16 m ρ c) : Inv20 m ρ c where
  -- the node predictions are not an array of the last call and no stretch writes them
  np := (W20_of_ne m ρ c main_v58_1 (by decide)).trans ((Chain6.np19 m ρ c).trans h.np)
  -- the second output is the head's layer function of the arrays the call finds; each array is a stage of the
  -- reference, and the reference's head of its edge update is the same layer function of the same stages
  ep := by
    refine (W20_arr m ρ c 12).trans ?_
    refine (region6_out_pred (V19 m ρ) c).trans ?_
    rw [show V19 m ρ c main_v59 = R117 m c from Chain6.src_rows m ρ c hok h,
      show V19 m ρ c main_v60 = R127 m c from Chain6.dst_rows m ρ c hok h,
      show V19 m ρ c main_v37 = R74 m c from (Chain6.ea19 m ρ c).trans h.ea1,
      show V19 m ρ c main_v62 = R119 m c from Chain6.w_src m ρ c h,
      show V19 m ρ c main_v64 = R129 m c from Chain6.w_dst m ρ c h,
      show V19 m ρ c main_v66 = R133 m c from Chain6.w_e m ρ c h,
      show V19 m ρ c main_v72 = R138 m c from Chain6.b_e m ρ c h,
      show V19 m ρ c main_v69 = R153 m c from Chain6.u_src m ρ c h,
      show V19 m ρ c main_v70 = R162 m c from Chain6.u_dst m ρ c h,
      show V19 m ρ c main_v71 = R165 m c from Chain6.u_e m ρ c h,
      show V19 m ρ c main_v73 = R168 m c from Chain6.b_pred m ρ c h]
    refine ((Cert.ReferenceIdeal.Bridge.ref_ep (A0 m c) (A1 m c) (A2 m c) (A3 m c) (A4 m c) (A5 m c) (A6 m c) (A7 m c)
      (A8 m c) (A9 m c) (A10 m c) (A13 m c) (A14 m c)).trans ?_).symm
    rw [Cert.ReferenceIdeal.Bridge.ref_gather_src_again, Cert.ReferenceIdeal.Bridge.ref_gather_dst_again,
      Cert.ReferenceIdeal.Bridge.ref_e2]

end Cert.KernelIdeal.Bridge

end
-- ==== Proof.lean ====
/-
  A two-layer message-passing network on a graph of 50000 nodes and 800000 edges: an embedding, then per layer a message
  (gathered source rows and edge features through a linear layer and a clip at zero), a scatter-add into the target
  nodes, a node update and an edge update, and two prediction heads. The kernel program runs the seven matrix-product
  stages as tiled pallas_calls (the last node update fused with the node head, the last edge update with the edge head)
  and leaves the gathers and scatter-adds to the host; the reference is the same network written in jnp.

  Over the extended reals the two programs compute the same function of their arguments wherever the edge list holds
  node numbers (0 ≤ e < 50000, the domain in which the reference's own indexing is in range): each tiled stage equals
  the whole-array stage (a tile's rows of a product are the rows' products; 0 + x = x for the kernel's zero
  accumulator; the sums are associated the same way on both sides), the scatter-adds are the same operation on equal
  operands, and with indices in range jnp.take's fill never applies, so it is the reference's gather.

  The frames of the two kernel programs are the generated ones; the reference's frame is its generated run with the
  results dropped; the idealization rewrote nothing.
-/
import proofs.«418406_j45518063403048_2_alg».proof.Defs
import proofs.«418406_j45518063403048_2_alg».proof.Proof.Gen.Kernel
import proofs.«418406_j45518063403048_2_alg».proof.Proof.Gen.Kernel.Frame
import proofs.«418406_j45518063403048_2_alg».proof.Proof.Gen.KernelIdeal
import proofs.«418406_j45518063403048_2_alg».proof.Proof.Gen.KernelIdeal.Frame
import proofs.«418406_j45518063403048_2_alg».proof.Proof.Gen.ReferenceIdeal
import proofs.«418406_j45518063403048_2_alg».proof.Proof.Gen.Pre_finite_inputs
import proofs.«418406_j45518063403048_2_alg».proof.Proof.Gen.ReferenceIdeal.Run
import proofs.«418406_j45518063403048_2_alg».proof.Proof.Gen.ReferenceIdeal.Read
import proofs.«418406_j45518063403048_2_alg».proof.Proof.RunValue
import proofs.«418406_j45518063403048_2_alg».proof.Proof.Names
import proofs.«418406_j45518063403048_2_alg».proof.Proof.IntFacts
import proofs.«418406_j45518063403048_2_alg».proof.Proof.Chain0
import proofs.«418406_j45518063403048_2_alg».proof.Proof.Chain1
import proofs.«418406_j45518063403048_2_alg».proof.Proof.Chain2
import proofs.«418406_j45518063403048_2_alg».proof.Proof.Chain3
import proofs.«418406_j45518063403048_2_alg».proof.Proof.Chain4
import proofs.«418406_j45518063403048_2_alg».proof.Proof.Chain5
import proofs.«418406_j45518063403048_2_alg».proof.Proof.Chain6
import Idealize.ShloMosaic.Adequacy
import Idealize.ShloMosaic.Init

noncomputable section

namespace Cert.Proof

open Idealize.ShloMosaic Idealize.ShloMosaic.TcCoe Idealize.SL.Sem
open Cert.KernelIdeal.Bridge

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- With the edge list in range, the two results at the end of the kernel program's run are the reference's two
    results as functions of the launch arguments: the seven stages in order. -/
theorem results (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hok : IdxOK (A2 m c)) : Inv20 m ρ c :=
  chain6 m ρ c hok (chain5 m ρ c (chain4 m ρ c hok (chain3 m ρ c hok (chain2 m ρ c (chain1 m ρ c hok (chain0 m ρ c))))))

/-- Both idealized programs end with the reference's two stage values of the kernel program's launch arguments. -/
theorem algebraic : Cert.algebraic_KernelIdeal_ReferenceIdeal := by
  intro m ρ m' ρ' hpre hagree
  refine ⟨fun c => R145 m c, fun c => R170 m c, ?_, ?_⟩
  · refine (θ_run Cert.KernelIdeal.defs _ _).mono (fun r h c => ?_) (Cert.KernelIdeal.Gen.run_value (F := Ideal) m ρ)
    have inv := results m ρ c (idxOK_of_pre m c hpre)
    exact ⟨(h c).1.trans inv.np, (h c).2.1.trans inv.ep, (h c).2.2⟩
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14⟩ := hagree c
    refine ⟨(h c).1.trans ?_, (h c).2.1.trans ?_, (h c).2.2⟩
    · rw [Cert.ReferenceIdeal.Read.val_main_v145_eq, e0, e1, e2, e3, e4, e5, e6, e7, e8, e9, e10, e11, e12]
    · rw [Cert.ReferenceIdeal.Read.val_main_v170_eq, e0, e1, e2, e3, e4, e5, e6, e7, e8, e9, e10, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
